-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 21
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S10000x128, .bf16⟩
  | .hbm, ⟨11, _⟩ => ⟨S1x128, .f32⟩
  | .hbm, ⟨12, _⟩ => ⟨S10000x128, .f32⟩
  | .hbm, ⟨13, _⟩ => ⟨S1x128, .f32⟩
  | .hbm, ⟨14, _⟩ => ⟨S1x128, .f32⟩
  | .hbm, ⟨15, _⟩ => ⟨S10000x128, .bf16⟩
  | .hbm, ⟨16, _⟩ => ⟨S1x128, .f32⟩
  | .hbm, ⟨17, _⟩ => ⟨S10000x128, .f32⟩
  | .hbm, ⟨18, _⟩ => ⟨S1x128, .f32⟩
  | .hbm, ⟨19, _⟩ => ⟨S1x128, .f32⟩
  | .hbm, ⟨20, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .bf16⟩
  | .local _ .vmem, ⟨11, _⟩ => ⟨S400x10000, .f32⟩
  | .local _ .vmem, ⟨12, _⟩ => ⟨S400x10000, .f32⟩
  | .local _ .vmem, ⟨13, _⟩ => ⟨S10000x128, .bf16⟩
  | .local _ .vmem, ⟨14, _⟩ => ⟨S128x128, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | .local _ .vmem, ⟨18, _⟩ => ⟨S10000x128, .f32⟩
  | .local _ .vmem, ⟨19, _⟩ => ⟨S1x128, .f32⟩
  | .local _ .vmem, ⟨20, _⟩ => ⟨S1x128, .f32⟩
  | .local _ .vmem, ⟨21, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem1_0 : DmaSem sig := 19
abbrev cc3_sem2_0 : DmaSem sig := 20
abbrev cc3_sem3_0 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S10000x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

class Facts₀ : Prop where
  bitsLt_bf16_f32 : FTy.bits .bf16 < FTy.bits .f32
  shapeCasts_S128_S1x128 : S128.ShapeCasts S1x128
  iota_S400x10000_d0_w32 : S400x10000.Iotas .tc 32 [0]
  iota_S400x10000_d1_w32 : S400x10000.Iotas .tc 32 [1]
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  reduces_S10000x128_S128 : S10000x128.Reduces [0] S128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.whole (Memref.whole main_v2) false false (stage1_0 0) (sem1_0 0) (Memref.isWhole_whole _) (hstage1_0 0)

abbrev win1_1 : Pipeline.Window sig grid1 :=
  Pipeline.Window.whole (Memref.whole main_v3) false false (stage1_1 0) (sem1_1 0) (Memref.isWhole_whole _) (hstage1_1 0)

abbrev win1_2 : Pipeline.Window sig grid1 :=
  Pipeline.Window.whole (Memref.whole main_v4) false false (stage1_2 0) (sem1_2 0) (Memref.isWhole_whole _) (hstage1_2 0)

abbrev win1_3 : Pipeline.Window sig grid1 :=
  Pipeline.Window.whole (Memref.whole main_v5) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.whole (Memref.whole main_v7) false false (stage3_0 0) (sem3_0 0) (Memref.isWhole_whole _) (hstage3_0 0)

abbrev win3_1 : Pipeline.Window sig grid3 :=
  Pipeline.Window.whole (Memref.whole main_v8) false false (stage3_1 0) (sem3_1 0) (Memref.isWhole_whole _) (hstage3_1 0)

abbrev win3_2 : Pipeline.Window sig grid3 :=
  Pipeline.Window.whole (Memref.whole main_v9) false false (stage3_2 0) (sem3_2 0) (Memref.isWhole_whole _) (hstage3_2 0)

abbrev win3_3 : Pipeline.Window sig grid3 :=
  Pipeline.Window.whole (Memref.whole main_v10) true false (stage3_3 0) (sem3_3 0) (Memref.isWhole_whole _) (hstage3_3 0)

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S10000x10000, .i32⟩
  | 11 => ⟨S10000x10000, .i32⟩
  | 12 => ⟨S_, .i32⟩
  | 13 => ⟨S10000x10000, .i32⟩
  | 14 => ⟨S10000x10000, .i32⟩
  | 15 => ⟨S10000x10000, .i1⟩
  | 16 => ⟨S10000x10000, .f32⟩
  | 17 => ⟨S10000x10000, .f32⟩
  | 18 => ⟨S10000x128, .f32⟩
  | 19 => ⟨S10000x128, .f32⟩
  | 20 => ⟨S1x128, .f32⟩
  | 21 => ⟨S10000x128, .f32⟩
  | 22 => ⟨S10000x128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S10000x128, .f32⟩
  | 36 => ⟨S10000x128, .f32⟩
  | 37 => ⟨S10000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S10000x128, .f32⟩
  | 53 => ⟨S10000x128, .f32⟩
  | 54 => ⟨S_, .f32⟩
  | 55 => ⟨S128, .f32⟩
  | 56 => ⟨S128, .f32⟩
  | 57 => ⟨S128, .f32⟩
  | 58 => ⟨S1x128, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S1x128, .f32⟩
  | 65 => ⟨S10000x128, .f32⟩
  | 66 => ⟨S10000x128, .f32⟩
  | 67 => ⟨S_, .f32⟩
  | 68 => ⟨S_, .f32⟩
  | 69 => ⟨S10000x128, .f32⟩
  | 70 => ⟨S10000x128, .i1⟩
  | 71 => ⟨S_, .f32⟩
  | 72 => ⟨S10000x128, .f32⟩
  | 73 => ⟨S10000x128, .f32⟩
  | 74 => ⟨S10000x128, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S10000x128, .f32⟩
  | 93 => ⟨S10000x128, .f32⟩
  | 94 => ⟨S10000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S10000x128, .f32⟩
  | 110 => ⟨S10000x128, .f32⟩
  | 111 => ⟨S_, .f32⟩
  | 112 => ⟨S128, .f32⟩
  | 113 => ⟨S128, .f32⟩
  | 114 => ⟨S128, .f32⟩
  | 115 => ⟨S1x128, .f32⟩
  | 116 => ⟨S10000x128, .f32⟩
  | 117 => ⟨S10000x128, .f32⟩
  | 118 => ⟨S1x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S_, .f32⟩
  | 125 => ⟨S_, .f32⟩
  | 126 => ⟨S10000x128, .f32⟩
  | 127 => ⟨S10000x128, .i1⟩
  | _ => ⟨S10000x128, .f32⟩

abbrev hbmTy0_1 (i : Nat) : BufTy := match i % 128 with
  | 0 => ⟨S_, .f32⟩
  | 1 => ⟨S10000x128, .f32⟩
  | 2 => ⟨S10000x128, .f32⟩
  | 3 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_cst_3 : Ref sig .tc := ⟨.hbm, 45, rfl⟩
abbrev main_call0_v12 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_2 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_3 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_4 : Ref sig .tc := ⟨.hbm, 80, rfl⟩
abbrev main_v37 : Ref sig .tc := ⟨.hbm, 81, rfl⟩
abbrev main_cst_5 : Ref sig .tc := ⟨.hbm, 82, rfl⟩
abbrev main_v38 : Ref sig .tc := ⟨.hbm, 83, rfl⟩
abbrev main_v39 : Ref sig .tc := ⟨.hbm, 84, rfl⟩
abbrev main_c_6 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_cst_7 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_8 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v56 : Ref sig .tc := ⟨.hbm, 131, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The mathematics both programs compute, over the extended reals, index by index.

  A two-layer graph convolution on a dense adjacency of `N = 10000` nodes and `D = 128` features. One layer is
    h ↦ leaky_relu (batchnorm ((A + I) · h · W + b)),
  where `A + I` adds one on the diagonal, the two products are plain sums over the contracted index, the batch norm
  takes each column's mean and (biased) variance over the `N` rows, and the leaky relu scales the negative entries.
  The kernel normalises by the PRODUCT with the reciprocal square root, `c · rsqrt (v + ε)` (`bnK`); the reference by the
  QUOTIENT by the square root, `c / sqrt (v + ε)` (`bnR`). On the extended reals the two differ at `v + ε = 0` and at the
  infinities, and agree where `v + ε` is a positive real: `Proof/Bridge.lean` proves that from real inputs.
  Arrays are curried functions of their coordinates (`Fin 10000`, `Fin 128`), so that no lemma here is about a shape.
-/
import Idealize.ShloMosaic.PureOps.Ideal

noncomputable section

open scoped BigOperators

namespace Cert.Gcn

open Idealize.ShloMosaic

/-- The number of nodes (rows) and the feature width (columns). -/
abbrev N : Nat := 10000
abbrev D : Nat := 128

/-- The three float literals that both programs spell with the same words: the row count `10000.0`, the batch norm's
    `ε` (the float nearest `1e-5`) and the leaky relu's slope (the float nearest `0.01`). -/
def cN : EReal := Ideal.ofBits .f32 0x461C4000#32
def cEps : EReal := Ideal.ofBits .f32 0x3727C5AC#32
def cSlope : EReal := Ideal.ofBits .f32 0x3C23D70A#32

/-- The identity matrix's entry. -/
def eye (r l : Fin N) : EReal := if r.val = l.val then 1 else 0

/-- Aggregation over the neighbours and the node itself: row `r` of `(A + I) · h`. -/
def agg (adj : Fin N → Fin N → EReal) (h : Fin N → Fin D → EReal) : Fin N → Fin D → EReal :=
  fun r k => ∑ l : Fin N, (adj r l + eye r l) * h l k

/-- The dense linear map with its bias: `a · W + b`. -/
def lin (a : Fin N → Fin D → EReal) (W : Fin D → Fin D → EReal) (b : Fin D → EReal) : Fin N → Fin D → EReal :=
  fun r q => (∑ k : Fin D, a r k * W k q) + b q

/-- A column's mean over the rows. -/
def mean (t : Fin N → Fin D → EReal) : Fin D → EReal := fun q => Ideal.div (∑ r : Fin N, t r q) cN

/-- The entries centred on their column's mean. -/
def cen (t : Fin N → Fin D → EReal) : Fin N → Fin D → EReal := fun r q => t r q - mean t q

/-- A column's biased variance: the mean of the centred entries' squares. -/
def var (t : Fin N → Fin D → EReal) : Fin D → EReal := fun q => Ideal.div (∑ r : Fin N, cen t r q * cen t r q) cN

/-- Batch norm as the kernel computes it: the product with the reciprocal square root. -/
def bnK (t : Fin N → Fin D → EReal) (g β : Fin D → EReal) : Fin N → Fin D → EReal :=
  fun r q => cen t r q * Ideal.rsqrt (var t q + cEps) * g q + β q

/-- Batch norm as the reference computes it: the quotient by the square root. -/
def bnR (t : Fin N → Fin D → EReal) (g β : Fin D → EReal) : Fin N → Fin D → EReal :=
  fun r q => Ideal.div (cen t r q) (Ideal.sqrt (var t q + cEps)) * g q + β q

/-- The leaky relu: an entry at or above zero is kept, one below it is scaled by the slope. -/
def lrelu (y : Fin N → Fin D → EReal) : Fin N → Fin D → EReal :=
  fun r q => if 0 ≤ y r q then y r q else cSlope * y r q

/-- One layer, in the kernel's and in the reference's spelling of the batch norm. -/
def layerK (adj : Fin N → Fin N → EReal) (h : Fin N → Fin D → EReal) (W : Fin D → Fin D → EReal) (b g β : Fin D → EReal) :
    Fin N → Fin D → EReal := lrelu (bnK (lin (agg adj h) W b) g β)
def layerR (adj : Fin N → Fin N → EReal) (h : Fin N → Fin D → EReal) (W : Fin D → Fin D → EReal) (b g β : Fin D → EReal) :
    Fin N → Fin D → EReal := lrelu (bnR (lin (agg adj h) W b) g β)

/-- The two layers. -/
def outK (adj : Fin N → Fin N → EReal) (x : Fin N → Fin D → EReal) (W0 : Fin D → Fin D → EReal) (b0 g0 β0 : Fin D → EReal)
    (W1 : Fin D → Fin D → EReal) (b1 g1 β1 : Fin D → EReal) : Fin N → Fin D → EReal :=
  layerK adj (layerK adj x W0 b0 g0 β0) W1 b1 g1 β1
def outR (adj : Fin N → Fin N → EReal) (x : Fin N → Fin D → EReal) (W0 : Fin D → Fin D → EReal) (b0 g0 β0 : Fin D → EReal)
    (W1 : Fin D → Fin D → EReal) (b1 g1 β1 : Fin D → EReal) : Fin N → Fin D → EReal :=
  layerR adj (layerR adj x W0 b0 g0 β0) W1 b1 g1 β1

/-- An extended real that is a real number. -/
def IsReal (x : EReal) : Prop := ∃ r : ℝ, x = (r : EReal)

end Cert.Gcn

end
-- ==== Proof.Mm0Value.lean ====
/-
  One graph-convolution matmul stage, read off its 25 row blocks: the array `(A + I) · h · W + b`.

  The stage runs over a grid of 25 points. Point `t` sees rows `400 t … 400 t + 399` of the adjacency `A` (a 400 × 10000
  block), all of the features `h` (10000 × 128), the weights `W` (128 × 128) and the bias `b` (one row of 128), and stores a
  400 × 128 block into rows `400 t … 400 t + 399` of the output. Inside the block the identity is built from the indices: the
  entry at row `a`, column `l` is one when `l = a + 400 t`, the block's piece of the diagonal, and zero elsewhere. Over the
  extended reals every operation is exact and a change of float format is the identity, so the stored entry at row `a`, column `q` is
      (Σ_k (Σ_l (A[400 t + a, l] + [l = a + 400 t]) · h[l, k]) · W[k, q]) + b[q],
  which is row `400 t + a` of `lin (agg A h) W b` (`Proof/Spec.lean`): `[l = a + 400 t]` is `eye (400 t + a) l`.
  Three steps: the body's arithmetic at an index over arbitrary blocks (the two products as sums over their one contracted
  axis); what point `t` writes back as block `t` of one whole-array function; the 25 blocks cover the 10000 rows (row `r` lies
  in block `r / 400`), so the array after the last point is that function.
-/
import proofs.«144493_g15195594293521_cont_week2b_253_30_alg».proof.Proof.FrameKernelIdeal
import proofs.«144493_g15195594293521_cont_week2b_253_30_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mm0

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-! ## The identity's block: two words and one comparison -/

/-- The f32 word `0x3F800000` is the number one. -/
theorem one_f32 : Ideal.ofBits .f32 0x3F800000#32 = 1 := by
  simp [Ideal.ofBits, Ideal.ieee, -EReal.coe_mul]; norm_num

/-- The comparison the body makes, on 32-bit words: column `l` against row `a` plus `400 · i`. Below the block's and the grid's
    extents nothing wraps, so the words are equal exactly when the numbers are. -/
theorem diag_word (i0 a l : Nat) (hi : i0 < 25) (ha : a < 400) (hl : l < 10000) :
    IntOp.cmpi .eq (BitVec.ofNat 32 l) (IntOp.addi (BitVec.ofNat 32 a) (Scalar.muli (BitVec.ofNat 32 i0) 400#32)) = 1#1
      ↔ l = a + 400 * i0 := by
  have e : IntOp.addi (BitVec.ofNat 32 a) (Scalar.muli (BitVec.ofNat 32 i0) 400#32) = BitVec.ofNat 32 (a + 400 * i0) := by
    show BitVec.ofNat 32 a + BitVec.ofNat 32 i0 * BitVec.ofNat 32 400 = _
    rw [← BitVec.ofNat_mul, ← BitVec.ofNat_add, Nat.mul_comm i0 400]
  rw [e]
  show BitVec.ofBool (BitVec.ofNat 32 l == BitVec.ofNat 32 (a + 400 * i0)) = 1#1 ↔ _
  constructor
  · intro h
    have h' : BitVec.ofNat 32 l = BitVec.ofNat 32 (a + 400 * i0) := by
      by_contra hne
      rw [show (BitVec.ofNat 32 l == BitVec.ofNat 32 (a + 400 * i0)) = false from by simpa using hne] at h
      exact absurd h (by decide)
    have := congrArg BitVec.toNat h'
    simp only [BitVec.toNat_ofNat] at this
    omega
  · rintro rfl
    simp

/-! ## The two products read at an index

Each product contracts one axis: the left operand's columns against the right operand's rows. At output index `(a, k)` and
contraction position `l` the left operand is read at `(a, l)` and the right at `(l, k)`; the four coordinate facts of each
product say so, and the sum over the contraction index is re-indexed by that one coordinate. -/

theorem agg_lhs_row (j : S400x128.Idx) (k : dot_S400x10000_S10000x128_S400x128_1_0_0_1_n_n.contr.Idx) :
    (dot_S400x10000_S10000x128_S400x128_1_0_0_1_n_n.lhsIdx j k 0).val = (j 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs_ctr (j : S400x128.Idx) (k : dot_S400x10000_S10000x128_S400x128_1_0_0_1_n_n.contr.Idx) :
    (dot_S400x10000_S10000x128_S400x128_1_0_0_1_n_n.lhsIdx j k 1).val = (k ⟨0, by decide⟩).val :=
  dot_S400x10000_S10000x128_S400x128_1_0_0_1_n_n.lhsIdx_val_of_single rfl j k
theorem agg_rhs_ctr (j : S400x128.Idx) (k : dot_S400x10000_S10000x128_S400x128_1_0_0_1_n_n.contr.Idx) :
    (dot_S400x10000_S10000x128_S400x128_1_0_0_1_n_n.rhsIdx j k 0).val = (k ⟨0, by decide⟩).val :=
  dot_S400x10000_S10000x128_S400x128_1_0_0_1_n_n.rhsIdx_val_of_single rfl j k
theorem agg_rhs_col (j : S400x128.Idx) (k : dot_S400x10000_S10000x128_S400x128_1_0_0_1_n_n.contr.Idx) :
    (dot_S400x10000_S10000x128_S400x128_1_0_0_1_n_n.rhsIdx j k 1).val = (j 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The aggregation product at row `a`, column `k` of the block: the sum over the 10000 nodes. -/
theorem agg_mm_apply (y : FVec Ideal S400x10000 .bf16) (h : FVec Ideal S10000x128 .bf16) (a : Fin 400) (k : Fin 128) :
    matmul dot_S400x10000_S10000x128_S400x128_1_0_0_1_n_n none y h (constant (F := Ideal) S400x128 .f32 0x00000000#32) (ix2 a k)
      = ∑ l : Fin 10000, y (ix2 a l) * h (ix2 l k) := by
  simp only [matmul]
  rw [Ideal.matmul_constant_zero_apply, ← Equiv.sum_comp (contrEquiv1 dot_S400x10000_S10000x128_S400x128_1_0_0_1_n_n 10000 rfl rfl).symm]
  refine Finset.sum_congr rfl fun l _ => ?_
  have hl := contrEquiv1_symm_val dot_S400x10000_S10000x128_S400x128_1_0_0_1_n_n 10000 rfl rfl l
  have el : dot_S400x10000_S10000x128_S400x128_1_0_0_1_n_n.lhsIdx (ix2 a k) ((contrEquiv1 dot_S400x10000_S10000x128_S400x128_1_0_0_1_n_n 10000 rfl rfl).symm l) = ix2 a l := funext fun d => Fin.ext (by
    match d with
    | ⟨0, _⟩ => exact agg_lhs_row _ _
    | ⟨1, _⟩ => exact (agg_lhs_ctr _ _).trans hl)
  have er : dot_S400x10000_S10000x128_S400x128_1_0_0_1_n_n.rhsIdx (ix2 a k) ((contrEquiv1 dot_S400x10000_S10000x128_S400x128_1_0_0_1_n_n 10000 rfl rfl).symm l) = ix2 l k := funext fun d => Fin.ext (by
    match d with
    | ⟨0, _⟩ => exact (agg_rhs_ctr _ _).trans hl
    | ⟨1, _⟩ => exact agg_rhs_col _ _)
  rw [el, er]

theorem lin_lhs_row (j : S400x128.Idx) (k : dot_S400x128_S128x128_S400x128_1_0_0_1_n_n.contr.Idx) :
    (dot_S400x128_S128x128_S400x128_1_0_0_1_n_n.lhsIdx j k 0).val = (j 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lin_lhs_ctr (j : S400x128.Idx) (k : dot_S400x128_S128x128_S400x128_1_0_0_1_n_n.contr.Idx) :
    (dot_S400x128_S128x128_S400x128_1_0_0_1_n_n.lhsIdx j k 1).val = (k ⟨0, by decide⟩).val :=
  dot_S400x128_S128x128_S400x128_1_0_0_1_n_n.lhsIdx_val_of_single rfl j k
theorem lin_rhs_ctr (j : S400x128.Idx) (k : dot_S400x128_S128x128_S400x128_1_0_0_1_n_n.contr.Idx) :
    (dot_S400x128_S128x128_S400x128_1_0_0_1_n_n.rhsIdx j k 0).val = (k ⟨0, by decide⟩).val :=
  dot_S400x128_S128x128_S400x128_1_0_0_1_n_n.rhsIdx_val_of_single rfl j k
theorem lin_rhs_col (j : S400x128.Idx) (k : dot_S400x128_S128x128_S400x128_1_0_0_1_n_n.contr.Idx) :
    (dot_S400x128_S128x128_S400x128_1_0_0_1_n_n.rhsIdx j k 1).val = (j 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The linear map's product at row `a`, column `q` of the block: the sum over the 128 features. -/
theorem lin_mm_apply (y : FVec Ideal S400x128 .bf16) (w : FVec Ideal S128x128 .bf16) (a : Fin 400) (q : Fin 128) :
    matmul dot_S400x128_S128x128_S400x128_1_0_0_1_n_n none y w (constant (F := Ideal) S400x128 .f32 0x00000000#32) (ix2 a q)
      = ∑ k : Fin 128, y (ix2 a k) * w (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 a q) ((contrEquiv1 dot_S400x128_S128x128_S400x128_1_0_0_1_n_n 128 rfl rfl).symm k) = ix2 a k := funext fun d => Fin.ext (by
    match d with
    | ⟨0, _⟩ => exact lin_lhs_row _ _
    | ⟨1, _⟩ => exact (lin_lhs_ctr _ _).trans hk)
  have er : dot_S400x128_S128x128_S400x128_1_0_0_1_n_n.rhsIdx (ix2 a q) ((contrEquiv1 dot_S400x128_S128x128_S400x128_1_0_0_1_n_n 128 rfl rfl).symm k) = ix2 k q := funext fun d => Fin.ext (by
    match d with
    | ⟨0, _⟩ => exact (lin_rhs_ctr _ _).trans hk
    | ⟨1, _⟩ => exact lin_rhs_col _ _)
  rw [el, er]

/-! ## The body's arithmetic at an index -/

/-- The identity's block: at grid position `i` the body compares the column number with the row number plus `400 · i`, so the
    entry at row `a`, column `l` of the block is one exactly when `l = a + 400 · i`. -/
theorem eye_blk_apply (i : grid0.Coords) (a : Fin 400) (l : Fin 10000) :
    (select (cmpi .eq (iota .tc S400x10000 32 [1] iota_S400x10000_d1_w32)
        (addi (iota .tc S400x10000 32 [0] iota_S400x10000_d0_w32) (broadcast S400x10000 (Scalar.muli (BitVec.ofNat 32 (i 0).val) 400#32))))
      (broadcast S400x10000 (Scalar.ofBits (F := Ideal) .f32 0x3F800000#32))
      (broadcast S400x10000 (Scalar.ofBits (F := Ideal) .f32 0x00000000#32)) : FVec Ideal S400x10000 .f32) (ix2 a l)
      = if l.val = a.val + 400 * (i 0).val then 1 else 0 := by
  have hi : (i 0).val < 25 := (i 0).isLt
  show Scalar.select (IntOp.cmpi .eq (iota .tc S400x10000 32 [1] iota_S400x10000_d1_w32 (ix2 a l))
      (IntOp.addi (iota .tc S400x10000 32 [0] iota_S400x10000_d0_w32 (ix2 a l)) (Scalar.muli (BitVec.ofNat 32 (i 0).val) 400#32)))
    (Ideal.ofBits .f32 0x3F800000#32) (Ideal.ofBits .f32 0x00000000#32) = _
  rw [iota_single_apply, iota_single_apply, one_f32, Ideal.ofBits_zero_f32]
  exact if_congr (diag_word (i 0).val a.val l.val hi a.isLt l.isLt) rfl rfl

/-- THE BODY AT AN INDEX. Over a 400-row block `x0` of the adjacency at grid position `i`, the features `x1`, the weights `x2`
    and the bias row `x3`, the stored value at row `a`, column `q` is `(Σ_k (Σ_l (x0[a,l] + [l = a + 400 i]) · x1[l,k]) · x2[k,q]) + x3[0,q]`. -/
theorem body_apply (i : grid0.Coords) (x0 : FVec Ideal S400x10000 .f32) (x1 : FVec Ideal S10000x128 .bf16)
    (x2 : FVec Ideal S128x128 .f32) (x3 : FVec Ideal S1x128 .f32) (a : Fin 400) (q : Fin 128) :
    k0_pay1 (F := Ideal) i x0 x1 x2 x3 (ix2 a q)
      = (∑ k : Fin 128, (∑ l : Fin 10000, ((x0 (ix2 a l) : EReal) + (if l.val = a.val + 400 * (i 0).val then 1 else 0)) * (x1 (ix2 l k) : EReal))
            * (x2 (ix2 k q) : EReal))
        + (x3 (ix2 (0 : Fin 1) q) : EReal) := by
  unfold k0_pay1
  dsimp only
  refine (addf_apply _ _ _).trans ?_
  refine congrArg₂ (· + ·) ?_ ?_
  · refine (lin_mm_apply _ _ a q).trans ?_
    refine Finset.sum_congr rfl fun k _ => ?_
    refine congrArg₂ (· * ·) ?_ ?_
    · refine (truncf_apply (φ := .f32) (ψ := .bf16) _ _ _).trans ?_
      refine (agg_mm_apply _ _ a k).trans ?_
      refine Finset.sum_congr rfl fun l _ => ?_
      refine congrArg₂ (· * ·) ?_ ?_
      · refine (truncf_apply (φ := .f32) (ψ := .bf16) _ _ _).trans ?_
        refine (addf_apply _ _ _).trans ?_
        exact congrArg₂ (· + ·) rfl (eye_blk_apply i a l)
      · exact congrFun (shapeCast_self x1 _) (ix2 l k)
    · exact truncf_apply (φ := .f32) (ψ := .bf16) _ _ _
  · refine (broadcastTo_1b_ab_apply _ _ a q).trans ?_
    exact congrFun (shapeCast_self x3 _) _

/-! ## From the blocks to the array -/

/-- The four arrays the region reads, as the region finds them, curried: the adjacency, the features, the weights and the
    bias (a one-row matrix). -/
abbrev adj (c : Dev nD) : Fin 10000 → Fin 10000 → EReal := fun r l => (V c main_arg1 : S10000x10000.Idx → EReal) (ix2 r l)
abbrev feat (c : Dev nD) : Fin 10000 → Fin 128 → EReal := fun l k => (V c main_v0 : S10000x128.Idx → EReal) (ix2 l k)
abbrev wts (c : Dev nD) : Fin 128 → Fin 128 → EReal := fun k q' => (V c main_arg2 : S128x128.Idx → EReal) (ix2 k q')
abbrev bias (c : Dev nD) : Fin 128 → EReal := fun q' => (V c main_v1 : S1x128.Idx → EReal) (ix2 (0 : Fin 1) q')

/-- What the output array ends holding: `(A + I) · h · W + b` of those arrays, entry by entry. -/
def rowsOut (c : Dev nD) : S10000x128.Idx → EReal := fun j =>
  Cert.Gcn.lin (Cert.Gcn.agg (adj V c) (feat V c)) (wts V c) (bias V c) (j 0) (j 1)

/-- The zero offsets of a whole-block access, however spelt. -/
theorem zero_offsets : (![0, 0] : Fin 2 → Nat) = fun _ => 0 := funext fun a => by fin_cases a <;> rfl

/-- The windows' block indices at each of the 25 grid points (a finite check): the adjacency's and the output's windows are at
    row block `t`, the other three windows at the one block they have; and the grid coordinate of point `t` is `t`. -/
theorem window_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- The four input windows' blocks at point `t`, each at its literal shape. -/
abbrev adjBlk (c : Dev nD) (t : Fin cfg0.N) : FVec Ideal S400x10000 .f32 := iblk0 V c 0 t
abbrev featBlk (c : Dev nD) (t : Fin cfg0.N) : FVec Ideal S10000x128 .bf16 := iblk0 V c 1 t
abbrev wtsBlk (c : Dev nD) (t : Fin cfg0.N) : FVec Ideal S128x128 .f32 := iblk0 V c 2 t
abbrev biasBlk (c : Dev nD) (t : Fin cfg0.N) : FVec Ideal S1x128 .f32 := iblk0 V c 3 t

/-- The adjacency window's block at point `t` is rows `400 t … 400 t + 399` of the adjacency. -/
theorem adj_blk_apply (c : Dev nD) (t : Fin cfg0.N) (a : Fin 400) (l : Fin 10000) (r : Fin 10000) (hr : r.val = 400 * t.val + a.val) :
    adjBlk V c t (ix2 a l) = adj V c r l := by
  obtain ⟨e0, e1, -⟩ := window_indices t
  show (V c main_arg1 : S10000x10000.Idx → EReal) (((cfg0.win 0).blk t).view.emb (ix2 a l)) = (V c main_arg1 : S10000x10000.Idx → EReal) (ix2 r l)
  refine congrArg _ (funext fun d => Fin.ext ?_)
  match d with
  | ⟨0, _⟩ => show win0_0.index t (0 : Fin 2) * 400 + 1 * a.val = r.val; rw [e0, hr]; omega
  | ⟨1, _⟩ => show win0_0.index t (1 : Fin 2) * 10000 + 1 * l.val = l.val; rw [e1]; omega

/-- The features' window holds the whole array at every point, -/
theorem feat_blk_apply (c : Dev nD) (t : Fin cfg0.N) (l : Fin 10000) (k : Fin 128) :
    featBlk V c t (ix2 l k) = feat V c l k := by
  obtain ⟨-, -, e0, e1, -⟩ := window_indices t
  show (V c main_v0 : S10000x128.Idx → EReal) (((cfg0.win 1).blk t).view.emb (ix2 l k)) = (V c main_v0 : S10000x128.Idx → EReal) (ix2 l k)
  refine congrArg _ (funext fun d => Fin.ext ?_)
  match d with
  | ⟨0, _⟩ => show win0_1.index t (0 : Fin 2) * 10000 + 1 * l.val = l.val; rw [e0]; omega
  | ⟨1, _⟩ => show win0_1.index t (1 : Fin 2) * 128 + 1 * k.val = k.val; rw [e1]; omega

/-- so does the weights', -/
theorem wts_blk_apply (c : Dev nD) (t : Fin cfg0.N) (k : Fin 128) (q : Fin 128) :
    wtsBlk V c t (ix2 k q) = wts V c k q := by
  obtain ⟨-, -, -, -, e0, e1, -⟩ := window_indices t
  show (V c main_arg2 : S128x128.Idx → EReal) (((cfg0.win 2).blk t).view.emb (ix2 k q)) = (V c main_arg2 : S128x128.Idx → EReal) (ix2 k q)
  refine congrArg _ (funext fun d => Fin.ext ?_)
  match d with
  | ⟨0, _⟩ => show win0_2.index t (0 : Fin 2) * 128 + 1 * k.val = k.val; rw [e0]; omega
  | ⟨1, _⟩ => show win0_2.index t (1 : Fin 2) * 128 + 1 * q.val = q.val; rw [e1]; omega

/-- and the bias row's. -/
theorem bias_blk_apply (c : Dev nD) (t : Fin cfg0.N) (q : Fin 128) :
    biasBlk V c t (ix2 (0 : Fin 1) q) = bias V c q := by
  obtain ⟨-, -, -, -, -, -, e0, e1, -⟩ := window_indices t
  show (V c main_v1 : S1x128.Idx → EReal) (((cfg0.win 3).blk t).view.emb (ix2 (0 : Fin 1) q)) = (V c main_v1 : S1x128.Idx → EReal) (ix2 (0 : Fin 1) q)
  refine congrArg _ (funext fun d => Fin.ext ?_)
  match d with
  | ⟨0, _⟩ => show win0_3.index t (0 : Fin 2) * 1 + 1 * 0 = 0; rw [e0]
  | ⟨1, _⟩ => show win0_3.index t (1 : Fin 2) * 128 + 1 * q.val = q.val; rw [e1]; omega

/-- THE BLOCK POINT `t` STORES, entry by entry: its row `y 0` is row `400 t + y 0` of `(A + I) · h · W + b`. The block's
    diagonal column `a + 400 t` is the array's diagonal at that row. -/
theorem body_blk (c : Dev nD) (t : Fin cfg0.N) (y : S400x128.Idx) (j : S10000x128.Idx)
    (h0 : (j 0).val = 400 * t.val + (y 0).val) (h1 : (j 1).val = (y 1).val) :
    k0_pay1 (F := Ideal) (grid0.coords t) (adjBlk V c t) (featBlk V c t) (wtsBlk V c t) (biasBlk V c t) y = rowsOut V c j := by
  obtain ⟨a, q, rfl⟩ : ∃ (a : Fin 400) (q : Fin 128), y = ix2 a q := ⟨y 0, y 1, eq_ix2 y⟩
  obtain ⟨p, q', rfl⟩ : ∃ (p : Fin 10000) (q' : Fin 128), j = ix2 p q' := ⟨j 0, j 1, eq_ix2 j⟩
  have hp : p.val = 400 * t.val + a.val := h0
  obtain rfl : q = q' := Fin.ext h1.symm
  have hc : (grid0.coords t 0).val = t.val := (window_indices t).2.2.2.2.2.2.2.2.2.2
  refine (body_apply (grid0.coords t) (adjBlk V c t) (featBlk V c t) (wtsBlk V c t) (biasBlk V c t) a q).trans ?_
  show _ = Cert.Gcn.lin (Cert.Gcn.agg (adj V c) (feat V c)) (wts V c) (bias V c) p q
  unfold Cert.Gcn.lin Cert.Gcn.agg Cert.Gcn.eye
  refine congrArg₂ (· + ·) ?_ (bias_blk_apply V c t q)
  refine Finset.sum_congr rfl fun k _ => ?_
  refine congrArg₂ (· * ·) ?_ (wts_blk_apply V c t k q)
  refine Finset.sum_congr rfl fun l _ => ?_
  refine congrArg₂ (· * ·) ?_ (feat_blk_apply V c t l k)
  refine congrArg₂ (· + ·) (adj_blk_apply V c t a l p hp) ?_
  exact if_congr (by rw [hc, hp]; omega) rfl rfl

/-- WHAT POINT `t` WRITES BACK is block `t` of `rowsOut`. -/
theorem written_back (c : Dev nD) (t : Fin cfg0.N) :
    (dat0 V c).flushed 4 t = ((cfg0.win 4).blk t).view.read (Elt Ideal) (rowsOut V c) := by
  show (cfg0.win 4).cut (grid0.coords t) ((dat0 V c).after 4 t) = _
  rw [after0_4]
  unfold out0_4
  rw [View.canon_unit_zero zero_offsets]
  simp only [View.ld_unit_zero (S := S400x10000) zero_offsets, View.ld_unit_zero (S := S10000x128) zero_offsets, View.ld_unit_zero (S := S128x128) zero_offsets,
    View.ld_unit_zero (S := S1x128) zero_offsets]
  obtain ⟨-, -, -, -, -, -, -, -, e0, e1, -⟩ := window_indices t
  funext y
  refine body_blk V c t y _ ?_ ?_
  · show win0_4.index t (0 : Fin 2) * 400 + 1 * (y 0).val = 400 * t.val + (y 0).val; rw [e0]; omega
  · show win0_4.index t (1 : Fin 2) * 128 + 1 * (y 1).val = (y 1).val; rw [e1]; omega

/-- An index of the array is in point `t`'s block iff each coordinate is in the block's range on its axis. -/
theorem mem_block_iff (t : Fin cfg0.N) (j : S10000x128.Idx) :
    j ∈ ((cfg0.win 4).blk t).view.set ↔ ∀ d : Fin 2, win0_4.index t d * S400x128.size d ≤ (j d).val ∧ (j d).val < win0_4.index t d * S400x128.size d + S400x128.size d := by
  show j ∈ ((View.whole main_v2).slice (win0_4.rect t)).set ↔ _
  rw [View.set_slice_whole, Rect.mem_set_unit]
  exact Iff.rfl

/-- Row `r` of the array is written by point `r / 400`: the 25 blocks of 400 rows cover the 10000 rows. -/
theorem rows_covered (j : S10000x128.Idx) : ∃ t : Fin cfg0.N, (cfg0.win 4).flush t = true ∧ j ∈ ((cfg0.win 4).blk t).view.set := by
  have hj0 : (j 0).val < 10000 := (j 0).isLt
  have hj1 : (j 1).val < 128 := (j 1).isLt
  have hN : cfg0.N = 25 := N_0
  obtain ⟨t, ht⟩ : ∃ t : Fin cfg0.N, t.val = (j 0).val / 400 := ⟨⟨(j 0).val / 400, by rw [hN]; omega⟩, rfl⟩
  obtain ⟨-, -, -, -, -, -, -, -, e0, e1, -⟩ := window_indices t
  refine ⟨t, flush0_4 t, ?_⟩
  rw [mem_block_iff]
  intro d
  match d with
  | ⟨0, _⟩ => show win0_4.index t (0 : Fin 2) * 400 ≤ (j 0).val ∧ (j 0).val < win0_4.index t (0 : Fin 2) * 400 + 400; rw [e0, ht]; omega
  | ⟨1, _⟩ => show win0_4.index t (1 : Fin 2) * 128 ≤ (j 1).val ∧ (j 1).val < win0_4.index t (1 : Fin 2) * 128 + 128; rw [e1]; omega

/-- THE ARRAY after the 25 points: `rowsOut`. -/
theorem array_after (c : Dev nD) : (dat0 V c).arrAt 4 cfg0.N = rowsOut V c :=
  (dat0 V c).arrAt_eq_of_cover 4 (rowsOut V c) (fun t _ => written_back V c t) rows_covered

/-- The matmul region's output array after its 25 grid points, entry by entry: row `p` of `(A + I) · h · W + b` over the
    arrays as the region finds them (`V`). -/
theorem arr (c : Dev nD) (p : Fin 10000) (q : Fin 128) :
    ((dat0 (F := Ideal) V c).arrAt 4 cfg0.N : S10000x128.Idx → EReal) (ix2 p q)
      = Cert.Gcn.lin (Cert.Gcn.agg (fun r l => (V c main_arg1 : S10000x10000.Idx → EReal) (ix2 r l))
            (fun l k => (V c main_v0 : S10000x128.Idx → EReal) (ix2 l k)))
          (fun k q' => (V c main_arg2 : S128x128.Idx → EReal) (ix2 k q'))
          (fun q' => (V c main_v1 : S1x128.Idx → EReal) (ix2 (0 : Fin 1) q')) p q := by
  rw [array_after V c]
  rfl

end Cert.KernelIdeal.Mm0

end
-- ==== Proof.Mm2Value.lean ====
/-
  One graph-convolution matmul stage, read off its 25 row blocks: the array `(A + I) · h · W + b`.

  The stage runs over a grid of 25 points. Point `t` sees rows `400 t … 400 t + 399` of the adjacency `A` (a 400 × 10000
  block), all of the features `h` (10000 × 128), the weights `W` (128 × 128) and the bias `b` (one row of 128), and stores a
  400 × 128 block into rows `400 t … 400 t + 399` of the output. Inside the block the identity is built from the indices: the
  entry at row `a`, column `l` is one when `l = a + 400 t`, the block's piece of the diagonal, and zero elsewhere. Over the
  extended reals every operation is exact and a change of float format is the identity, so the stored entry at row `a`, column `q` is
      (Σ_k (Σ_l (A[400 t + a, l] + [l = a + 400 t]) · h[l, k]) · W[k, q]) + b[q],
  which is row `400 t + a` of `lin (agg A h) W b` (`Proof/Spec.lean`): `[l = a + 400 t]` is `eye (400 t + a) l`.
  Three steps: the body's arithmetic at an index over arbitrary blocks (the two products as sums over their one contracted
  axis); what point `t` writes back as block `t` of one whole-array function; the 25 blocks cover the 10000 rows (row `r` lies
  in block `r / 400`), so the array after the last point is that function.
-/
import proofs.«144493_g15195594293521_cont_week2b_253_30_alg».proof.Proof.FrameKernelIdeal
import proofs.«144493_g15195594293521_cont_week2b_253_30_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mm2

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-! ## The identity's block: two words and one comparison -/

/-- The f32 word `0x3F800000` is the number one. -/
theorem one_f32 : Ideal.ofBits .f32 0x3F800000#32 = 1 := by
  simp [Ideal.ofBits, Ideal.ieee, -EReal.coe_mul]; norm_num

/-- The comparison the body makes, on 32-bit words: column `l` against row `a` plus `400 · i`. Below the block's and the grid's
    extents nothing wraps, so the words are equal exactly when the numbers are. -/
theorem diag_word (i0 a l : Nat) (hi : i0 < 25) (ha : a < 400) (hl : l < 10000) :
    IntOp.cmpi .eq (BitVec.ofNat 32 l) (IntOp.addi (BitVec.ofNat 32 a) (Scalar.muli (BitVec.ofNat 32 i0) 400#32)) = 1#1
      ↔ l = a + 400 * i0 := by
  have e : IntOp.addi (BitVec.ofNat 32 a) (Scalar.muli (BitVec.ofNat 32 i0) 400#32) = BitVec.ofNat 32 (a + 400 * i0) := by
    show BitVec.ofNat 32 a + BitVec.ofNat 32 i0 * BitVec.ofNat 32 400 = _
    rw [← BitVec.ofNat_mul, ← BitVec.ofNat_add, Nat.mul_comm i0 400]
  rw [e]
  show BitVec.ofBool (BitVec.ofNat 32 l == BitVec.ofNat 32 (a + 400 * i0)) = 1#1 ↔ _
  constructor
  · intro h
    have h' : BitVec.ofNat 32 l = BitVec.ofNat 32 (a + 400 * i0) := by
      by_contra hne
      rw [show (BitVec.ofNat 32 l == BitVec.ofNat 32 (a + 400 * i0)) = false from by simpa using hne] at h
      exact absurd h (by decide)
    have := congrArg BitVec.toNat h'
    simp only [BitVec.toNat_ofNat] at this
    omega
  · rintro rfl
    simp

/-! ## The two products read at an index

Each product contracts one axis: the left operand's columns against the right operand's rows. At output index `(a, k)` and
contraction position `l` the left operand is read at `(a, l)` and the right at `(l, k)`; the four coordinate facts of each
product say so, and the sum over the contraction index is re-indexed by that one coordinate. -/

theorem agg_lhs_row (j : S400x128.Idx) (k : dot_S400x10000_S10000x128_S400x128_1_0_0_1_n_n.contr.Idx) :
    (dot_S400x10000_S10000x128_S400x128_1_0_0_1_n_n.lhsIdx j k 0).val = (j 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs_ctr (j : S400x128.Idx) (k : dot_S400x10000_S10000x128_S400x128_1_0_0_1_n_n.contr.Idx) :
    (dot_S400x10000_S10000x128_S400x128_1_0_0_1_n_n.lhsIdx j k 1).val = (k ⟨0, by decide⟩).val :=
  dot_S400x10000_S10000x128_S400x128_1_0_0_1_n_n.lhsIdx_val_of_single rfl j k
theorem agg_rhs_ctr (j : S400x128.Idx) (k : dot_S400x10000_S10000x128_S400x128_1_0_0_1_n_n.contr.Idx) :
    (dot_S400x10000_S10000x128_S400x128_1_0_0_1_n_n.rhsIdx j k 0).val = (k ⟨0, by decide⟩).val :=
  dot_S400x10000_S10000x128_S400x128_1_0_0_1_n_n.rhsIdx_val_of_single rfl j k
theorem agg_rhs_col (j : S400x128.Idx) (k : dot_S400x10000_S10000x128_S400x128_1_0_0_1_n_n.contr.Idx) :
    (dot_S400x10000_S10000x128_S400x128_1_0_0_1_n_n.rhsIdx j k 1).val = (j 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The aggregation product at row `a`, column `k` of the block: the sum over the 10000 nodes. -/
theorem agg_mm_apply (y : FVec Ideal S400x10000 .bf16) (h : FVec Ideal S10000x128 .bf16) (a : Fin 400) (k : Fin 128) :
    matmul dot_S400x10000_S10000x128_S400x128_1_0_0_1_n_n none y h (constant (F := Ideal) S400x128 .f32 0x00000000#32) (ix2 a k)
      = ∑ l : Fin 10000, y (ix2 a l) * h (ix2 l k) := by
  simp only [matmul]
  rw [Ideal.matmul_constant_zero_apply, ← Equiv.sum_comp (contrEquiv1 dot_S400x10000_S10000x128_S400x128_1_0_0_1_n_n 10000 rfl rfl).symm]
  refine Finset.sum_congr rfl fun l _ => ?_
  have hl := contrEquiv1_symm_val dot_S400x10000_S10000x128_S400x128_1_0_0_1_n_n 10000 rfl rfl l
  have el : dot_S400x10000_S10000x128_S400x128_1_0_0_1_n_n.lhsIdx (ix2 a k) ((contrEquiv1 dot_S400x10000_S10000x128_S400x128_1_0_0_1_n_n 10000 rfl rfl).symm l) = ix2 a l := funext fun d => Fin.ext (by
    match d with
    | ⟨0, _⟩ => exact agg_lhs_row _ _
    | ⟨1, _⟩ => exact (agg_lhs_ctr _ _).trans hl)
  have er : dot_S400x10000_S10000x128_S400x128_1_0_0_1_n_n.rhsIdx (ix2 a k) ((contrEquiv1 dot_S400x10000_S10000x128_S400x128_1_0_0_1_n_n 10000 rfl rfl).symm l) = ix2 l k := funext fun d => Fin.ext (by
    match d with
    | ⟨0, _⟩ => exact (agg_rhs_ctr _ _).trans hl
    | ⟨1, _⟩ => exact agg_rhs_col _ _)
  rw [el, er]

theorem lin_lhs_row (j : S400x128.Idx) (k : dot_S400x128_S128x128_S400x128_1_0_0_1_n_n.contr.Idx) :
    (dot_S400x128_S128x128_S400x128_1_0_0_1_n_n.lhsIdx j k 0).val = (j 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lin_lhs_ctr (j : S400x128.Idx) (k : dot_S400x128_S128x128_S400x128_1_0_0_1_n_n.contr.Idx) :
    (dot_S400x128_S128x128_S400x128_1_0_0_1_n_n.lhsIdx j k 1).val = (k ⟨0, by decide⟩).val :=
  dot_S400x128_S128x128_S400x128_1_0_0_1_n_n.lhsIdx_val_of_single rfl j k
theorem lin_rhs_ctr (j : S400x128.Idx) (k : dot_S400x128_S128x128_S400x128_1_0_0_1_n_n.contr.Idx) :
    (dot_S400x128_S128x128_S400x128_1_0_0_1_n_n.rhsIdx j k 0).val = (k ⟨0, by decide⟩).val :=
  dot_S400x128_S128x128_S400x128_1_0_0_1_n_n.rhsIdx_val_of_single rfl j k
theorem lin_rhs_col (j : S400x128.Idx) (k : dot_S400x128_S128x128_S400x128_1_0_0_1_n_n.contr.Idx) :
    (dot_S400x128_S128x128_S400x128_1_0_0_1_n_n.rhsIdx j k 1).val = (j 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The linear map's product at row `a`, column `q` of the block: the sum over the 128 features. -/
theorem lin_mm_apply (y : FVec Ideal S400x128 .bf16) (w : FVec Ideal S128x128 .bf16) (a : Fin 400) (q : Fin 128) :
    matmul dot_S400x128_S128x128_S400x128_1_0_0_1_n_n none y w (constant (F := Ideal) S400x128 .f32 0x00000000#32) (ix2 a q)
      = ∑ k : Fin 128, y (ix2 a k) * w (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 a q) ((contrEquiv1 dot_S400x128_S128x128_S400x128_1_0_0_1_n_n 128 rfl rfl).symm k) = ix2 a k := funext fun d => Fin.ext (by
    match d with
    | ⟨0, _⟩ => exact lin_lhs_row _ _
    | ⟨1, _⟩ => exact (lin_lhs_ctr _ _).trans hk)
  have er : dot_S400x128_S128x128_S400x128_1_0_0_1_n_n.rhsIdx (ix2 a q) ((contrEquiv1 dot_S400x128_S128x128_S400x128_1_0_0_1_n_n 128 rfl rfl).symm k) = ix2 k q := funext fun d => Fin.ext (by
    match d with
    | ⟨0, _⟩ => exact (lin_rhs_ctr _ _).trans hk
    | ⟨1, _⟩ => exact lin_rhs_col _ _)
  rw [el, er]

/-! ## The body's arithmetic at an index -/

/-- The identity's block: at grid position `i` the body compares the column number with the row number plus `400 · i`, so the
    entry at row `a`, column `l` of the block is one exactly when `l = a + 400 · i`. -/
theorem eye_blk_apply (i : grid2.Coords) (a : Fin 400) (l : Fin 10000) :
    (select (cmpi .eq (iota .tc S400x10000 32 [1] iota_S400x10000_d1_w32)
        (addi (iota .tc S400x10000 32 [0] iota_S400x10000_d0_w32) (broadcast S400x10000 (Scalar.muli (BitVec.ofNat 32 (i 0).val) 400#32))))
      (broadcast S400x10000 (Scalar.ofBits (F := Ideal) .f32 0x3F800000#32))
      (broadcast S400x10000 (Scalar.ofBits (F := Ideal) .f32 0x00000000#32)) : FVec Ideal S400x10000 .f32) (ix2 a l)
      = if l.val = a.val + 400 * (i 0).val then 1 else 0 := by
  have hi : (i 0).val < 25 := (i 0).isLt
  show Scalar.select (IntOp.cmpi .eq (iota .tc S400x10000 32 [1] iota_S400x10000_d1_w32 (ix2 a l))
      (IntOp.addi (iota .tc S400x10000 32 [0] iota_S400x10000_d0_w32 (ix2 a l)) (Scalar.muli (BitVec.ofNat 32 (i 0).val) 400#32)))
    (Ideal.ofBits .f32 0x3F800000#32) (Ideal.ofBits .f32 0x00000000#32) = _
  rw [iota_single_apply, iota_single_apply, one_f32, Ideal.ofBits_zero_f32]
  exact if_congr (diag_word (i 0).val a.val l.val hi a.isLt l.isLt) rfl rfl

/-- THE BODY AT AN INDEX. Over a 400-row block `x0` of the adjacency at grid position `i`, the features `x1`, the weights `x2`
    and the bias row `x3`, the stored value at row `a`, column `q` is `(Σ_k (Σ_l (x0[a,l] + [l = a + 400 i]) · x1[l,k]) · x2[k,q]) + x3[0,q]`. -/
theorem body_apply (i : grid2.Coords) (x0 : FVec Ideal S400x10000 .f32) (x1 : FVec Ideal S10000x128 .bf16)
    (x2 : FVec Ideal S128x128 .f32) (x3 : FVec Ideal S1x128 .f32) (a : Fin 400) (q : Fin 128) :
    k2_pay1 (F := Ideal) i x0 x1 x2 x3 (ix2 a q)
      = (∑ k : Fin 128, (∑ l : Fin 10000, ((x0 (ix2 a l) : EReal) + (if l.val = a.val + 400 * (i 0).val then 1 else 0)) * (x1 (ix2 l k) : EReal))
            * (x2 (ix2 k q) : EReal))
        + (x3 (ix2 (0 : Fin 1) q) : EReal) := by
  unfold k2_pay1
  dsimp only
  refine (addf_apply _ _ _).trans ?_
  refine congrArg₂ (· + ·) ?_ ?_
  · refine (lin_mm_apply _ _ a q).trans ?_
    refine Finset.sum_congr rfl fun k _ => ?_
    refine congrArg₂ (· * ·) ?_ ?_
    · refine (truncf_apply (φ := .f32) (ψ := .bf16) _ _ _).trans ?_
      refine (agg_mm_apply _ _ a k).trans ?_
      refine Finset.sum_congr rfl fun l _ => ?_
      refine congrArg₂ (· * ·) ?_ ?_
      · refine (truncf_apply (φ := .f32) (ψ := .bf16) _ _ _).trans ?_
        refine (addf_apply _ _ _).trans ?_
        exact congrArg₂ (· + ·) rfl (eye_blk_apply i a l)
      · exact congrFun (shapeCast_self x1 _) (ix2 l k)
    · exact truncf_apply (φ := .f32) (ψ := .bf16) _ _ _
  · refine (broadcastTo_1b_ab_apply _ _ a q).trans ?_
    exact congrFun (shapeCast_self x3 _) _

/-! ## From the blocks to the array -/

/-- The four arrays the region reads, as the region finds them, curried: the adjacency, the features, the weights and the
    bias (a one-row matrix). -/
abbrev adj (c : Dev nD) : Fin 10000 → Fin 10000 → EReal := fun r l => (V c main_arg1 : S10000x10000.Idx → EReal) (ix2 r l)
abbrev feat (c : Dev nD) : Fin 10000 → Fin 128 → EReal := fun l k => (V c main_v5 : S10000x128.Idx → EReal) (ix2 l k)
abbrev wts (c : Dev nD) : Fin 128 → Fin 128 → EReal := fun k q' => (V c main_arg6 : S128x128.Idx → EReal) (ix2 k q')
abbrev bias (c : Dev nD) : Fin 128 → EReal := fun q' => (V c main_v6 : S1x128.Idx → EReal) (ix2 (0 : Fin 1) q')

/-- What the output array ends holding: `(A + I) · h · W + b` of those arrays, entry by entry. -/
def rowsOut (c : Dev nD) : S10000x128.Idx → EReal := fun j =>
  Cert.Gcn.lin (Cert.Gcn.agg (adj V c) (feat V c)) (wts V c) (bias V c) (j 0) (j 1)

/-- The zero offsets of a whole-block access, however spelt. -/
theorem zero_offsets : (![0, 0] : Fin 2 → Nat) = fun _ => 0 := funext fun a => by fin_cases a <;> rfl

/-- The windows' block indices at each of the 25 grid points (a finite check): the adjacency's and the output's windows are at
    row block `t`, the other three windows at the one block they have; and the grid coordinate of point `t` is `t`. -/
theorem window_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ (grid2.coords t 0).val = t.val :=
  (by decide +kernel : ∀ t : Fin grid2.N, _)

/-- The four input windows' blocks at point `t`, each at its literal shape. -/
abbrev adjBlk (c : Dev nD) (t : Fin cfg2.N) : FVec Ideal S400x10000 .f32 := iblk2 V c 0 t
abbrev featBlk (c : Dev nD) (t : Fin cfg2.N) : FVec Ideal S10000x128 .bf16 := iblk2 V c 1 t
abbrev wtsBlk (c : Dev nD) (t : Fin cfg2.N) : FVec Ideal S128x128 .f32 := iblk2 V c 2 t
abbrev biasBlk (c : Dev nD) (t : Fin cfg2.N) : FVec Ideal S1x128 .f32 := iblk2 V c 3 t

/-- The adjacency window's block at point `t` is rows `400 t … 400 t + 399` of the adjacency. -/
theorem adj_blk_apply (c : Dev nD) (t : Fin cfg2.N) (a : Fin 400) (l : Fin 10000) (r : Fin 10000) (hr : r.val = 400 * t.val + a.val) :
    adjBlk V c t (ix2 a l) = adj V c r l := by
  obtain ⟨e0, e1, -⟩ := window_indices t
  show (V c main_arg1 : S10000x10000.Idx → EReal) (((cfg2.win 0).blk t).view.emb (ix2 a l)) = (V c main_arg1 : S10000x10000.Idx → EReal) (ix2 r l)
  refine congrArg _ (funext fun d => Fin.ext ?_)
  match d with
  | ⟨0, _⟩ => show win2_0.index t (0 : Fin 2) * 400 + 1 * a.val = r.val; rw [e0, hr]; omega
  | ⟨1, _⟩ => show win2_0.index t (1 : Fin 2) * 10000 + 1 * l.val = l.val; rw [e1]; omega

/-- The features' window holds the whole array at every point, -/
theorem feat_blk_apply (c : Dev nD) (t : Fin cfg2.N) (l : Fin 10000) (k : Fin 128) :
    featBlk V c t (ix2 l k) = feat V c l k := by
  obtain ⟨-, -, e0, e1, -⟩ := window_indices t
  show (V c main_v5 : S10000x128.Idx → EReal) (((cfg2.win 1).blk t).view.emb (ix2 l k)) = (V c main_v5 : S10000x128.Idx → EReal) (ix2 l k)
  refine congrArg _ (funext fun d => Fin.ext ?_)
  match d with
  | ⟨0, _⟩ => show win2_1.index t (0 : Fin 2) * 10000 + 1 * l.val = l.val; rw [e0]; omega
  | ⟨1, _⟩ => show win2_1.index t (1 : Fin 2) * 128 + 1 * k.val = k.val; rw [e1]; omega

/-- so does the weights', -/
theorem wts_blk_apply (c : Dev nD) (t : Fin cfg2.N) (k : Fin 128) (q : Fin 128) :
    wtsBlk V c t (ix2 k q) = wts V c k q := by
  obtain ⟨-, -, -, -, e0, e1, -⟩ := window_indices t
  show (V c main_arg6 : S128x128.Idx → EReal) (((cfg2.win 2).blk t).view.emb (ix2 k q)) = (V c main_arg6 : S128x128.Idx → EReal) (ix2 k q)
  refine congrArg _ (funext fun d => Fin.ext ?_)
  match d with
  | ⟨0, _⟩ => show win2_2.index t (0 : Fin 2) * 128 + 1 * k.val = k.val; rw [e0]; omega
  | ⟨1, _⟩ => show win2_2.index t (1 : Fin 2) * 128 + 1 * q.val = q.val; rw [e1]; omega

/-- and the bias row's. -/
theorem bias_blk_apply (c : Dev nD) (t : Fin cfg2.N) (q : Fin 128) :
    biasBlk V c t (ix2 (0 : Fin 1) q) = bias V c q := by
  obtain ⟨-, -, -, -, -, -, e0, e1, -⟩ := window_indices t
  show (V c main_v6 : S1x128.Idx → EReal) (((cfg2.win 3).blk t).view.emb (ix2 (0 : Fin 1) q)) = (V c main_v6 : S1x128.Idx → EReal) (ix2 (0 : Fin 1) q)
  refine congrArg _ (funext fun d => Fin.ext ?_)
  match d with
  | ⟨0, _⟩ => show win2_3.index t (0 : Fin 2) * 1 + 1 * 0 = 0; rw [e0]
  | ⟨1, _⟩ => show win2_3.index t (1 : Fin 2) * 128 + 1 * q.val = q.val; rw [e1]; omega

/-- THE BLOCK POINT `t` STORES, entry by entry: its row `y 0` is row `400 t + y 0` of `(A + I) · h · W + b`. The block's
    diagonal column `a + 400 t` is the array's diagonal at that row. -/
theorem body_blk (c : Dev nD) (t : Fin cfg2.N) (y : S400x128.Idx) (j : S10000x128.Idx)
    (h0 : (j 0).val = 400 * t.val + (y 0).val) (h1 : (j 1).val = (y 1).val) :
    k2_pay1 (F := Ideal) (grid2.coords t) (adjBlk V c t) (featBlk V c t) (wtsBlk V c t) (biasBlk V c t) y = rowsOut V c j := by
  obtain ⟨a, q, rfl⟩ : ∃ (a : Fin 400) (q : Fin 128), y = ix2 a q := ⟨y 0, y 1, eq_ix2 y⟩
  obtain ⟨p, q', rfl⟩ : ∃ (p : Fin 10000) (q' : Fin 128), j = ix2 p q' := ⟨j 0, j 1, eq_ix2 j⟩
  have hp : p.val = 400 * t.val + a.val := h0
  obtain rfl : q = q' := Fin.ext h1.symm
  have hc : (grid2.coords t 0).val = t.val := (window_indices t).2.2.2.2.2.2.2.2.2.2
  refine (body_apply (grid2.coords t) (adjBlk V c t) (featBlk V c t) (wtsBlk V c t) (biasBlk V c t) a q).trans ?_
  show _ = Cert.Gcn.lin (Cert.Gcn.agg (adj V c) (feat V c)) (wts V c) (bias V c) p q
  unfold Cert.Gcn.lin Cert.Gcn.agg Cert.Gcn.eye
  refine congrArg₂ (· + ·) ?_ (bias_blk_apply V c t q)
  refine Finset.sum_congr rfl fun k _ => ?_
  refine congrArg₂ (· * ·) ?_ (wts_blk_apply V c t k q)
  refine Finset.sum_congr rfl fun l _ => ?_
  refine congrArg₂ (· * ·) ?_ (feat_blk_apply V c t l k)
  refine congrArg₂ (· + ·) (adj_blk_apply V c t a l p hp) ?_
  exact if_congr (by rw [hc, hp]; omega) rfl rfl

/-- WHAT POINT `t` WRITES BACK is block `t` of `rowsOut`. -/
theorem written_back (c : Dev nD) (t : Fin cfg2.N) :
    (dat2 V c).flushed 4 t = ((cfg2.win 4).blk t).view.read (Elt Ideal) (rowsOut V c) := by
  show (cfg2.win 4).cut (grid2.coords t) ((dat2 V c).after 4 t) = _
  rw [after2_4]
  unfold out2_4
  rw [View.canon_unit_zero zero_offsets]
  simp only [View.ld_unit_zero (S := S400x10000) zero_offsets, View.ld_unit_zero (S := S10000x128) zero_offsets, View.ld_unit_zero (S := S128x128) zero_offsets,
    View.ld_unit_zero (S := S1x128) zero_offsets]
  obtain ⟨-, -, -, -, -, -, -, -, e0, e1, -⟩ := window_indices t
  funext y
  refine body_blk V c t y _ ?_ ?_
  · show win2_4.index t (0 : Fin 2) * 400 + 1 * (y 0).val = 400 * t.val + (y 0).val; rw [e0]; omega
  · show win2_4.index t (1 : Fin 2) * 128 + 1 * (y 1).val = (y 1).val; rw [e1]; omega

/-- An index of the array is in point `t`'s block iff each coordinate is in the block's range on its axis. -/
theorem mem_block_iff (t : Fin cfg2.N) (j : S10000x128.Idx) :
    j ∈ ((cfg2.win 4).blk t).view.set ↔ ∀ d : Fin 2, win2_4.index t d * S400x128.size d ≤ (j d).val ∧ (j d).val < win2_4.index t d * S400x128.size d + S400x128.size d := by
  show j ∈ ((View.whole main_v7).slice (win2_4.rect t)).set ↔ _
  rw [View.set_slice_whole, Rect.mem_set_unit]
  exact Iff.rfl

/-- Row `r` of the array is written by point `r / 400`: the 25 blocks of 400 rows cover the 10000 rows. -/
theorem rows_covered (j : S10000x128.Idx) : ∃ t : Fin cfg2.N, (cfg2.win 4).flush t = true ∧ j ∈ ((cfg2.win 4).blk t).view.set := by
  have hj0 : (j 0).val < 10000 := (j 0).isLt
  have hj1 : (j 1).val < 128 := (j 1).isLt
  have hN : cfg2.N = 25 := N_2
  obtain ⟨t, ht⟩ : ∃ t : Fin cfg2.N, t.val = (j 0).val / 400 := ⟨⟨(j 0).val / 400, by rw [hN]; omega⟩, rfl⟩
  obtain ⟨-, -, -, -, -, -, -, -, e0, e1, -⟩ := window_indices t
  refine ⟨t, flush2_4 t, ?_⟩
  rw [mem_block_iff]
  intro d
  match d with
  | ⟨0, _⟩ => show win2_4.index t (0 : Fin 2) * 400 ≤ (j 0).val ∧ (j 0).val < win2_4.index t (0 : Fin 2) * 400 + 400; rw [e0, ht]; omega
  | ⟨1, _⟩ => show win2_4.index t (1 : Fin 2) * 128 ≤ (j 1).val ∧ (j 1).val < win2_4.index t (1 : Fin 2) * 128 + 128; rw [e1]; omega

/-- THE ARRAY after the 25 points: `rowsOut`. -/
theorem array_after (c : Dev nD) : (dat2 V c).arrAt 4 cfg2.N = rowsOut V c :=
  (dat2 V c).arrAt_eq_of_cover 4 (rowsOut V c) (fun t _ => written_back V c t) rows_covered

/-- The matmul region's output array after its 25 grid points, entry by entry: row `p` of `(A + I) · h · W + b` over the
    arrays as the region finds them (`V`). -/
theorem arr (c : Dev nD) (p : Fin 10000) (q : Fin 128) :
    ((dat2 (F := Ideal) V c).arrAt 4 cfg2.N : S10000x128.Idx → EReal) (ix2 p q)
      = Cert.Gcn.lin (Cert.Gcn.agg (fun r l => (V c main_arg1 : S10000x10000.Idx → EReal) (ix2 r l))
            (fun l k => (V c main_v5 : S10000x128.Idx → EReal) (ix2 l k)))
          (fun k q' => (V c main_arg6 : S128x128.Idx → EReal) (ix2 k q'))
          (fun q' => (V c main_v6 : S1x128.Idx → EReal) (ix2 (0 : Fin 1) q')) p q := by
  rw [array_after V c]
  rfl

end Cert.KernelIdeal.Mm2

end
-- ==== Proof.Bn1Value.lean ====
/-
  The first batch-norm region, read entry by entry.

  The region has no grid: it runs at ONE point, and each of its four windows is its whole array. Its body loads the
  [10000, 128] input `x` and the two [1, 128] rows `g` (scale) and `β` (shift), and stores one value, which at row `p` and
  column `q` is
      y      = (x p q − μ q) · rsqrt (σ² q + ε) · g q + β q,        the result  y  if 0 ≤ y,  else slope · y,
  with  μ q = (∑ r, x r q) / 10000  the column's mean and  σ² q = (∑ r, (x r q − μ q)²) / 10000  its biased variance: the
  leaky relu of the batch norm in the product-with-reciprocal-square-root form (`Cert.Gcn.lrelu (Cert.Gcn.bnK …)`).

  Three steps. (1) The stored value at an index: each of the two sums over the rows is a reduction over axis 0, read as a
  sum over `Fin 10000` of the source at (r, q); the keepdims forms ([128] → [1, 128], then one row repeated down the 10000
  rows) read the same column `q`; every other operation is entrywise, the comparison against 0.0 with the select is the
  `if`, and the final change of float format is the identity on extended reals. (2) Because every window is the whole
  array at block index 0, the input blocks ARE the arrays the region finds, and what the one point writes back is the
  stored value read through the whole output. (3) That one write-back covers every index of the output array, so the array
  ends holding the stored value everywhere.
-/
import proofs.«144493_g15195594293521_cont_week2b_253_30_alg».proof.Proof.FrameKernelIdeal
import proofs.«144493_g15195594293521_cont_week2b_253_30_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bn1

open Idealize.ShloMosaic Idealize.ShloMosaic.TcCoe Idealize.ShloMosaic.ValueIdx Idealize.SL.Sem
open Cert.KernelIdeal Cert.KernelIdeal.Gen Cert.KernelIdeal.GenP

/-! ## The stored value at an index -/

/-- Reducing a [10000, 128] array over its rows: the source index above column `q` with row coordinate `k` is `(k, q)`. -/
theorem lift_col (h : S10000x128.Reduces [0] S128) (q : Fin 128) (k : Fin 10000) :
    h.lift (ix1 q) k = ix2 k q := by
  funext a
  match a with
  | ⟨0, _⟩ => rfl
  | ⟨1, _⟩ => rfl

/-- A sum-reduction of a [10000, 128] array over axis 0, at column `q`, is the sum of that column's 10000 entries. -/
theorem colsum_apply (x : FVec Ideal S10000x128 .f32) (h : S10000x128.Reduces [0] S128) (q : Fin 128) :
    multiReduction (F := Ideal) .add [0] S128 x 0x00000000#32 h (.inl rfl) rfl (ix1 q) = ∑ r : Fin 10000, x (ix2 r q) := by
  refine (Ideal.multiReduction_add_single x 0x00000000#32 h (.inl rfl) rfl (ix1 q)).trans ?_
  exact Finset.sum_congr rfl fun k _ => congrArg x (lift_col h q k)

/-- The reciprocal square root of a vector, at an index, is that of the entry. -/
theorem rsqrt_apply {s : Shape} {φ : FTy} (a : FVec Ideal s φ) (i : s.Idx) : rsqrt a i = Ideal.rsqrt (a i) := rfl

/-- Selecting on "`y` is at or above 0.0" is the `if` on `0 ≤ y`: the comparison of extended reals is the order's, and the
    word of 0.0 is the extended real 0. -/
theorem select_oge_zero (y a b : EReal) :
    Scalar.select (FloatOps.cmpf (F := Ideal) (φ := .f32) .oge y (Ideal.ofBits .f32 0x00000000#32)) a b
      = if 0 ≤ y then a else b := by
  rw [Ideal.cmpf_def, Ideal.ofBits_zero_f32]
  unfold Scalar.select Ideal.cmp
  by_cases h : (0 : EReal) ≤ y <;> simp [h]

/-- THE STORED VALUE at row `p`, column `q`: the leaky relu of the batch norm of `v0` with scale row `g` and shift row `b`.
    The index goes through the entrywise operations; the mean's and the variance's reductions become sums over the rows
    (`colsum_apply`: first the outer one of the centred squares, then, inside it and outside, the one of `v0` itself); the
    three literals 10000.0, ε and the slope are the specification's own words, never evaluated; what is left is the
    specification's term. -/
theorem pay_apply (v0 : FVec Ideal S10000x128 .f32) (g b : FVec Ideal S1x128 .f32) (p : Fin 10000) (q : Fin 128) :
    k1_pay1 (F := Ideal) v0 g b (ix2 p q)
      = Cert.Gcn.lrelu (Cert.Gcn.bnK (fun r k => v0 (ix2 r k)) (fun k => g (ix2 (0 : Fin 1) k)) (fun k => b (ix2 (0 : Fin 1) k))) p q := by
  unfold k1_pay1
  simp only [truncf_apply, select_apply, cmpf_apply, mulf_apply, addf_apply, subf_apply, broadcast_apply, shapeCast_self,
    broadcastTo_1b_ab_apply, divf_apply, rsqrt_apply, shapeCast_a_1a_apply, Ideal.ofBits_def]
  rw [colsum_apply v0 reduces_S10000x128_S128 q, colsum_apply _ reduces_S10000x128_S128 q]
  simp only [mulf_apply, subf_apply, broadcast_apply, broadcastTo_1b_ab_apply, divf_apply, shapeCast_a_1a_apply]
  rw [colsum_apply v0 reduces_S10000x128_S128 q, select_oge_zero]
  rfl

/-! ## The one point's write-back is the whole array -/

variable (V : (c : Dev nD) → (b : Ref sig .tc) → Buf (Elt Ideal) ((c : Thread nD τ).loc b))

/-- The body's loads and its store are at offsets (0, 0). -/
theorem off_zero : (![0, 0] : Fin 2 → Nat) = fun _ => 0 := funext fun a => by fin_cases a <;> rfl

/-- What the body leaves in the output's buffer: its one store covers the buffer and its loads read whole buffers, so it
    is the stored value of the three inputs' contents. -/
theorem out_eq (x0 : Vec Ideal S10000x128 .f32) (x1 x2 : Vec Ideal S1x128 .f32) :
    out1_3 x0 x1 x2 = k1_pay1 (F := Ideal) x0 x1 x2 := by
  unfold out1_3
  rw [View.canon_unit_zero off_zero]
  simp only [View.ld_unit_zero (S := S10000x128) off_zero, View.ld_unit_zero (S := S1x128) off_zero]

/-- Each input window's block is its whole array as the region finds it: the block index is 0 on both axes and the block's
    sizes are the array's. -/
theorem iblk_in0 (c : Dev nD) (t : Fin cfg1.N) :
    (iblk1 V c 0 t : Vec Ideal S10000x128 .f32) = (V c main_v2 : S10000x128.Idx → EReal) := by
  have hz : (fun a => win1_0.index t a * main_v2.ty.shape.size a) = fun _ => 0 := funext fun a => Nat.zero_mul _
  exact Memref.read_access_unit_zero (Elt Ideal) main_v2 hz (fun a => by rw [congrFun hz a]; simp) (V c main_v2)

theorem iblk_in1 (c : Dev nD) (t : Fin cfg1.N) :
    (iblk1 V c 1 t : Vec Ideal S1x128 .f32) = (V c main_v3 : S1x128.Idx → EReal) := by
  have hz : (fun a => win1_1.index t a * main_v3.ty.shape.size a) = fun _ => 0 := funext fun a => Nat.zero_mul _
  exact Memref.read_access_unit_zero (Elt Ideal) main_v3 hz (fun a => by rw [congrFun hz a]; simp) (V c main_v3)

theorem iblk_in2 (c : Dev nD) (t : Fin cfg1.N) :
    (iblk1 V c 2 t : Vec Ideal S1x128 .f32) = (V c main_v4 : S1x128.Idx → EReal) := by
  have hz : (fun a => win1_2.index t a * main_v4.ty.shape.size a) = fun _ => 0 := funext fun a => Nat.zero_mul _
  exact Memref.read_access_unit_zero (Elt Ideal) main_v4 hz (fun a => by rw [congrFun hz a]; simp) (V c main_v4)

/-- The output array's contents after the region: the stored value of the three arrays the region finds. -/
def res (c : Dev nD) : Buf (Elt Ideal) ((c : Thread nD τ).loc main_v5) :=
  k1_pay1 (F := Ideal) (V c main_v2) (V c main_v3) (V c main_v4)

/-- What the point writes back is `res` read through the output window's block — which is the whole output. -/
theorem flushed_eq (c : Dev nD) (t : Fin cfg1.N) (hf : (cfg1.win 3).flush t = true) :
    (dat1 (F := Ideal) V c).flushed 3 t = ((cfg1.win 3).blk t).view.read (Elt Ideal) (res V c) := by
  show (cfg1.win 3).cut (grid1.coords t) ((dat1 (F := Ideal) V c).after 3 t) = _
  rw [after1_3]
  have hz : (fun a => win1_3.index t a * main_v5.ty.shape.size a) = fun _ => 0 := funext fun a => Nat.zero_mul _
  refine Eq.trans ?_ (Memref.read_access_unit_zero (Elt Ideal) main_v5 hz (fun a => by rw [congrFun hz a]; simp) (res V c)).symm
  refine (out_eq (iblk1 V c 0 t) (iblk1 V c 1 t) (iblk1 V c 2 t)).trans ?_
  unfold res
  rw [iblk_in0 V c t, iblk_in1 V c t, iblk_in2 V c t]

/-- The one point's block covers every index of the output: it starts at 0 on each axis and has the array's extents. -/
theorem cover (c : Dev nD) (i : ((cfg1.win 3).arr.view.loc (c.tc : Thread nD τ)).2.ty.Idx) :
    ∃ t : Fin cfg1.N, (cfg1.win 3).flush t = true ∧ i ∈ ((cfg1.win 3).blk t).view.set :=
  ⟨t1_0, flush1_3 t1_0, by
    show i ∈ ((View.whole main_v5).slice (win1_3.rect t1_0)).set
    rw [View.set_slice_whole, Rect.mem_set_unit]
    intro a
    have h := (i a).isLt
    show win1_3.index t1_0 a * win1_3.size a ≤ (i a : Nat) ∧ (i a : Nat) < win1_3.index t1_0 a * win1_3.size a + win1_3.xsize (grid1.coords t1_0) a
    rw [show win1_3.index t1_0 a = 0 from rfl, Nat.zero_mul, Nat.zero_add]
    exact ⟨Nat.zero_le _, h⟩⟩

/-- So the output array ends holding `res`. -/
theorem arr_eq (c : Dev nD) : (dat1 (F := Ideal) V c).arrAt 3 cfg1.N = res V c :=
  (dat1 (F := Ideal) V c).arrAt_eq_of_cover 3 (res V c) (flushed_eq V c) (cover c)

/-- The batch-norm region's output array after its one grid point, entry by entry: the leaky relu of the kernel's batch
    norm of the arrays as the region finds them (`V`). -/
theorem arr (c : Dev nD) (p : Fin 10000) (q : Fin 128) :
    ((dat1 (F := Ideal) V c).arrAt 3 cfg1.N : S10000x128.Idx → EReal) (ix2 p q)
      = Cert.Gcn.lrelu (Cert.Gcn.bnK (fun r k => (V c main_v2 : S10000x128.Idx → EReal) (ix2 r k))
          (fun k => (V c main_v3 : S1x128.Idx → EReal) (ix2 (0 : Fin 1) k))
          (fun k => (V c main_v4 : S1x128.Idx → EReal) (ix2 (0 : Fin 1) k))) p q := by
  rw [arr_eq V c]
  exact pay_apply (V c main_v2) (V c main_v3) (V c main_v4) p q

end Cert.KernelIdeal.Bn1

end
-- ==== Proof.Bn3Value.lean ====
/-
  The second batch-norm region, read entry by entry.

  Like the first layer's, this region has no grid: ONE point, each of its four windows its whole array. Its body loads the
  [10000, 128] input `x` (the second layer's linear map) and the [1, 128] rows `g` (scale) and `β` (shift), and stores, at
  row `p` and column `q`,
      y      = (x p q − μ q) · rsqrt (σ² q + ε) · g q + β q,        the result  y  if 0 ≤ y,  else slope · y,
  where  μ q = (∑ r, x r q) / 10000  and  σ² q = (∑ r, (x r q − μ q)²) / 10000  are the column's mean and biased variance:
  `Cert.Gcn.lrelu (Cert.Gcn.bnK …)`. The output is kept in the input's float format, so no change of format closes the
  stored value here.

  The same three steps as for the first layer. (1) The stored value at an index: the two reductions over axis 0 are sums
  over `Fin 10000` of the source at (r, q); the keepdims forms ([128] → [1, 128], one row repeated down the rows) read
  column `q`; the other operations are entrywise, and the comparison against 0.0 with the select is the `if`. (2) Every
  window is the whole array at block index 0: the input blocks are the arrays the region finds, and the one point writes
  back the stored value read through the whole output. (3) That write-back covers the output array, which therefore ends
  holding the stored value at every index.
-/
import proofs.«144493_g15195594293521_cont_week2b_253_30_alg».proof.Proof.FrameKernelIdeal
import proofs.«144493_g15195594293521_cont_week2b_253_30_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bn3

open Idealize.ShloMosaic Idealize.ShloMosaic.TcCoe Idealize.ShloMosaic.ValueIdx Idealize.SL.Sem
open Cert.KernelIdeal Cert.KernelIdeal.Gen Cert.KernelIdeal.GenP

/-! ## The stored value at an index -/

/-- Reducing a [10000, 128] array over its rows: the source index above column `q` with row coordinate `k` is `(k, q)`. -/
theorem lift_col (h : S10000x128.Reduces [0] S128) (q : Fin 128) (k : Fin 10000) :
    h.lift (ix1 q) k = ix2 k q := by
  funext a
  match a with
  | ⟨0, _⟩ => rfl
  | ⟨1, _⟩ => rfl

/-- A sum-reduction of a [10000, 128] array over axis 0, at column `q`, is the sum of that column's 10000 entries. -/
theorem colsum_apply (x : FVec Ideal S10000x128 .f32) (h : S10000x128.Reduces [0] S128) (q : Fin 128) :
    multiReduction (F := Ideal) .add [0] S128 x 0x00000000#32 h (.inl rfl) rfl (ix1 q) = ∑ r : Fin 10000, x (ix2 r q) := by
  refine (Ideal.multiReduction_add_single x 0x00000000#32 h (.inl rfl) rfl (ix1 q)).trans ?_
  exact Finset.sum_congr rfl fun k _ => congrArg x (lift_col h q k)

/-- The reciprocal square root of a vector, at an index, is that of the entry. -/
theorem rsqrt_apply {s : Shape} {φ : FTy} (a : FVec Ideal s φ) (i : s.Idx) : rsqrt a i = Ideal.rsqrt (a i) := rfl

/-- Selecting on "`y` is at or above 0.0" is the `if` on `0 ≤ y`: the comparison of extended reals is the order's, and the
    word of 0.0 is the extended real 0. -/
theorem select_oge_zero (y a b : EReal) :
    Scalar.select (FloatOps.cmpf (F := Ideal) (φ := .f32) .oge y (Ideal.ofBits .f32 0x00000000#32)) a b
      = if 0 ≤ y then a else b := by
  rw [Ideal.cmpf_def, Ideal.ofBits_zero_f32]
  unfold Scalar.select Ideal.cmp
  by_cases h : (0 : EReal) ≤ y <;> simp [h]

/-- THE STORED VALUE at row `p`, column `q`: the leaky relu of the batch norm of `v0` with scale row `g` and shift row `b`.
    The index goes through the entrywise operations; the reduction of the centred squares becomes a sum over the rows, and
    so does the reduction of `v0` itself, outside that sum and inside it (`colsum_apply`); the literals 10000.0, ε and the
    slope are the specification's own words, never evaluated; what is left is the specification's term. -/
theorem pay_apply (v0 : FVec Ideal S10000x128 .f32) (g b : FVec Ideal S1x128 .f32) (p : Fin 10000) (q : Fin 128) :
    k3_pay1 (F := Ideal) v0 g b (ix2 p q)
      = Cert.Gcn.lrelu (Cert.Gcn.bnK (fun r k => v0 (ix2 r k)) (fun k => g (ix2 (0 : Fin 1) k)) (fun k => b (ix2 (0 : Fin 1) k))) p q := by
  unfold k3_pay1
  simp only [select_apply, cmpf_apply, mulf_apply, addf_apply, subf_apply, broadcast_apply, shapeCast_self,
    broadcastTo_1b_ab_apply, divf_apply, rsqrt_apply, shapeCast_a_1a_apply, Ideal.ofBits_def]
  rw [colsum_apply v0 reduces_S10000x128_S128 q, colsum_apply _ reduces_S10000x128_S128 q]
  simp only [mulf_apply, subf_apply, broadcast_apply, broadcastTo_1b_ab_apply, divf_apply, shapeCast_a_1a_apply]
  rw [colsum_apply v0 reduces_S10000x128_S128 q, select_oge_zero]
  rfl

/-! ## The one point's write-back is the whole array -/

variable (V : (c : Dev nD) → (b : Ref sig .tc) → Buf (Elt Ideal) ((c : Thread nD τ).loc b))

/-- The body's loads and its store are at offsets (0, 0). -/
theorem off_zero : (![0, 0] : Fin 2 → Nat) = fun _ => 0 := funext fun a => by fin_cases a <;> rfl

/-- What the body leaves in the output's buffer: its one store covers the buffer and its loads read whole buffers, so it
    is the stored value of the three inputs' contents. -/
theorem out_eq (x0 : Vec Ideal S10000x128 .f32) (x1 x2 : Vec Ideal S1x128 .f32) :
    out3_3 x0 x1 x2 = k3_pay1 (F := Ideal) x0 x1 x2 := by
  unfold out3_3
  rw [View.canon_unit_zero off_zero]
  simp only [View.ld_unit_zero (S := S10000x128) off_zero, View.ld_unit_zero (S := S1x128) off_zero]

/-- Each input window's block is its whole array as the region finds it: the block index is 0 on both axes and the block's
    sizes are the array's. -/
theorem iblk_in0 (c : Dev nD) (t : Fin cfg3.N) :
    (iblk3 V c 0 t : Vec Ideal S10000x128 .f32) = (V c main_v7 : S10000x128.Idx → EReal) := by
  have hz : (fun a => win3_0.index t a * main_v7.ty.shape.size a) = fun _ => 0 := funext fun a => Nat.zero_mul _
  exact Memref.read_access_unit_zero (Elt Ideal) main_v7 hz (fun a => by rw [congrFun hz a]; simp) (V c main_v7)

theorem iblk_in1 (c : Dev nD) (t : Fin cfg3.N) :
    (iblk3 V c 1 t : Vec Ideal S1x128 .f32) = (V c main_v8 : S1x128.Idx → EReal) := by
  have hz : (fun a => win3_1.index t a * main_v8.ty.shape.size a) = fun _ => 0 := funext fun a => Nat.zero_mul _
  exact Memref.read_access_unit_zero (Elt Ideal) main_v8 hz (fun a => by rw [congrFun hz a]; simp) (V c main_v8)

theorem iblk_in2 (c : Dev nD) (t : Fin cfg3.N) :
    (iblk3 V c 2 t : Vec Ideal S1x128 .f32) = (V c main_v9 : S1x128.Idx → EReal) := by
  have hz : (fun a => win3_2.index t a * main_v9.ty.shape.size a) = fun _ => 0 := funext fun a => Nat.zero_mul _
  exact Memref.read_access_unit_zero (Elt Ideal) main_v9 hz (fun a => by rw [congrFun hz a]; simp) (V c main_v9)

/-- The output array's contents after the region: the stored value of the three arrays the region finds. -/
def res (c : Dev nD) : Buf (Elt Ideal) ((c : Thread nD τ).loc main_v10) :=
  k3_pay1 (F := Ideal) (V c main_v7) (V c main_v8) (V c main_v9)

/-- What the point writes back is `res` read through the output window's block — which is the whole output. -/
theorem flushed_eq (c : Dev nD) (t : Fin cfg3.N) (hf : (cfg3.win 3).flush t = true) :
    (dat3 (F := Ideal) V c).flushed 3 t = ((cfg3.win 3).blk t).view.read (Elt Ideal) (res V c) := by
  show (cfg3.win 3).cut (grid3.coords t) ((dat3 (F := Ideal) V c).after 3 t) = _
  rw [after3_3]
  have hz : (fun a => win3_3.index t a * main_v10.ty.shape.size a) = fun _ => 0 := funext fun a => Nat.zero_mul _
  refine Eq.trans ?_ (Memref.read_access_unit_zero (Elt Ideal) main_v10 hz (fun a => by rw [congrFun hz a]; simp) (res V c)).symm
  refine (out_eq (iblk3 V c 0 t) (iblk3 V c 1 t) (iblk3 V c 2 t)).trans ?_
  unfold res
  rw [iblk_in0 V c t, iblk_in1 V c t, iblk_in2 V c t]

/-- The one point's block covers every index of the output: it starts at 0 on each axis and has the array's extents. -/
theorem cover (c : Dev nD) (i : ((cfg3.win 3).arr.view.loc (c.tc : Thread nD τ)).2.ty.Idx) :
    ∃ t : Fin cfg3.N, (cfg3.win 3).flush t = true ∧ i ∈ ((cfg3.win 3).blk t).view.set :=
  ⟨t3_0, flush3_3 t3_0, by
    show i ∈ ((View.whole main_v10).slice (win3_3.rect t3_0)).set
    rw [View.set_slice_whole, Rect.mem_set_unit]
    intro a
    have h := (i a).isLt
    show win3_3.index t3_0 a * win3_3.size a ≤ (i a : Nat) ∧ (i a : Nat) < win3_3.index t3_0 a * win3_3.size a + win3_3.xsize (grid3.coords t3_0) a
    rw [show win3_3.index t3_0 a = 0 from rfl, Nat.zero_mul, Nat.zero_add]
    exact ⟨Nat.zero_le _, h⟩⟩

/-- So the output array ends holding `res`. -/
theorem arr_eq (c : Dev nD) : (dat3 (F := Ideal) V c).arrAt 3 cfg3.N = res V c :=
  (dat3 (F := Ideal) V c).arrAt_eq_of_cover 3 (res V c) (flushed_eq V c) (cover c)

/-- The batch-norm region's output array after its one grid point, entry by entry: the leaky relu of the kernel's batch
    norm of the arrays as the region finds them (`V`). -/
theorem arr (c : Dev nD) (p : Fin 10000) (q : Fin 128) :
    ((dat3 (F := Ideal) V c).arrAt 3 cfg3.N : S10000x128.Idx → EReal) (ix2 p q)
      = Cert.Gcn.lrelu (Cert.Gcn.bnK (fun r k => (V c main_v7 : S10000x128.Idx → EReal) (ix2 r k))
          (fun k => (V c main_v8 : S1x128.Idx → EReal) (ix2 (0 : Fin 1) k))
          (fun k => (V c main_v9 : S1x128.Idx → EReal) (ix2 (0 : Fin 1) k))) p q := by
  rw [arr_eq V c]
  exact pay_apply (V c main_v7) (V c main_v8) (V c main_v9) p q

end Cert.KernelIdeal.Bn3

end
-- ==== Proof.Views.lean ====
/-
  Each program's argument arrays read as curried functions of their coordinates, and the specification's two layers
  of them: the kernel's in its own spelling of the batch norm (`Cert.KernelIdeal.In.out`), the reference's in its own
  (`Cert.ReferenceIdeal.In.out`); `result` is that function as the contents of the result array.
-/
import proofs.«144493_g15195594293521_cont_week2b_253_30_alg».proof.Defs
import proofs.«144493_g15195594293521_cont_week2b_253_30_alg».proof.Proof.Spec
import Idealize.ShloMosaic.Lib.ValueIdx

noncomputable section

namespace Cert.KernelIdeal.In

open Idealize.ShloMosaic Idealize.ShloMosaic.ValueIdx Idealize.SL.Sem Cert.KernelIdeal

variable (m : (ℓ : Loc nD τ sig) → Buf (Elt Ideal) ℓ) (c : Dev nD)

/-- The node features `x`, the adjacency, and each layer's weight, bias, scale and shift, as functions of their coordinates. -/
def x : Fin 10000 → Fin 128 → EReal := fun r k => (m ((c.tc : Thread nD τ).loc main_arg0) : S10000x128.Idx → EReal) (ix2 r k)
def adj : Fin 10000 → Fin 10000 → EReal := fun r l => (m ((c.tc : Thread nD τ).loc main_arg1) : S10000x10000.Idx → EReal) (ix2 r l)
def W0 : Fin 128 → Fin 128 → EReal := fun k q => (m ((c.tc : Thread nD τ).loc main_arg2) : S128x128.Idx → EReal) (ix2 k q)
def b0 : Fin 128 → EReal := fun q => (m ((c.tc : Thread nD τ).loc main_arg3) : S128.Idx → EReal) (ix1 q)
def g0 : Fin 128 → EReal := fun q => (m ((c.tc : Thread nD τ).loc main_arg4) : S128.Idx → EReal) (ix1 q)
def β0 : Fin 128 → EReal := fun q => (m ((c.tc : Thread nD τ).loc main_arg5) : S128.Idx → EReal) (ix1 q)
def W1 : Fin 128 → Fin 128 → EReal := fun k q => (m ((c.tc : Thread nD τ).loc main_arg6) : S128x128.Idx → EReal) (ix2 k q)
def b1 : Fin 128 → EReal := fun q => (m ((c.tc : Thread nD τ).loc main_arg7) : S128.Idx → EReal) (ix1 q)
def g1 : Fin 128 → EReal := fun q => (m ((c.tc : Thread nD τ).loc main_arg8) : S128.Idx → EReal) (ix1 q)
def β1 : Fin 128 → EReal := fun q => (m ((c.tc : Thread nD τ).loc main_arg9) : S128.Idx → EReal) (ix1 q)

/-- The two layers of the launch memory's arguments. -/
def out : Fin 10000 → Fin 128 → EReal :=
  Cert.Gcn.outK (adj m c) (x m c) (W0 m c) (b0 m c) (g0 m c) (β0 m c) (W1 m c) (b1 m c) (g1 m c) (β1 m c)

/-- The same as the contents of the result array. -/
def result : Buf (Elt Ideal) ((c.tc : Thread nD τ).loc main_v10) := fun j => out m c (j 0) (j 1)

end Cert.KernelIdeal.In

namespace Cert.ReferenceIdeal.In

open Idealize.ShloMosaic Idealize.ShloMosaic.ValueIdx Idealize.SL.Sem Cert.ReferenceIdeal

variable (m : (ℓ : Loc nD τ sig) → Buf (Elt Ideal) ℓ) (c : Dev nD)

/-- The node features `x`, the adjacency, and each layer's weight, bias, scale and shift, as functions of their coordinates. -/
def x : Fin 10000 → Fin 128 → EReal := fun r k => (m ((c.tc : Thread nD τ).loc main_arg0) : S10000x128.Idx → EReal) (ix2 r k)
def adj : Fin 10000 → Fin 10000 → EReal := fun r l => (m ((c.tc : Thread nD τ).loc main_arg1) : S10000x10000.Idx → EReal) (ix2 r l)
def W0 : Fin 128 → Fin 128 → EReal := fun k q => (m ((c.tc : Thread nD τ).loc main_arg2) : S128x128.Idx → EReal) (ix2 k q)
def b0 : Fin 128 → EReal := fun q => (m ((c.tc : Thread nD τ).loc main_arg3) : S128.Idx → EReal) (ix1 q)
def g0 : Fin 128 → EReal := fun q => (m ((c.tc : Thread nD τ).loc main_arg4) : S128.Idx → EReal) (ix1 q)
def β0 : Fin 128 → EReal := fun q => (m ((c.tc : Thread nD τ).loc main_arg5) : S128.Idx → EReal) (ix1 q)
def W1 : Fin 128 → Fin 128 → EReal := fun k q => (m ((c.tc : Thread nD τ).loc main_arg6) : S128x128.Idx → EReal) (ix2 k q)
def b1 : Fin 128 → EReal := fun q => (m ((c.tc : Thread nD τ).loc main_arg7) : S128.Idx → EReal) (ix1 q)
def g1 : Fin 128 → EReal := fun q => (m ((c.tc : Thread nD τ).loc main_arg8) : S128.Idx → EReal) (ix1 q)
def β1 : Fin 128 → EReal := fun q => (m ((c.tc : Thread nD τ).loc main_arg9) : S128.Idx → EReal) (ix1 q)

/-- The two layers of the launch memory's arguments. -/
def out : Fin 10000 → Fin 128 → EReal :=
  Cert.Gcn.outR (adj m c) (x m c) (W0 m c) (b0 m c) (g0 m c) (β0 m c) (W1 m c) (b1 m c) (g1 m c) (β1 m c)

/-- The same as the contents of the result array. -/
def result : Buf (Elt Ideal) ((c.tc : Thread nD τ).loc main_v56) := fun j => out m c (j 0) (j 1)

end Cert.ReferenceIdeal.In

end
-- ==== Proof.KernelValue.lean ====
/-
  The kernel's result array, read back through the whole of @main, is the specification's two layers of the launch
  memory's ten arguments.

  @main is four kernel regions in sequence, each preceded by a stretch of host operations, so the buffer contents pass
  through nine boundaries `W0 … W8`. Two kinds of step move a buffer's contents from one boundary to the next:
    • a host stretch rewrites only the buffers its operations write: the cast of `x` to the narrower float format, which over
      the extended reals is the identity, and the reshapes of the six vectors `b, g, β` from `[128]` to `[1, 128]`, which
      read at `(0, q)` the operand at `q`; every other buffer keeps what it held;
    • a kernel region rewrites only its output array, whose entries the region's own theorem gives as a function of the
      arrays it found at its entry; every other buffer, its input arrays included, keeps what it held.
  So each region's entry arrays are named, as curried functions of their coordinates, by walking each buffer back to the
  launch memory or to the previous region's output:
    region 0 finds `A, x, W0, b0` and leaves            t0 = (A + I) · x · W0 + b0,
    region 1 finds `t0, g0, β0` and leaves              h  = leaky_relu (batchnorm t0)      (the first layer),
    region 2 finds `A, h, W1, b1` and leaves            t1 = (A + I) · h · W1 + b1,
    region 3 finds `t1, g1, β1` and leaves              leaky_relu (batchnorm t1)           (the second layer),
  and the last is `Cert.Gcn.outK` of the ten arguments by the definition of a layer.
-/
import proofs.«144493_g15195594293521_cont_week2b_253_30_alg».proof.Proof.KernelIdealRun
import proofs.«144493_g15195594293521_cont_week2b_253_30_alg».proof.Proof.Mm0Value
import proofs.«144493_g15195594293521_cont_week2b_253_30_alg».proof.Proof.Mm2Value
import proofs.«144493_g15195594293521_cont_week2b_253_30_alg».proof.Proof.Bn1Value
import proofs.«144493_g15195594293521_cont_week2b_253_30_alg».proof.Proof.Bn3Value
import proofs.«144493_g15195594293521_cont_week2b_253_30_alg».proof.Proof.Views
import Idealize.ShloMosaic.Lib.StableHlo.Run
import Idealize.ShloMosaic.Lib.ValueLayout

noncomputable section

namespace Cert.KernelIdeal.Chain

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

/-! ## The host stretches: a reference a stretch does not write keeps its contents -/

/-- The first stretch writes `main_v0` (the cast of `x`) and `main_v1` (`b0` reshaped) only. -/
theorem skip0 (V : Valuation τ sig (Elt Ideal)) (b : Ref sig .tc) (h : b ≠ main_v0 ∧ b ≠ main_v1) :
    StableHlo.after hostOps0 V (Proc.devRef .tc b) = V (Proc.devRef .tc b) :=
  StableHlo.after_of_forall_not_mem _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2⟩))

/-- The second stretch writes `main_v3` and `main_v4` (`g0`, `β0` reshaped) only. -/
theorem skip1 (V : Valuation τ sig (Elt Ideal)) (b : Ref sig .tc) (h : b ≠ main_v3 ∧ b ≠ main_v4) :
    StableHlo.after hostOps1 V (Proc.devRef .tc b) = V (Proc.devRef .tc b) :=
  StableHlo.after_of_forall_not_mem _ _ (List.forall_iff_forall_mem.mp (by
    simp only [hostOps1, List.Forall, StableHlo.reshape_writes, Finset.mem_singleton]
    exact ⟨StableHlo.devRef_ne_of_ne h.1, StableHlo.devRef_ne_of_ne h.2⟩))

/-- The third stretch writes `main_v6` (`b1` reshaped) only. -/
theorem skip2 (V : Valuation τ sig (Elt Ideal)) (b : Ref sig .tc) (h : b ≠ main_v6) :
    StableHlo.after hostOps2 V (Proc.devRef .tc b) = V (Proc.devRef .tc b) :=
  StableHlo.after_of_forall_not_mem _ _ (List.forall_iff_forall_mem.mp (by
    simp only [hostOps2, List.Forall, StableHlo.reshape_writes, Finset.mem_singleton]
    exact StableHlo.devRef_ne_of_ne h))

/-- The fourth stretch writes `main_v8` and `main_v9` (`g1`, `β1` reshaped) only. -/
theorem skip3 (V : Valuation τ sig (Elt Ideal)) (b : Ref sig .tc) (h : b ≠ main_v8 ∧ b ≠ main_v9) :
    StableHlo.after hostOps3 V (Proc.devRef .tc b) = V (Proc.devRef .tc b) :=
  StableHlo.after_of_forall_not_mem _ _ (List.forall_iff_forall_mem.mp (by
    simp only [hostOps3, List.Forall, StableHlo.reshape_writes, Finset.mem_singleton]
    exact ⟨StableHlo.devRef_ne_of_ne h.1, StableHlo.devRef_ne_of_ne h.2⟩))

/-- A vector `[128]` reshaped to `[1, 128]` by a host stretch's operation, read at `(0, q)`. -/
theorem reshape_read (v : S128.Idx → EReal) (q : Fin 128) :
    shapeCast S1x128 v shapeCasts_S128_S1x128 (ix2 (0 : Fin 1) q) = v (ix1 q) :=
  shapeCast_a_1a_apply v shapeCasts_S128_S1x128 0 q

/-! ## A reference nothing has written yet holds the launch memory's array -/

/-- Up to region 0's exit: a reference that is no array of region 0 and no result of the first stretch. -/
theorem keep2 (c : Dev nD) (b : Ref sig .tc)
    (h : (∀ w, Pipeline.arrRef spec0 w ≠ b) ∧ b ≠ main_v0 ∧ b ≠ main_v1) :
    W2 (F := Ideal) m ρ c (Proc.devRef .tc b) = m ((c : Thread nD τ).loc b) :=
  calc W2 (F := Ideal) m ρ c (Proc.devRef .tc b)
    _ = W1 m ρ c (Proc.devRef .tc b) := W2_of_ne m ρ c b h.1
    _ = W0 m ρ c (Proc.devRef .tc b) := skip0 _ b h.2
    _ = m ((c : Thread nD τ).loc b) := rfl

/-- Up to region 1's exit: moreover no array of region 1 and no result of the second stretch. -/
theorem keep4 (c : Dev nD) (b : Ref sig .tc)
    (h : ((∀ w, Pipeline.arrRef spec0 w ≠ b) ∧ b ≠ main_v0 ∧ b ≠ main_v1)
      ∧ (∀ w, Pipeline.arrRef spec1 w ≠ b) ∧ b ≠ main_v3 ∧ b ≠ main_v4) :
    W4 (F := Ideal) m ρ c (Proc.devRef .tc b) = m ((c : Thread nD τ).loc b) :=
  calc W4 (F := Ideal) m ρ c (Proc.devRef .tc b)
    _ = W3 m ρ c (Proc.devRef .tc b) := W4_of_ne m ρ c b h.2.1
    _ = W2 m ρ c (Proc.devRef .tc b) := skip1 _ b h.2.2
    _ = m ((c : Thread nD τ).loc b) := keep2 m ρ c b h.1

/-- Up to region 2's exit: moreover no array of region 2 and no result of the third stretch. -/
theorem keep6 (c : Dev nD) (b : Ref sig .tc)
    (h : (((∀ w, Pipeline.arrRef spec0 w ≠ b) ∧ b ≠ main_v0 ∧ b ≠ main_v1)
      ∧ (∀ w, Pipeline.arrRef spec1 w ≠ b) ∧ b ≠ main_v3 ∧ b ≠ main_v4)
      ∧ (∀ w, Pipeline.arrRef spec2 w ≠ b) ∧ b ≠ main_v6) :
    W6 (F := Ideal) m ρ c (Proc.devRef .tc b) = m ((c : Thread nD τ).loc b) :=
  calc W6 (F := Ideal) m ρ c (Proc.devRef .tc b)
    _ = W5 m ρ c (Proc.devRef .tc b) := W6_of_ne m ρ c b h.2.1
    _ = W4 m ρ c (Proc.devRef .tc b) := skip2 _ b h.2.2
    _ = m ((c : Thread nD τ).loc b) := keep4 m ρ c b h.1

/-! ## Layer 1's matmul region: its entry and what it leaves -/

/-- The adjacency at region 0's entry: no operation of the first stretch writes it. -/
theorem W1_adj (c : Dev nD) :
    (fun r l => (V1 (F := Ideal) m ρ c main_arg1 : S10000x10000.Idx → EReal) (ix2 r l)) = In.adj m c := by
  funext r l
  exact congrFun (skip0 (W0 m ρ c) main_arg1 (by decide)) (ix2 r l)

/-- The features at region 0's entry: the cast of `x` to the narrower format, the identity over the extended reals. -/
theorem W1_x (c : Dev nD) :
    (fun l k => (V1 (F := Ideal) m ρ c main_v0 : S10000x128.Idx → EReal) (ix2 l k)) = In.x m c := by
  funext l k
  have e : W1 (F := Ideal) m ρ c (Proc.devRef .tc main_v0) = m ((c : Thread nD τ).loc main_arg0) := by
    show StableHlo.after hostOps0 _ (Proc.devRef .tc main_v0) = _
    after_results
    rfl
  exact congrFun e (ix2 l k)

/-- The first layer's weight at region 0's entry. -/
theorem W1_W0 (c : Dev nD) :
    (fun k q => (V1 (F := Ideal) m ρ c main_arg2 : S128x128.Idx → EReal) (ix2 k q)) = In.W0 m c := by
  funext k q
  exact congrFun (skip0 (W0 m ρ c) main_arg2 (by decide)) (ix2 k q)

/-- The first layer's bias at region 0's entry: the reshaped vector's row `0`. -/
theorem W1_b0 (c : Dev nD) :
    (fun q => (V1 (F := Ideal) m ρ c main_v1 : S1x128.Idx → EReal) (ix2 (0 : Fin 1) q)) = In.b0 m c := by
  funext q
  show (StableHlo.after (hostOps0 (F := Ideal)) _ (Proc.devRef .tc main_v1) : S1x128.Idx → EReal) _ = _
  after_results
  exact reshape_read (m ((c : Thread nD τ).loc main_arg3)) q

/-- `main_v2` at region 0's exit: `(A + I) · x · W0 + b0`. -/
theorem W2_v2 (c : Dev nD) (p : Fin 10000) (q : Fin 128) :
    (W2 (F := Ideal) m ρ c (Proc.devRef .tc main_v2) : S10000x128.Idx → EReal) (ix2 p q)
      = Cert.Gcn.lin (Cert.Gcn.agg (In.adj m c) (In.x m c)) (In.W0 m c) (In.b0 m c) p q := by
  have e : W2 (F := Ideal) m ρ c (Proc.devRef .tc main_v2) = (dat0 (V1 m ρ) c).arrAt 4 cfg0.N := W2_arr m ρ c 4
  refine (congrFun e (ix2 p q)).trans ((Mm0.arr (V1 m ρ) c p q).trans ?_)
  rw [W1_adj m ρ c, W1_x m ρ c, W1_W0 m ρ c, W1_b0 m ρ c]

/-! ## Layer 1's batch-norm region -/

/-- Region 1 finds region 0's output untouched by the second stretch. -/
theorem W3_t (c : Dev nD) :
    (fun r k => (V3 (F := Ideal) m ρ c main_v2 : S10000x128.Idx → EReal) (ix2 r k))
      = Cert.Gcn.lin (Cert.Gcn.agg (In.adj m c) (In.x m c)) (In.W0 m c) (In.b0 m c) := by
  funext r k
  exact (congrFun (skip1 (W2 m ρ c) main_v2 (by decide)) (ix2 r k)).trans (W2_v2 m ρ c r k)

/-- The first layer's scale: reshaped by the second stretch from the argument, which nothing has written. -/
theorem W3_g0 (c : Dev nD) :
    (fun k => (V3 (F := Ideal) m ρ c main_v3 : S1x128.Idx → EReal) (ix2 (0 : Fin 1) k)) = In.g0 m c := by
  funext k
  show (StableHlo.after (hostOps1 (F := Ideal)) _ (Proc.devRef .tc main_v3) : S1x128.Idx → EReal) _ = _
  after_results
  exact (reshape_read (W2 m ρ c (Proc.devRef .tc main_arg4)) k).trans (congrFun (keep2 m ρ c main_arg4 (by decide)) (ix1 k))

/-- The first layer's shift, likewise. -/
theorem W3_β0 (c : Dev nD) :
    (fun k => (V3 (F := Ideal) m ρ c main_v4 : S1x128.Idx → EReal) (ix2 (0 : Fin 1) k)) = In.β0 m c := by
  funext k
  show (StableHlo.after (hostOps1 (F := Ideal)) _ (Proc.devRef .tc main_v4) : S1x128.Idx → EReal) _ = _
  after_results
  exact (reshape_read (W2 m ρ c (Proc.devRef .tc main_arg5)) k).trans (congrFun (keep2 m ρ c main_arg5 (by decide)) (ix1 k))

/-- `main_v5` at region 1's exit: the first layer. -/
theorem W4_v5 (c : Dev nD) (p : Fin 10000) (q : Fin 128) :
    (W4 (F := Ideal) m ρ c (Proc.devRef .tc main_v5) : S10000x128.Idx → EReal) (ix2 p q)
      = Cert.Gcn.layerK (In.adj m c) (In.x m c) (In.W0 m c) (In.b0 m c) (In.g0 m c) (In.β0 m c) p q := by
  have e : W4 (F := Ideal) m ρ c (Proc.devRef .tc main_v5) = (dat1 (V3 m ρ) c).arrAt 3 cfg1.N := W4_arr m ρ c 3
  refine (congrFun e (ix2 p q)).trans ((Bn1.arr (V3 m ρ) c p q).trans ?_)
  rw [W3_t m ρ c, W3_g0 m ρ c, W3_β0 m ρ c]
  rfl

/-! ## Layer 2's matmul region -/

/-- The adjacency at region 2's entry. Region 0 read it through an input window, so it is one of region 0's arrays:
    an input array is left as it was found; no other region and no stretch before region 2 touches it. -/
theorem W5_adj (c : Dev nD) :
    (fun r l => (V5 (F := Ideal) m ρ c main_arg1 : S10000x10000.Idx → EReal) (ix2 r l)) = In.adj m c := by
  have e : W5 (F := Ideal) m ρ c (Proc.devRef .tc main_arg1) = m ((c : Thread nD τ).loc main_arg1) :=
    calc W5 (F := Ideal) m ρ c (Proc.devRef .tc main_arg1)
      _ = W4 m ρ c (Proc.devRef .tc main_arg1) := skip2 _ main_arg1 (by decide)
      _ = W3 m ρ c (Proc.devRef .tc main_arg1) := W4_of_ne m ρ c main_arg1 (by decide)
      _ = W2 m ρ c (Proc.devRef .tc main_arg1) := skip1 _ main_arg1 (by decide)
      _ = W1 m ρ c (Proc.devRef .tc main_arg1) :=
          (W2_arr m ρ c 0).trans (((dat0 (V1 m ρ) c).arrAt_in 0 rfl _).trans (A_eq0 (V1 m ρ) c 0))
      _ = W0 m ρ c (Proc.devRef .tc main_arg1) := skip0 _ main_arg1 (by decide)
      _ = m ((c : Thread nD τ).loc main_arg1) := rfl
  funext r l
  exact congrFun e (ix2 r l)

/-- Region 2 finds the first layer (region 1's output) untouched by the third stretch. -/
theorem W5_h (c : Dev nD) :
    (fun l k => (V5 (F := Ideal) m ρ c main_v5 : S10000x128.Idx → EReal) (ix2 l k))
      = Cert.Gcn.layerK (In.adj m c) (In.x m c) (In.W0 m c) (In.b0 m c) (In.g0 m c) (In.β0 m c) := by
  funext l k
  exact (congrFun (skip2 (W4 m ρ c) main_v5 (by decide)) (ix2 l k)).trans (W4_v5 m ρ c l k)

/-- The second layer's weight at region 2's entry. -/
theorem W5_W1 (c : Dev nD) :
    (fun k q => (V5 (F := Ideal) m ρ c main_arg6 : S128x128.Idx → EReal) (ix2 k q)) = In.W1 m c := by
  funext k q
  exact (congrFun (skip2 (W4 m ρ c) main_arg6 (by decide)) (ix2 k q)).trans
    (congrFun (keep4 m ρ c main_arg6 (by decide)) (ix2 k q))

/-- The second layer's bias: reshaped by the third stretch from the argument. -/
theorem W5_b1 (c : Dev nD) :
    (fun q => (V5 (F := Ideal) m ρ c main_v6 : S1x128.Idx → EReal) (ix2 (0 : Fin 1) q)) = In.b1 m c := by
  funext q
  show (StableHlo.after (hostOps2 (F := Ideal)) _ (Proc.devRef .tc main_v6) : S1x128.Idx → EReal) _ = _
  after_results
  exact (reshape_read (W4 m ρ c (Proc.devRef .tc main_arg7)) q).trans (congrFun (keep4 m ρ c main_arg7 (by decide)) (ix1 q))

/-- `main_v7` at region 2's exit: `(A + I) · h · W1 + b1` of the first layer `h`. -/
theorem W6_v7 (c : Dev nD) (p : Fin 10000) (q : Fin 128) :
    (W6 (F := Ideal) m ρ c (Proc.devRef .tc main_v7) : S10000x128.Idx → EReal) (ix2 p q)
      = Cert.Gcn.lin (Cert.Gcn.agg (In.adj m c)
          (Cert.Gcn.layerK (In.adj m c) (In.x m c) (In.W0 m c) (In.b0 m c) (In.g0 m c) (In.β0 m c))) (In.W1 m c) (In.b1 m c) p q := by
  have e : W6 (F := Ideal) m ρ c (Proc.devRef .tc main_v7) = (dat2 (V5 m ρ) c).arrAt 4 cfg2.N := W6_arr m ρ c 4
  refine (congrFun e (ix2 p q)).trans ((Mm2.arr (V5 m ρ) c p q).trans ?_)
  rw [W5_adj m ρ c, W5_h m ρ c, W5_W1 m ρ c, W5_b1 m ρ c]

/-! ## Layer 2's batch-norm region -/

/-- Region 3 finds region 2's output untouched by the fourth stretch. -/
theorem W7_t (c : Dev nD) :
    (fun r k => (V7 (F := Ideal) m ρ c main_v7 : S10000x128.Idx → EReal) (ix2 r k))
      = Cert.Gcn.lin (Cert.Gcn.agg (In.adj m c)
          (Cert.Gcn.layerK (In.adj m c) (In.x m c) (In.W0 m c) (In.b0 m c) (In.g0 m c) (In.β0 m c))) (In.W1 m c) (In.b1 m c) := by
  funext r k
  exact (congrFun (skip3 (W6 m ρ c) main_v7 (by decide)) (ix2 r k)).trans (W6_v7 m ρ c r k)

/-- The second layer's scale: reshaped by the fourth stretch from the argument. -/
theorem W7_g1 (c : Dev nD) :
    (fun k => (V7 (F := Ideal) m ρ c main_v8 : S1x128.Idx → EReal) (ix2 (0 : Fin 1) k)) = In.g1 m c := by
  funext k
  show (StableHlo.after (hostOps3 (F := Ideal)) _ (Proc.devRef .tc main_v8) : S1x128.Idx → EReal) _ = _
  after_results
  exact (reshape_read (W6 m ρ c (Proc.devRef .tc main_arg8)) k).trans (congrFun (keep6 m ρ c main_arg8 (by decide)) (ix1 k))

/-- The second layer's shift, likewise. -/
theorem W7_β1 (c : Dev nD) :
    (fun k => (V7 (F := Ideal) m ρ c main_v9 : S1x128.Idx → EReal) (ix2 (0 : Fin 1) k)) = In.β1 m c := by
  funext k
  show (StableHlo.after (hostOps3 (F := Ideal)) _ (Proc.devRef .tc main_v9) : S1x128.Idx → EReal) _ = _
  after_results
  exact (reshape_read (W6 m ρ c (Proc.devRef .tc main_arg9)) k).trans (congrFun (keep6 m ρ c main_arg9 (by decide)) (ix1 k))

/-- `main_v10` at region 3's exit: the two layers. -/
theorem W8_v10 (c : Dev nD) (p : Fin 10000) (q : Fin 128) :
    (W8 (F := Ideal) m ρ c (Proc.devRef .tc main_v10) : S10000x128.Idx → EReal) (ix2 p q) = In.out m c p q := by
  have e : W8 (F := Ideal) m ρ c (Proc.devRef .tc main_v10) = (dat3 (V7 m ρ) c).arrAt 3 cfg3.N := W8_arr m ρ c 3
  refine (congrFun e (ix2 p q)).trans ((Bn3.arr (V7 m ρ) c p q).trans ?_)
  rw [W7_t m ρ c, W7_g1 m ρ c, W7_β1 m ρ c]
  rfl

/-- The result array at the last segment boundary is the specification's two layers of the launch memory's arguments:
    the four regions' arrays (`Mm0.arr`, `Bn1.arr`, `Mm2.arr`, `Bn3.arr`) chained through the boundaries' contents. -/
theorem W8_out (c : Dev nD) : W8 (F := Ideal) m ρ c (Proc.devRef .tc main_v10) = Cert.KernelIdeal.In.result m c := by
  funext j
  obtain ⟨p, q, rfl⟩ : ∃ (p : Fin 10000) (q : Fin 128), j = ix2 p q := ⟨j 0, j 1, eq_ix2 j⟩
  exact W8_v10 m ρ c p q

/-- The kernel's run with its result named. -/
theorem run : θ_run (defs (F := Ideal)) (onTc (τ := τ) (main (F := Ideal))) ⟨m, fun _ => 0, ρ⟩ (fun r => ∀ c : Dev nD,
      r.2.mem ((c.tc : Thread nD τ).loc main_v10) = Cert.KernelIdeal.In.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W8_out m ρ c), (h c).2⟩) (run_out (F := Ideal) m ρ)

end Cert.KernelIdeal.Chain

end
-- ==== Proof.RefStages.lean ====
/-
  The reference's operations as pure functions of its argument arrays, stage by stage, in the order @main applies
  them (the callees `_var`, `_where`, `leaky_relu`, `_where_0` read inline at their call sites):
  the adjacency with the identity added (`aI`), one layer's pre-activation `(A + I) · h · W + b` (`pre`), a column's
  mean (`meanS`) and biased variance (`varS`: the mean of the centred squares over `10000 − ddof` rows with `ddof = 0`, kept
  where that count is positive), the batch norm by the quotient by the square root (`bnS`), the leaky relu (`lreluS`),
  one layer (`layerS`) and the two layers (`outS`). Generic in the float family.
-/
import proofs.«144493_g15195594293521_cont_week2b_253_30_alg».proof.ReferenceIdeal

noncomputable section

namespace Cert.ReferenceIdeal.Stages

open Idealize.ShloMosaic Cert.ReferenceIdeal

variable {F : FTy → Type} [FloatOps F] [Facts]
open Facts₀ Facts

/-- The identity matrix as the reference builds it: where the row counter equals the column counter, one. -/
def eyeS : FVec F S10000x10000 .f32 :=
  uitofp (F := F) .f32 (cmpi .eq (addi (iotaInDim S10000x10000 32 0)
    (broadcastInDim S10000x10000 ![] bcast_S_S10000x10000 (constantI S_ 32 0#32))) (iotaInDim S10000x10000 32 1))

/-- The adjacency with the identity added. -/
def aI (adj : FVec F S10000x10000 .f32) : FVec F S10000x10000 .f32 := addf adj (eyeS (F := F))

/-- A length-128 vector laid along every row. -/
def rows (v : FVec F S128 .f32) : FVec F S10000x128 .f32 :=
  broadcastInDim S10000x128 ![0, 1] bcast_S1x128_S10000x128_0_1 (broadcastInDim S1x128 ![1] bcast_S128_S1x128_1 v)

/-- One layer's pre-activation: `(a · h) · W + b`. -/
def pre (a : FVec F S10000x10000 .f32) (h : FVec F S10000x128 .f32) (W : FVec F S128x128 .f32) (b : FVec F S128 .f32) :
    FVec F S10000x128 .f32 :=
  addf (Host.dotGeneral dot_S10000x128_S128x128_S10000x128_1_0_0_1_n_n none
      (Host.dotGeneral dot_S10000x10000_S10000x128_S10000x128_1_0_0_1_n_n none a h) W) (rows b)

/-- A column's mean over the rows. -/
def meanS (t : FVec F S10000x128 .f32) : FVec F S128 .f32 :=
  Host.divf (Host.reduceAdd t (constant S_ .f32 0x00000000#32) reducesTo_S10000x128_S128_d0 h_S_)
    (broadcastInDim S128 ![] bcast_S_S128 (constant S_ .f32 0x461C4000#32))

/-- The entries centred on their column's mean, as the variance's callee computes them (the mean kept as a row). -/
def cenV (t : FVec F S10000x128 .f32) : FVec F S10000x128 .f32 :=
  subf t (broadcastInDim S10000x128 ![0, 1] bcast_S1x128_S10000x128_0_1
    (Host.divf (broadcastInDim S1x128 ![1] bcast_S128_S1x128_1
        (Host.reduceAdd t (constant S_ .f32 0x00000000#32) reducesTo_S10000x128_S128_d0 h_S_))
      (broadcastInDim S1x128 ![] bcast_S_S1x128 (constant S_ .f32 0x461C4000#32))))

/-- The variance's divisor: the row count less the degrees of freedom given up (none). -/
def cntV : FVec F S_ .f32 := subf (constant S_ .f32 0x461C4000#32) (sitofp (F := F) .f32 (constantI S_ 32 0#32))

/-- A column's biased variance, kept where the divisor is positive (elsewhere the callee returns a NaN). -/
def varS (t : FVec F S10000x128 .f32) : FVec F S128 .f32 :=
  select (broadcastInDim S128 ![] bcast_S_S128 (cmpf (F := F) .ogt (cntV (F := F)) (constant S_ .f32 0x00000000#32)))
    (Host.divf (Host.reduceAdd (mulf (cenV t) (cenV t)) (constant S_ .f32 0x00000000#32) reducesTo_S10000x128_S128_d0 h_S_)
      (broadcastInDim S128 ![] bcast_S_S128 (cntV (F := F))))
    (broadcastInDim S128 ![] bcast_S_S128 (id (constant S_ .f32 0x7FC00000#32)))

/-- The batch norm: centred, divided by the square root of the variance plus `ε`, scaled and shifted. -/
def bnS (t : FVec F S10000x128 .f32) (g β : FVec F S128 .f32) : FVec F S10000x128 .f32 :=
  addf (mulf (Host.divf (subf t (rows (meanS t)))
      (rows (Host.sqrt (addf (varS t) (broadcastInDim S128 ![] bcast_S_S128 (constant S_ .f32 0x3727C5AC#32)))))) (rows g)) (rows β)

/-- The leaky relu. -/
def lreluS (y : FVec F S10000x128 .f32) : FVec F S10000x128 .f32 :=
  select (cmpf .oge y (broadcastInDim S10000x128 ![] bcast_S_S10000x128 (constant S_ .f32 0x00000000#32))) y
    (mulf (broadcastInDim S10000x128 ![] bcast_S_S10000x128 (id (constant S_ .f32 0x3C23D70A#32))) y)

/-- One layer. -/
def layerS (a : FVec F S10000x10000 .f32) (h : FVec F S10000x128 .f32) (W : FVec F S128x128 .f32) (b g β : FVec F S128 .f32) :
    FVec F S10000x128 .f32 := lreluS (bnS (pre a h W b) g β)

/-- The two layers: the reference's result as a function of its ten arguments. -/
def outS (x : FVec F S10000x128 .f32) (adj : FVec F S10000x10000 .f32) (W0 : FVec F S128x128 .f32) (b0 g0 β0 : FVec F S128 .f32)
    (W1 : FVec F S128x128 .f32) (b1 g1 β1 : FVec F S128 .f32) : FVec F S10000x128 .f32 :=
  layerS (aI adj) (layerS (aI adj) x W0 b0 g0 β0) W1 b1 g1 β1

end Cert.ReferenceIdeal.Stages

end
-- ==== Proof.RefRun.lean ====
/-
  The reference's run, read back as a function of its arguments.

  With its four calls read in place (the variance's callee twice, the leaky relu's twice, each with the select it
  outlines in turn), the reference is a straight line of 124 array operations: every operation writes one buffer of
  its own from buffers written before it, and none writes an argument. Run from any memory, the line ends with every
  buffer at the fold of the operations' results over the launch contents, and that fold read at the result buffer is
  a composition of the operations' functions. This module computes that composition, stage by stage:

  * the line is cut where the mathematics cuts it, into twelve stages: the adjacency with the identity added, and then
    per layer the pre-activation (A + I) · h · W + b, the columns' means, the columns' variances, the normalisation
    with its scale and shift (cut once more in the second layer, at the quotient by the square root), the leaky relu;
  * a stage run from ANY contents leaves at its result the stage's function of what those contents hold at the
    buffers it reads, and leaves every buffer it does not write as it was;
  * the six stages of a layer in a row give one layer's function of the layer's inputs, the two layers in a row the
    two-layer function of the ten arguments, and the arguments pass through all twelve stages untouched.

  Nothing here depends on what a float is: the statement holds for every float family.
-/
import proofs.«144493_g15195594293521_cont_week2b_253_30_alg».proof.Proof.Gen.ReferenceIdeal
import proofs.«144493_g15195594293521_cont_week2b_253_30_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stage by stage

The reference's straight line, the callees read inline over the buffers of the call that runs them, cut where the
mathematics cuts it: the adjacency with the identity added; a layer's pre-activation; a column's mean; its variance
(the callee, with the zero count of degrees of freedom it is called on); the normalisation, scale and shift; the
leaky relu (the callee, with the slope it is called on) — once per layer. -/

abbrev Tnn (F : FTy → Type) : Type := BufTy.Contents (Elt F) ⟨S10000x10000, .f32⟩
abbrev Inn (F : FTy → Type) : Type := BufTy.Contents (Elt F) ⟨S10000x10000, .i32⟩
abbrev Bnn (F : FTy → Type) : Type := BufTy.Contents (Elt F) ⟨S10000x10000, .i1⟩
abbrev Tnd (F : FTy → Type) : Type := BufTy.Contents (Elt F) ⟨S10000x128, .f32⟩
abbrev Tdd (F : FTy → Type) : Type := BufTy.Contents (Elt F) ⟨S128x128, .f32⟩
abbrev T1d (F : FTy → Type) : Type := BufTy.Contents (Elt F) ⟨S1x128, .f32⟩
abbrev Td (F : FTy → Type) : Type := BufTy.Contents (Elt F) ⟨S128, .f32⟩
abbrev Ts (F : FTy → Type) : Type := BufTy.Contents (Elt F) ⟨S_, .f32⟩
abbrev Is (F : FTy → Type) : Type := BufTy.Contents (Elt F) ⟨S_, .i32⟩

/-- The operands the four calls are made on, as the typed references the callees take. -/
abbrev r11 : TRef sig ⟨S10000x128, .f32⟩ := .of main_v11
abbrev rc1 : TRef sig ⟨S_, .i32⟩ := .of main_c_1
abbrev r30 : TRef sig ⟨S10000x128, .f32⟩ := .of main_v30
abbrev rs3 : TRef sig ⟨S_, .f32⟩ := .of main_cst_3
abbrev r36 : TRef sig ⟨S10000x128, .f32⟩ := .of main_v36
abbrev rc6 : TRef sig ⟨S_, .i32⟩ := .of main_c_6
abbrev r55 : TRef sig ⟨S10000x128, .f32⟩ := .of main_v55
abbrev rs8 : TRef sig ⟨S_, .f32⟩ := .of main_cst_8

/-- The adjacency with the identity added: the row and column counters, the zero offset, the comparison, its
    conversion to a float, the sum. -/
abbrev opsEye : List (HloOp τ sig (Elt F)) :=
  [ nullary main_v0 (iotaInDim S10000x10000 32 0),
    nullary main_v1 (iotaInDim S10000x10000 32 1),
    nullary main_c (constantI S_ 32 0#32),
    unary main_c main_v2 (broadcastInDim S10000x10000 ![] bcast_S_S10000x10000 : Is F → Inn F),
    binary main_v0 main_v2 main_v3 (addi : Inn F → Inn F → Inn F),
    binary main_v3 main_v1 main_v4 (cmpi .eq : Inn F → Inn F → Bnn F),
    unary main_v4 main_v5 (uitofp .f32 : Bnn F → Tnn F),
    binary main_arg1 main_v5 main_v6 (addf : Tnn F → Tnn F → Tnn F) ]

/-- The first layer's pre-activation: the two products, the bias laid along the rows, the sum. -/
abbrev opsPre1 : List (HloOp τ sig (Elt F)) :=
  [ binary main_v6 main_arg0 main_v7 ((fun l r => Host.dotGeneral dot_S10000x10000_S10000x128_S10000x128_1_0_0_1_n_n none l r) : Tnn F → Tnd F → Tnd F),
    binary main_v7 main_arg2 main_v8 ((fun l r => Host.dotGeneral dot_S10000x128_S128x128_S10000x128_1_0_0_1_n_n none l r) : Tnd F → Tdd F → Tnd F),
    unary main_arg3 main_v9 (broadcastInDim S1x128 ![1] bcast_S128_S1x128_1 : Td F → T1d F),
    unary main_v9 main_v10 (broadcastInDim S10000x128 ![0, 1] bcast_S1x128_S10000x128_0_1 : T1d F → Tnd F),
    binary main_v8 main_v10 main_v11 (addf : Tnd F → Tnd F → Tnd F) ]

/-- Its columns' means: the sum over the rows from zero, divided by the row count. -/
abbrev opsMean1 : List (HloOp τ sig (Elt F)) :=
  [ nullary main_cst (constant S_ .f32 0x00000000#32),
    binary main_v11 main_cst main_v12 ((fun x v => Host.reduceAdd x v reducesTo_S10000x128_S128_d0 h_S_) : Tnd F → Ts F → Td F),
    nullary main_cst_0 (constant S_ .f32 0x461C4000#32),
    unary main_cst_0 main_v13 (broadcastInDim S128 ![] bcast_S_S128 : Ts F → Td F),
    binary main_v12 main_v13 main_v14 (Host.divf : Td F → Td F → Td F) ]

/-- Its columns' variances: the count of degrees of freedom given up (zero), then the callee — the mean kept as a
    row, the centred entries, their squares, the divisor, the squares' sum over it, and the choice between that and
    a NaN by the divisor's sign. -/
abbrev opsVar1 : List (HloOp τ sig (Elt F)) :=
  [ nullary main_c_1 (constantI S_ 32 0#32),
    TRef.nullary main_call0.cst (constant S_ .f32 0x00000000#32),
    TRef.binary r11 main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary r11 main_call0.v4 main_call0.v5 subf,
    TRef.binary main_call0.v5 main_call0.v5 main_call0.v6 mulf,
    TRef.unary rc1 main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The first batch norm: centred on the mean, divided by the square root of the variance plus the small constant,
    scaled and shifted, each length-128 vector laid along the rows first. -/
abbrev opsBn1 : List (HloOp τ sig (Elt F)) :=
  [ unary main_v14 main_v16 (broadcastInDim S1x128 ![1] bcast_S128_S1x128_1 : Td F → T1d F),
    unary main_v16 main_v17 (broadcastInDim S10000x128 ![0, 1] bcast_S1x128_S10000x128_0_1 : T1d F → Tnd F),
    binary main_v11 main_v17 main_v18 (subf : Tnd F → Tnd F → Tnd F),
    nullary main_cst_2 (constant S_ .f32 0x3727C5AC#32),
    unary main_cst_2 main_v19 (broadcastInDim S128 ![] bcast_S_S128 : Ts F → Td F),
    binary main_v15 main_v19 main_v20 (addf : Td F → Td F → Td F),
    unary main_v20 main_v21 (Host.sqrt : Td F → Td F),
    unary main_v21 main_v22 (broadcastInDim S1x128 ![1] bcast_S128_S1x128_1 : Td F → T1d F),
    unary main_v22 main_v23 (broadcastInDim S10000x128 ![0, 1] bcast_S1x128_S10000x128_0_1 : T1d F → Tnd F),
    binary main_v18 main_v23 main_v24 (Host.divf : Tnd F → Tnd F → Tnd F),
    unary main_arg4 main_v25 (broadcastInDim S1x128 ![1] bcast_S128_S1x128_1 : Td F → T1d F),
    unary main_v25 main_v26 (broadcastInDim S10000x128 ![0, 1] bcast_S1x128_S10000x128_0_1 : T1d F → Tnd F),
    binary main_v24 main_v26 main_v27 (mulf : Tnd F → Tnd F → Tnd F),
    unary main_arg5 main_v28 (broadcastInDim S1x128 ![1] bcast_S128_S1x128_1 : Td F → T1d F),
    unary main_v28 main_v29 (broadcastInDim S10000x128 ![0, 1] bcast_S1x128_S10000x128_0_1 : T1d F → Tnd F),
    binary main_v27 main_v29 main_v30 (addf : Tnd F → Tnd F → Tnd F) ]

/-- The first leaky relu: the slope, then the callee — the comparison with zero, the slope laid over the array, the
    scaled entries, the choice. -/
abbrev opsLrelu1 : List (HloOp τ sig (Elt F)) :=
  [ nullary main_cst_3 (constant S_ .f32 0x3C23D70A#32),
    TRef.nullary main_call1.cst (constant S_ .f32 0x00000000#32),
    TRef.unary main_call1.cst main_call1.v0 (broadcastInDim S10000x128 ![] bcast_S_S10000x128),
    TRef.binary r30 main_call1.v0 main_call1.v1 (cmpf .oge),
    TRef.unary rs3 main_call1.v2 id,
    TRef.unary main_call1.v2 main_call1.v3 (broadcastInDim S10000x128 ![] bcast_S_S10000x128),
    TRef.binary main_call1.v3 r30 main_call1.v4 mulf,
    TRef.ternary main_call1.v1 r30 main_call1.v4 main_call1.call0.v0 select ]

/-- The second layer's pre-activation, on the first layer's result. -/
abbrev opsPre2 : List (HloOp τ sig (Elt F)) :=
  [ binary main_v6 main_v31 main_v32 ((fun l r => Host.dotGeneral dot_S10000x10000_S10000x128_S10000x128_1_0_0_1_n_n none l r) : Tnn F → Tnd F → Tnd F),
    binary main_v32 main_arg6 main_v33 ((fun l r => Host.dotGeneral dot_S10000x128_S128x128_S10000x128_1_0_0_1_n_n none l r) : Tnd F → Tdd F → Tnd F),
    unary main_arg7 main_v34 (broadcastInDim S1x128 ![1] bcast_S128_S1x128_1 : Td F → T1d F),
    unary main_v34 main_v35 (broadcastInDim S10000x128 ![0, 1] bcast_S1x128_S10000x128_0_1 : T1d F → Tnd F),
    binary main_v33 main_v35 main_v36 (addf : Tnd F → Tnd F → Tnd F) ]

/-- Its columns' means. -/
abbrev opsMean2 : List (HloOp τ sig (Elt F)) :=
  [ nullary main_cst_4 (constant S_ .f32 0x00000000#32),
    binary main_v36 main_cst_4 main_v37 ((fun x v => Host.reduceAdd x v reducesTo_S10000x128_S128_d0 h_S_) : Tnd F → Ts F → Td F),
    nullary main_cst_5 (constant S_ .f32 0x461C4000#32),
    unary main_cst_5 main_v38 (broadcastInDim S128 ![] bcast_S_S128 : Ts F → Td F),
    binary main_v37 main_v38 main_v39 (Host.divf : Td F → Td F → Td F) ]

/-- Its columns' variances: the second call of the variance's callee. -/
abbrev opsVar2 : List (HloOp τ sig (Elt F)) :=
  [ nullary main_c_6 (constantI S_ 32 0#32),
    TRef.nullary main_call2.cst (constant S_ .f32 0x00000000#32),
    TRef.binary r36 main_call2.cst main_call2.v0 (fun x v => Host.reduceAdd x v reducesTo_S10000x128_S128_d0 h_S_),
    TRef.unary main_call2.v0 main_call2.v1 (broadcastInDim S1x128 ![1] bcast_S128_S1x128_1),
    TRef.nullary main_call2.cst_0 (constant S_ .f32 0x461C4000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S10000x128 ![0, 1] bcast_S1x128_S10000x128_0_1),
    TRef.binary r36 main_call2.v4 main_call2.v5 subf,
    TRef.binary main_call2.v5 main_call2.v5 main_call2.v6 mulf,
    TRef.unary rc6 main_call2.v7 (sitofp .f32),
    TRef.nullary main_call2.cst_1 (constant S_ .f32 0x461C4000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S10000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- The second batch norm up to the quotient by the square root. -/
abbrev opsBn2a : List (HloOp τ sig (Elt F)) :=
  [ unary main_v39 main_v41 (broadcastInDim S1x128 ![1] bcast_S128_S1x128_1 : Td F → T1d F),
    unary main_v41 main_v42 (broadcastInDim S10000x128 ![0, 1] bcast_S1x128_S10000x128_0_1 : T1d F → Tnd F),
    binary main_v36 main_v42 main_v43 (subf : Tnd F → Tnd F → Tnd F),
    nullary main_cst_7 (constant S_ .f32 0x3727C5AC#32),
    unary main_cst_7 main_v44 (broadcastInDim S128 ![] bcast_S_S128 : Ts F → Td F),
    binary main_v40 main_v44 main_v45 (addf : Td F → Td F → Td F),
    unary main_v45 main_v46 (Host.sqrt : Td F → Td F),
    unary main_v46 main_v47 (broadcastInDim S1x128 ![1] bcast_S128_S1x128_1 : Td F → T1d F),
    unary main_v47 main_v48 (broadcastInDim S10000x128 ![0, 1] bcast_S1x128_S10000x128_0_1 : T1d F → Tnd F),
    binary main_v43 main_v48 main_v49 (Host.divf : Tnd F → Tnd F → Tnd F) ]

/-- Its scale and shift. -/
abbrev opsBn2b : List (HloOp τ sig (Elt F)) :=
  [ unary main_arg8 main_v50 (broadcastInDim S1x128 ![1] bcast_S128_S1x128_1 : Td F → T1d F),
    unary main_v50 main_v51 (broadcastInDim S10000x128 ![0, 1] bcast_S1x128_S10000x128_0_1 : T1d F → Tnd F),
    binary main_v49 main_v51 main_v52 (mulf : Tnd F → Tnd F → Tnd F),
    unary main_arg9 main_v53 (broadcastInDim S1x128 ![1] bcast_S128_S1x128_1 : Td F → T1d F),
    unary main_v53 main_v54 (broadcastInDim S10000x128 ![0, 1] bcast_S1x128_S10000x128_0_1 : T1d F → Tnd F),
    binary main_v52 main_v54 main_v55 (addf : Tnd F → Tnd F → Tnd F) ]

/-- The second leaky relu: the result. -/
abbrev opsLrelu2 : List (HloOp τ sig (Elt F)) :=
  [ nullary main_cst_8 (constant S_ .f32 0x3C23D70A#32),
    TRef.nullary main_call3.cst (constant S_ .f32 0x00000000#32),
    TRef.unary main_call3.cst main_call3.v0 (broadcastInDim S10000x128 ![] bcast_S_S10000x128),
    TRef.binary r55 main_call3.v0 main_call3.v1 (cmpf .oge),
    TRef.unary rs8 main_call3.v2 id,
    TRef.unary main_call3.v2 main_call3.v3 (broadcastInDim S10000x128 ![] bcast_S_S10000x128),
    TRef.binary main_call3.v3 r55 main_call3.v4 mulf,
    TRef.ternary main_call3.v1 r55 main_call3.v4 main_call3.call0.v0 select ]

/-- The whole line: @main's 124 operations in order. -/
abbrev ops : List (HloOp τ sig (Elt F)) :=
  opsEye ++ (opsPre1 ++ (opsMean1 ++ (opsVar1 ++ (opsBn1 ++ (opsLrelu1 ++ (opsPre2 ++ (opsMean2 ++ (opsVar2 ++ (opsBn2a
    ++ (opsBn2b ++ opsLrelu2))))))))))

/-! ## The line is the program, and what it touches

@main is that line by computation: the callees' bodies unfold at their calls, and sequencing a line after a line
is grafting, which computes. No buffer or semaphore of the signature is scoped; every operation touches TensorCore
references only and determines what it writes. -/

set_option maxRecDepth 16384 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of the two in a row. -/
theorem forall_app {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The contents after two lines in a row are the second's after the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- An operation that writes the one buffer `y` writes inside any list of references holding `y`. -/
theorem writes_mem {Wl : List (Ref sig .tc)} {op : HloOp τ sig (Elt F)} {y : Ref sig .tc}
    (hw : op.writes = {Proc.devRef .tc y}) (hy : y ∈ Wl) : op.writes ⊆ (Wl.map (Proc.devRef (τ := τ) .tc)).toFinset := by
  rw [hw, Finset.singleton_subset_iff, List.mem_toFinset]
  exact List.mem_map_of_mem hy

theorem opsEye_sub : (opsEye (F := F)).Forall fun op => op.bufs ⊆ tcRefs τ sig :=
  ⟨nullary_bufs_sub .., nullary_bufs_sub .., nullary_bufs_sub .., unary_bufs_sub .., binary_bufs_sub .., binary_bufs_sub ..,
    unary_bufs_sub .., binary_bufs_sub ..⟩
theorem opsPre1_sub : (opsPre1 (F := F)).Forall fun op => op.bufs ⊆ tcRefs τ sig :=
  ⟨binary_bufs_sub .., binary_bufs_sub .., unary_bufs_sub .., unary_bufs_sub .., binary_bufs_sub ..⟩
theorem opsMean1_sub : (opsMean1 (F := F)).Forall fun op => op.bufs ⊆ tcRefs τ sig :=
  ⟨nullary_bufs_sub .., binary_bufs_sub .., nullary_bufs_sub .., unary_bufs_sub .., binary_bufs_sub ..⟩
theorem opsVar1_sub : (opsVar1 (F := F)).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem opsBn1_sub : (opsBn1 (F := F)).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩
theorem opsLrelu1_sub : (opsLrelu1 (F := F)).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩
theorem opsPre2_sub : (opsPre2 (F := F)).Forall fun op => op.bufs ⊆ tcRefs τ sig :=
  ⟨binary_bufs_sub .., binary_bufs_sub .., unary_bufs_sub .., unary_bufs_sub .., binary_bufs_sub ..⟩
theorem opsMean2_sub : (opsMean2 (F := F)).Forall fun op => op.bufs ⊆ tcRefs τ sig :=
  ⟨nullary_bufs_sub .., binary_bufs_sub .., nullary_bufs_sub .., unary_bufs_sub .., binary_bufs_sub ..⟩
theorem opsVar2_sub : (opsVar2 (F := F)).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem opsBn2a_sub : (opsBn2a (F := F)).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub ..⟩
theorem opsBn2b_sub : (opsBn2b (F := F)).Forall fun op => op.bufs ⊆ tcRefs τ sig :=
  ⟨unary_bufs_sub .., unary_bufs_sub .., binary_bufs_sub .., unary_bufs_sub .., unary_bufs_sub .., binary_bufs_sub ..⟩
theorem opsLrelu2_sub : (opsLrelu2 (F := F)).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩

theorem ops_sub : (ops (F := F)).Forall fun op => op.bufs ⊆ tcRefs τ sig :=
  forall_app opsEye_sub (forall_app opsPre1_sub (forall_app opsMean1_sub (forall_app opsVar1_sub (forall_app opsBn1_sub
    (forall_app opsLrelu1_sub (forall_app opsPre2_sub (forall_app opsMean2_sub (forall_app opsVar2_sub (forall_app opsBn2a_sub
      (forall_app opsBn2b_sub opsLrelu2_sub))))))))))

/-- No operation of the line leaves what it writes undetermined. -/
theorem ops_fresh : ∀ op ∈ (ops (F := F)), op.fresh = ∅ :=
  List.forall_iff_forall_mem.mp <|
    forall_app (by and_intros <;> rfl) (forall_app (by and_intros <;> rfl) (forall_app (by and_intros <;> rfl)
      (forall_app (by and_intros <;> rfl) (forall_app (by and_intros <;> rfl) (forall_app (by and_intros <;> rfl)
        (forall_app (by and_intros <;> rfl) (forall_app (by and_intros <;> rfl) (forall_app (by and_intros <;> rfl)
          (forall_app (by and_intros <;> rfl) (forall_app (by and_intros <;> rfl) (by and_intros <;> rfl)))))))))))

/-! ## What each stage writes, and leaves alone -/

abbrev wEye : List (Ref sig .tc) := [main_v0, main_v1, main_c, main_v2, main_v3, main_v4, main_v5, main_v6]
abbrev wPre1 : List (Ref sig .tc) := [main_v7, main_v8, main_v9, main_v10, main_v11]
abbrev wMean1 : List (Ref sig .tc) := [main_cst, main_v12, main_cst_0, main_v13, main_v14]
abbrev wVar1 : List (Ref sig .tc) :=
  [main_c_1, main_call0_cst, main_call0_v0, main_call0_v1, main_call0_cst_0, main_call0_v2, main_call0_v3, main_call0_v4,
    main_call0_v5, main_call0_v6, main_call0_v7, main_call0_cst_1, main_call0_v8, main_call0_cst_2, main_call0_v9,
    main_call0_v10, main_call0_v11, main_call0_cst_3, main_call0_v12, main_call0_cst_4, main_call0_call0_v0,
    main_call0_call0_v1, main_v15]
abbrev wBn1 : List (Ref sig .tc) :=
  [main_v16, main_v17, main_v18, main_cst_2, main_v19, main_v20, main_v21, main_v22, main_v23, main_v24, main_v25, main_v26,
    main_v27, main_v28, main_v29, main_v30]
abbrev wLrelu1 : List (Ref sig .tc) :=
  [main_cst_3, main_call1_cst, main_call1_v0, main_call1_v1, main_call1_v2, main_call1_v3, main_call1_v4, main_v31]
abbrev wPre2 : List (Ref sig .tc) := [main_v32, main_v33, main_v34, main_v35, main_v36]
abbrev wMean2 : List (Ref sig .tc) := [main_cst_4, main_v37, main_cst_5, main_v38, main_v39]
abbrev wVar2 : List (Ref sig .tc) :=
  [main_c_6, main_call2_cst, main_call2_v0, main_call2_v1, main_call2_cst_0, main_call2_v2, main_call2_v3, main_call2_v4,
    main_call2_v5, main_call2_v6, main_call2_v7, main_call2_cst_1, main_call2_v8, main_call2_cst_2, main_call2_v9,
    main_call2_v10, main_call2_v11, main_call2_cst_3, main_call2_v12, main_call2_cst_4, main_call2_call0_v0,
    main_call2_call0_v1, main_v40]
abbrev wBn2a : List (Ref sig .tc) :=
  [main_v41, main_v42, main_v43, main_cst_7, main_v44, main_v45, main_v46, main_v47, main_v48, main_v49]
abbrev wBn2b : List (Ref sig .tc) := [main_v50, main_v51, main_v52, main_v53, main_v54, main_v55]
abbrev wLrelu2 : List (Ref sig .tc) :=
  [main_cst_8, main_call3_cst, main_call3_v0, main_call3_v1, main_call3_v2, main_call3_v3, main_call3_v4, main_v56]

theorem keepEye (W : Valuation τ sig (Elt F)) {r : Ref sig .tc} (h : r ∉ wEye) :
    after opsEye W (no_index (Proc.devRef .tc r)) = W (Proc.devRef .tc r) :=
  after_of_writes_sub opsEye W (by and_intros <;> exact writes_mem rfl (by decide)) h
theorem keepPre1 (W : Valuation τ sig (Elt F)) {r : Ref sig .tc} (h : r ∉ wPre1) :
    after opsPre1 W (no_index (Proc.devRef .tc r)) = W (Proc.devRef .tc r) :=
  after_of_writes_sub opsPre1 W (by and_intros <;> exact writes_mem rfl (by decide)) h
theorem keepMean1 (W : Valuation τ sig (Elt F)) {r : Ref sig .tc} (h : r ∉ wMean1) :
    after opsMean1 W (no_index (Proc.devRef .tc r)) = W (Proc.devRef .tc r) :=
  after_of_writes_sub opsMean1 W (by and_intros <;> exact writes_mem rfl (by decide)) h
theorem keepVar1 (W : Valuation τ sig (Elt F)) {r : Ref sig .tc} (h : r ∉ wVar1) :
    after opsVar1 W (no_index (Proc.devRef .tc r)) = W (Proc.devRef .tc r) :=
  after_of_writes_sub opsVar1 W (by and_intros <;> exact writes_mem rfl (by decide)) h
theorem keepBn1 (W : Valuation τ sig (Elt F)) {r : Ref sig .tc} (h : r ∉ wBn1) :
    after opsBn1 W (no_index (Proc.devRef .tc r)) = W (Proc.devRef .tc r) :=
  after_of_writes_sub opsBn1 W (by and_intros <;> exact writes_mem rfl (by decide)) h
theorem keepLrelu1 (W : Valuation τ sig (Elt F)) {r : Ref sig .tc} (h : r ∉ wLrelu1) :
    after opsLrelu1 W (no_index (Proc.devRef .tc r)) = W (Proc.devRef .tc r) :=
  after_of_writes_sub opsLrelu1 W (by and_intros <;> exact writes_mem rfl (by decide)) h
theorem keepPre2 (W : Valuation τ sig (Elt F)) {r : Ref sig .tc} (h : r ∉ wPre2) :
    after opsPre2 W (no_index (Proc.devRef .tc r)) = W (Proc.devRef .tc r) :=
  after_of_writes_sub opsPre2 W (by and_intros <;> exact writes_mem rfl (by decide)) h
theorem keepMean2 (W : Valuation τ sig (Elt F)) {r : Ref sig .tc} (h : r ∉ wMean2) :
    after opsMean2 W (no_index (Proc.devRef .tc r)) = W (Proc.devRef .tc r) :=
  after_of_writes_sub opsMean2 W (by and_intros <;> exact writes_mem rfl (by decide)) h
theorem keepVar2 (W : Valuation τ sig (Elt F)) {r : Ref sig .tc} (h : r ∉ wVar2) :
    after opsVar2 W (no_index (Proc.devRef .tc r)) = W (Proc.devRef .tc r) :=
  after_of_writes_sub opsVar2 W (by and_intros <;> exact writes_mem rfl (by decide)) h
theorem keepBn2a (W : Valuation τ sig (Elt F)) {r : Ref sig .tc} (h : r ∉ wBn2a) :
    after opsBn2a W (no_index (Proc.devRef .tc r)) = W (Proc.devRef .tc r) :=
  after_of_writes_sub opsBn2a W (by and_intros <;> exact writes_mem rfl (by decide)) h
theorem keepBn2b (W : Valuation τ sig (Elt F)) {r : Ref sig .tc} (h : r ∉ wBn2b) :
    after opsBn2b W (no_index (Proc.devRef .tc r)) = W (Proc.devRef .tc r) :=
  after_of_writes_sub opsBn2b W (by and_intros <;> exact writes_mem rfl (by decide)) h
theorem keepLrelu2 (W : Valuation τ sig (Elt F)) {r : Ref sig .tc} (h : r ∉ wLrelu2) :
    after opsLrelu2 W (no_index (Proc.devRef .tc r)) = W (Proc.devRef .tc r) :=
  after_of_writes_sub opsLrelu2 W (by and_intros <;> exact writes_mem rfl (by decide)) h

/-! ## What each stage computes

From any contents `W`, a stage leaves at its result the stage's function of what `W` holds at the buffers it reads:
the fold of the operations' results, read at that buffer, is the composed term, and the composed term is the
function's body. -/

theorem eye_v6 (W : Valuation τ sig (Elt F)) :
    after opsEye W (no_index (Proc.devRef .tc main_v6)) = Stages.aI (F := F) (W (Proc.devRef .tc main_arg1)) := by
  simp only [opsEye]
  after_results_simp
  rfl

theorem pre1_v11 (W : Valuation τ sig (Elt F)) :
    after opsPre1 W (no_index (Proc.devRef .tc main_v11))
      = Stages.pre (F := F) (W (Proc.devRef .tc main_v6)) (W (Proc.devRef .tc main_arg0)) (W (Proc.devRef .tc main_arg2))
          (W (Proc.devRef .tc main_arg3)) := by
  simp only [opsPre1]
  after_results_simp
  rfl

theorem mean1_v14 (W : Valuation τ sig (Elt F)) :
    after opsMean1 W (no_index (Proc.devRef .tc main_v14)) = Stages.meanS (F := F) (W (Proc.devRef .tc main_v11)) := by
  simp only [opsMean1]
  after_results_simp
  rfl

theorem var1_v15 (W : Valuation τ sig (Elt F)) :
    after opsVar1 W (no_index (Proc.devRef .tc main_v15)) = Stages.varS (F := F) (W (Proc.devRef .tc main_v11)) := by
  simp only [opsVar1]
  after_results_simp
  rfl

theorem bn1_v30 (W : Valuation τ sig (Elt F)) :
    after opsBn1 W (no_index (Proc.devRef .tc main_v30))
      = addf (mulf (Host.divf (subf (W (Proc.devRef .tc main_v11)) (Stages.rows (F := F) (W (Proc.devRef .tc main_v14))))
            (Stages.rows (F := F) (Host.sqrt (addf (W (Proc.devRef .tc main_v15))
              (broadcastInDim S128 ![] bcast_S_S128 (constant S_ .f32 0x3727C5AC#32))))))
          (Stages.rows (F := F) (W (Proc.devRef .tc main_arg4)))) (Stages.rows (F := F) (W (Proc.devRef .tc main_arg5))) := by
  simp only [opsBn1]
  after_results_simp
  rfl

theorem lrelu1_v31 (W : Valuation τ sig (Elt F)) :
    after opsLrelu1 W (no_index (Proc.devRef .tc main_v31)) = Stages.lreluS (F := F) (W (Proc.devRef .tc main_v30)) := by
  simp only [opsLrelu1]
  after_results_simp
  rfl

theorem pre2_v36 (W : Valuation τ sig (Elt F)) :
    after opsPre2 W (no_index (Proc.devRef .tc main_v36))
      = Stages.pre (F := F) (W (Proc.devRef .tc main_v6)) (W (Proc.devRef .tc main_v31)) (W (Proc.devRef .tc main_arg6))
          (W (Proc.devRef .tc main_arg7)) := by
  simp only [opsPre2]
  after_results_simp
  rfl

theorem mean2_v39 (W : Valuation τ sig (Elt F)) :
    after opsMean2 W (no_index (Proc.devRef .tc main_v39)) = Stages.meanS (F := F) (W (Proc.devRef .tc main_v36)) := by
  simp only [opsMean2]
  after_results_simp
  rfl

theorem var2_v40 (W : Valuation τ sig (Elt F)) :
    after opsVar2 W (no_index (Proc.devRef .tc main_v40)) = Stages.varS (F := F) (W (Proc.devRef .tc main_v36)) := by
  simp only [opsVar2]
  after_results_simp
  rfl

theorem bn2a_v49 (W : Valuation τ sig (Elt F)) :
    after opsBn2a W (no_index (Proc.devRef .tc main_v49))
      = Host.divf (subf (W (Proc.devRef .tc main_v36)) (Stages.rows (F := F) (W (Proc.devRef .tc main_v39))))
          (Stages.rows (F := F) (Host.sqrt (addf (W (Proc.devRef .tc main_v40))
            (broadcastInDim S128 ![] bcast_S_S128 (constant S_ .f32 0x3727C5AC#32))))) := by
  simp only [opsBn2a]
  after_results_simp
  rfl

theorem bn2b_v55 (W : Valuation τ sig (Elt F)) :
    after opsBn2b W (no_index (Proc.devRef .tc main_v55))
      = addf (mulf (W (Proc.devRef .tc main_v49)) (Stages.rows (F := F) (W (Proc.devRef .tc main_arg8))))
          (Stages.rows (F := F) (W (Proc.devRef .tc main_arg9))) := by
  simp only [opsBn2b]
  after_results_simp
  rfl

theorem lrelu2_v56 (W : Valuation τ sig (Elt F)) :
    after opsLrelu2 W (no_index (Proc.devRef .tc main_v56)) = Stages.lreluS (F := F) (W (Proc.devRef .tc main_v55)) := by
  simp only [opsLrelu2]
  after_results_simp
  rfl

/-! ## The two layers, and the run -/

/-- The first layer's six stages in a row leave the layer's function of the arguments at its result. -/
theorem layer1_v31 (W : Valuation τ sig (Elt F)) :
    after opsLrelu1 (after opsBn1 (after opsVar1 (after opsMean1 (after opsPre1 (after opsEye W))))) (no_index (Proc.devRef .tc main_v31))
      = Stages.layerS (F := F) (Stages.aI (F := F) (W (Proc.devRef .tc main_arg1))) (W (Proc.devRef .tc main_arg0))
          (W (Proc.devRef .tc main_arg2)) (W (Proc.devRef .tc main_arg3)) (W (Proc.devRef .tc main_arg4)) (W (Proc.devRef .tc main_arg5)) := by
  simp (disch := decide) only [lrelu1_v31, bn1_v30, var1_v15, mean1_v14, pre1_v11, eye_v6, keepEye, keepPre1, keepMean1, keepVar1,
    keepBn1, keepLrelu1]
  rfl

/-- They leave the adjacency with the identity added where the second layer reads it. -/
theorem layer1_v6 (W : Valuation τ sig (Elt F)) :
    after opsLrelu1 (after opsBn1 (after opsVar1 (after opsMean1 (after opsPre1 (after opsEye W))))) (no_index (Proc.devRef .tc main_v6))
      = Stages.aI (F := F) (W (Proc.devRef .tc main_arg1)) := by
  simp (disch := decide) only [eye_v6, keepPre1, keepMean1, keepVar1, keepBn1, keepLrelu1]

/-- The second layer's six stages in a row leave the layer's function of what they read at the result. -/
theorem layer2_v56 (W : Valuation τ sig (Elt F)) :
    after opsLrelu2 (after opsBn2b (after opsBn2a (after opsVar2 (after opsMean2 (after opsPre2 W))))) (no_index (Proc.devRef .tc main_v56))
      = Stages.layerS (F := F) (W (Proc.devRef .tc main_v6)) (W (Proc.devRef .tc main_v31))
          (W (Proc.devRef .tc main_arg6)) (W (Proc.devRef .tc main_arg7)) (W (Proc.devRef .tc main_arg8)) (W (Proc.devRef .tc main_arg9)) := by
  simp (disch := decide) only [lrelu2_v56, bn2b_v55, bn2a_v49, var2_v40, mean2_v39, pre2_v36, keepPre2, keepMean2, keepVar2,
    keepBn2a, keepBn2b, keepLrelu2]
  rfl

/-- The whole line leaves the two layers' function of the arguments at the result. -/
theorem out_eq (V : Valuation τ sig (Elt F)) :
    after ops V (Proc.devRef .tc main_v56)
      = Stages.outS (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) := by
  simp only [ops, after_app]
  simp (disch := decide) only [layer2_v56, layer1_v31, layer1_v6, keepEye, keepPre1, keepMean1, keepVar1, keepBn1, keepLrelu1]
  rfl

/-- The whole line leaves alone every buffer none of its stages writes: the arguments among them. -/
theorem ops_keep (V : Valuation τ sig (Elt F)) {r : Ref sig .tc}
    (h : r ∉ wEye ++ (wPre1 ++ (wMean1 ++ (wVar1 ++ (wBn1 ++ (wLrelu1 ++ (wPre2 ++ (wMean2 ++ (wVar2 ++ (wBn2a ++ (wBn2b ++ wLrelu2))))))))))) :
    after ops V (Proc.devRef .tc r) = V (Proc.devRef .tc r) := by
  simp only [List.mem_append, not_or] at h
  obtain ⟨h1, h2, h3, h4, h5, h6, h7, h8, h9, h10, h11, h12⟩ := h
  simp only [ops, after_app]
  rw [keepLrelu2 _ h12, keepBn2b _ h11, keepBn2a _ h10, keepVar2 _ h9, keepMean2 _ h8, keepPre2 _ h7, keepLrelu1 _ h6, keepBn1 _ h5,
    keepVar1 _ h4, keepMean1 _ h3, keepPre1 _ h2, keepEye _ h1]

/-- On every device, for any float values, from any memory with zero counters: every weakly fair execution of the
    reference's @main terminates with its result at the stages' composed function of the arguments (`Stages.outS`) and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v56) = Stages.outS (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := F)) _ _).mono (fun _ h c => ⟨(h c main_v56).trans (out_eq (launchContents m c)),
      (h c main_arg0).trans (ops_keep (launchContents m c) (by decide)),
      (h c main_arg1).trans (ops_keep (launchContents m c) (by decide)),
      (h c main_arg2).trans (ops_keep (launchContents m c) (by decide)),
      (h c main_arg3).trans (ops_keep (launchContents m c) (by decide)),
      (h c main_arg4).trans (ops_keep (launchContents m c) (by decide)),
      (h c main_arg5).trans (ops_keep (launchContents m c) (by decide)),
      (h c main_arg6).trans (ops_keep (launchContents m c) (by decide)),
      (h c main_arg7).trans (ops_keep (launchContents m c) (by decide)),
      (h c main_arg8).trans (ops_keep (launchContents m c) (by decide)),
      (h c main_arg9).trans (ops_keep (launchContents m c) (by decide))⟩)
    (run_seq scopedRefs_eq scopedSems_eq (defs (F := F)) main (fun _ => ops) main_eq (fun _ => ops_sub) m ρ (fun _ => ops_fresh))

end Cert.ReferenceIdeal.RefRun

end
-- ==== Proof.RefValue.lean ====
/-
  The reference's operations, taken as functions of its ten argument arrays over the extended reals, compute the
  specification's two graph-convolution layers entry by entry, in the spelling that divides by the square root.

  Every stage is read at one entry (p, q), p < 10000 and q < 128:
  * the identity matrix is built by comparing the row counter with the column counter as 32-bit words; both are below
    10000, far below 2^32, so the words are equal exactly when the counters are, and the comparison's bit read as a
    number is 1 on the diagonal and 0 off it;
  * a vector of length 128 laid out as a one-row matrix and then down the 10000 rows reads, at (p, q), its entry q, and
    a scalar broadcast to any shape reads the scalar;
  * a product contracting one axis is, at (r, c), the sum over that axis's coordinate k of left (r, k) times
    right (k, c): the contraction's index set is identified with the coordinate's range and the sum is re-indexed
    through that bijection; so the pre-activation at (p, q) is Σ_k (Σ_l (A p l + I p l) · h l k) · W k q + b q;
  * a column's sum from the initial value 0 is Σ_r t r q and its mean that sum divided by 10000; the variance's callee
    centres on the same mean kept as a row, divides the sum of the squares by 10000 − 0, and keeps the quotient where
    that divisor is positive, which it is because the word 0x461C4000 denotes the real number 10000; its other branch
    is never taken;
  * the batch norm is (t − mean) / sqrt (var + ε) · g + β, and the leaky relu keeps an entry y with 0 ≤ y and scales
    the others by the slope: the comparison on extended reals is the order's, and the select on its bit is the `if`.
  Only the row count's word is evaluated; ε and the slope stay the words the specification names.
  One layer is these composed, and the inner layer's result enters the outer one as the function of its coordinates.
-/
import proofs.«144493_g15195594293521_cont_week2b_253_30_alg».proof.Proof.Gen.ReferenceIdeal
import proofs.«144493_g15195594293521_cont_week2b_253_30_alg».proof.Proof.RefStages
import proofs.«144493_g15195594293521_cont_week2b_253_30_alg».proof.Proof.Spec
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The identity matrix and the adjacency with it added -/

/-- The identity matrix as the reference builds it. -/
theorem eyeS_apply (r l : Fin 10000) :
    (Stages.eyeS (F := Ideal) : S10000x10000.Idx → EReal) (ix2 r l) = Cert.Gcn.eye r l := by
  show ((((IntOp.cmpi .eq (IntOp.addi (BitVec.ofNat 32 r.val) 0#32) (BitVec.ofNat 32 l.val)).toNat : ℝ)) : EReal) = _
  unfold Cert.Gcn.eye
  have hr := r.isLt
  have hl := l.isLt
  by_cases h : r.val = l.val
  · rw [if_pos h]
    simp only [IntOp.cmpi, IntOp.addi, BitVec.add_zero, h, beq_self_eq_true, BitVec.ofBool_true]
    rw [show (1 : BitVec 1).toNat = 1 from rfl, Nat.cast_one, EReal.coe_one]
  · rw [if_neg h]
    have hne : (BitVec.ofNat 32 r.val == BitVec.ofNat 32 l.val) = false := by
      rw [beq_eq_false_iff_ne]
      intro e
      have e' := congrArg BitVec.toNat e
      simp only [BitVec.toNat_ofNat] at e'
      omega
    simp only [IntOp.cmpi, IntOp.addi, BitVec.add_zero, hne, BitVec.ofBool_false]
    rw [show (0 : BitVec 1).toNat = 0 from rfl, Nat.cast_zero, EReal.coe_zero]

/-- The adjacency with the identity added. -/
theorem aI_apply (adj : FVec Ideal S10000x10000 .f32) (r l : Fin 10000) :
    (Stages.aI (F := Ideal) adj : S10000x10000.Idx → EReal) (ix2 r l)
      = (adj : S10000x10000.Idx → EReal) (ix2 r l) + Cert.Gcn.eye r l := by
  show (adj : S10000x10000.Idx → EReal) (ix2 r l) + (Stages.eyeS (F := Ideal) : S10000x10000.Idx → EReal) (ix2 r l) = _
  rw [eyeS_apply]

/-! ## Broadcasts read at an index -/

/-- A one-row matrix laid down every row reads, at `(p, q)`, its one row at `q`. -/
theorem bcRow_apply {α : Type} (h : S1x128.BroadcastsInDim S10000x128 ![0, 1]) (y : S1x128.Idx → α) (p : Fin 10000) (q : Fin 128) :
    broadcastInDim S10000x128 ![0, 1] h y (ix2 p q) = y (ix2 (0 : Fin 1) q) := by
  refine broadcastInDim_apply ![0, 1] h y (ix2 p q) (ix2 (0 : Fin 1) q) ?_
  intro a
  match a with
  | ⟨0, _⟩ => rfl
  | ⟨1, _⟩ => rfl

/-- A vector as a one-row matrix reads, at `(u, q)`, the vector at `q`. -/
theorem bcLead_apply {α : Type} (h : S128.BroadcastsInDim S1x128 ![1]) (v : S128.Idx → α) (u : Fin 1) (q : Fin 128) :
    broadcastInDim S1x128 ![1] h v (ix2 u q) = v (ix1 q) := by
  refine broadcastInDim_apply ![1] h v (ix2 u q) (ix1 q) ?_
  intro a
  match a with
  | ⟨0, _⟩ => rfl

/-- A scalar broadcast to any shape reads the scalar everywhere. -/
theorem bcScalar_apply {α : Type} {T : Shape} (dims : Fin S_.rank → Fin T.rank) (h : S_.BroadcastsInDim T dims)
    (x : S_.Idx → α) (j : T.Idx) : broadcastInDim T dims h x j = x ix0 := by
  unfold broadcastInDim
  exact congrArg x (funext fun a => a.elim0)

/-- A length-128 vector laid along every row reads, at `(p, q)`, the vector at `q`. -/
theorem rows_apply (v : FVec Ideal S128 .f32) (p : Fin 10000) (q : Fin 128) :
    (Stages.rows (F := Ideal) v : S10000x128.Idx → EReal) (ix2 p q) = (v : S128.Idx → EReal) (ix1 q) :=
  (bcRow_apply _ _ p q).trans (bcLead_apply _ v 0 q)

/-! ## The two products read at an index -/

theorem lhs_dotA_0 (i : S10000x128.Idx) (q : dot_S10000x10000_S10000x128_S10000x128_1_0_0_1_n_n.contr.Idx) :
    (dot_S10000x10000_S10000x128_S10000x128_1_0_0_1_n_n.lhsIdx i q 0).val = (i 0).val := by
  unfold DotDims.lhsIdx
  rw [dif_neg (show ¬(0 : Fin S10000x10000.rank) ∈ dot_S10000x10000_S10000x128_S10000x128_1_0_0_1_n_n.lhsBatch by decide),
    dif_pos (show (0 : Fin S10000x10000.rank) ∈ dot_S10000x10000_S10000x128_S10000x128_1_0_0_1_n_n.lhsNonContracting by decide)]
  rfl
theorem lhs_dotA_1 (i : S10000x128.Idx) (q : dot_S10000x10000_S10000x128_S10000x128_1_0_0_1_n_n.contr.Idx) :
    (dot_S10000x10000_S10000x128_S10000x128_1_0_0_1_n_n.lhsIdx i q 1).val = (q ⟨0, by decide⟩).val :=
  dot_S10000x10000_S10000x128_S10000x128_1_0_0_1_n_n.lhsIdx_val_of_single rfl i q
theorem rhs_dotA_0 (i : S10000x128.Idx) (q : dot_S10000x10000_S10000x128_S10000x128_1_0_0_1_n_n.contr.Idx) :
    (dot_S10000x10000_S10000x128_S10000x128_1_0_0_1_n_n.rhsIdx i q 0).val = (q ⟨0, by decide⟩).val :=
  dot_S10000x10000_S10000x128_S10000x128_1_0_0_1_n_n.rhsIdx_val_of_single rfl i q
theorem rhs_dotA_1 (i : S10000x128.Idx) (q : dot_S10000x10000_S10000x128_S10000x128_1_0_0_1_n_n.contr.Idx) :
    (dot_S10000x10000_S10000x128_S10000x128_1_0_0_1_n_n.rhsIdx i q 1).val = (i 1).val := by
  unfold DotDims.rhsIdx
  rw [dif_neg (show ¬(1 : Fin S10000x128.rank) ∈ dot_S10000x10000_S10000x128_S10000x128_1_0_0_1_n_n.rhsBatch by decide),
    dif_pos (show (1 : Fin S10000x128.rank) ∈ dot_S10000x10000_S10000x128_S10000x128_1_0_0_1_n_n.rhsNonContracting by decide)]
  rfl

theorem dotA_apply (a : FVec Ideal S10000x10000 .f32) (b : FVec Ideal S10000x128 .f32) (r : Fin 10000) (c : Fin 128) :
    (Host.dotGeneral (F := Ideal) dot_S10000x10000_S10000x128_S10000x128_1_0_0_1_n_n none a b : S10000x128.Idx → EReal) (ix2 r c)
      = ∑ k : Fin 10000, (a : S10000x10000.Idx → EReal) (ix2 r k) * (b : S10000x128.Idx → EReal) (ix2 k c) := by
  simp only [Host.dotGeneral]
  rw [Ideal.dotGeneral_apply, ← Equiv.sum_comp (contrEquiv1 dot_S10000x10000_S10000x128_S10000x128_1_0_0_1_n_n 10000 rfl rfl).symm]
  refine Finset.sum_congr rfl fun k _ => ?_
  have hk := contrEquiv1_symm_val dot_S10000x10000_S10000x128_S10000x128_1_0_0_1_n_n 10000 rfl rfl k
  have el : dot_S10000x10000_S10000x128_S10000x128_1_0_0_1_n_n.lhsIdx (ix2 r c) ((contrEquiv1 dot_S10000x10000_S10000x128_S10000x128_1_0_0_1_n_n 10000 rfl rfl).symm k) = ix2 r k := funext fun x => Fin.ext (by
    match x with
    | ⟨0, _⟩ => exact lhs_dotA_0 _ _
    | ⟨1, _⟩ => exact (lhs_dotA_1 _ _).trans hk)
  have er : dot_S10000x10000_S10000x128_S10000x128_1_0_0_1_n_n.rhsIdx (ix2 r c) ((contrEquiv1 dot_S10000x10000_S10000x128_S10000x128_1_0_0_1_n_n 10000 rfl rfl).symm k) = ix2 k c := funext fun x => Fin.ext (by
    match x with
    | ⟨0, _⟩ => exact (rhs_dotA_0 _ _).trans hk
    | ⟨1, _⟩ => exact rhs_dotA_1 _ _)
  rw [el, er]

theorem lhs_dotW_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_dotW_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_dotW_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_dotW_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

theorem dotW_apply (a : FVec Ideal S10000x128 .f32) (b : FVec Ideal S128x128 .f32) (r : Fin 10000) (c : Fin 128) :
    (Host.dotGeneral (F := Ideal) dot_S10000x128_S128x128_S10000x128_1_0_0_1_n_n none a b : S10000x128.Idx → EReal) (ix2 r c)
      = ∑ k : Fin 128, (a : S10000x128.Idx → EReal) (ix2 r k) * (b : S128x128.Idx → EReal) (ix2 k c) := by
  simp only [Host.dotGeneral]
  rw [Ideal.dotGeneral_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r c) ((contrEquiv1 dot_S10000x128_S128x128_S10000x128_1_0_0_1_n_n 128 rfl rfl).symm k) = ix2 r k := funext fun x => Fin.ext (by
    match x with
    | ⟨0, _⟩ => exact lhs_dotW_0 _ _
    | ⟨1, _⟩ => exact (lhs_dotW_1 _ _).trans hk)
  have er : dot_S10000x128_S128x128_S10000x128_1_0_0_1_n_n.rhsIdx (ix2 r c) ((contrEquiv1 dot_S10000x128_S128x128_S10000x128_1_0_0_1_n_n 128 rfl rfl).symm k) = ix2 k c := funext fun x => Fin.ext (by
    match x with
    | ⟨0, _⟩ => exact (rhs_dotW_0 _ _).trans hk
    | ⟨1, _⟩ => exact rhs_dotW_1 _ _)
  rw [el, er]

/-! ## One layer's pre-activation -/

/-- The pre-activation over the adjacency with the identity added is the specification's linear map of its
    aggregation. -/
theorem pre_apply (adj : FVec Ideal S10000x10000 .f32) (h : FVec Ideal S10000x128 .f32) (W : FVec Ideal S128x128 .f32)
    (b : FVec Ideal S128 .f32) (p : Fin 10000) (q : Fin 128) :
    (Stages.pre (F := Ideal) (Stages.aI (F := Ideal) adj) h W b : S10000x128.Idx → EReal) (ix2 p q)
      = Cert.Gcn.lin (Cert.Gcn.agg (fun r l => (adj : S10000x10000.Idx → EReal) (ix2 r l))
          (fun r k => (h : S10000x128.Idx → EReal) (ix2 r k)))
          (fun k q' => (W : S128x128.Idx → EReal) (ix2 k q')) (fun q' => (b : S128.Idx → EReal) (ix1 q')) p q := by
  unfold Stages.pre Cert.Gcn.lin Cert.Gcn.agg
  rw [addf_apply, rows_apply, dotW_apply]
  refine congrArg (· + (b : S128.Idx → EReal) (ix1 q)) (Finset.sum_congr rfl fun k _ => ?_)
  rw [dotA_apply]
  refine congrArg (· * (W : S128x128.Idx → EReal) (ix2 k q)) (Finset.sum_congr rfl fun l _ => ?_)
  rw [aI_apply]

/-! ## The batch norm's statistics -/

/-- A column's sum over the rows, as the host's float sum from the zero word. -/
theorem colSum_apply (t : FVec Ideal S10000x128 .f32) (h : S10000x128.ReducesTo [0] S128) (hu : 0 < S_.numel) (q : Fin 128) :
    (Host.reduceAdd (F := Ideal) t (constant (F := Ideal) S_ .f32 0x00000000#32) h hu : S128.Idx → EReal) (ix1 q)
      = ∑ r : Fin 10000, (t : S10000x128.Idx → EReal) (ix2 r q) := by
  simp only [Host.reduceAdd, Ideal.hostReduceAdd_def]
  rw [Ideal.hostReduceAdd_single h (by decide), constant_apply, Ideal.ofBits_zero_f32, zero_add]
  refine Finset.sum_congr rfl fun r _ => ?_
  exact congrArg t (funext fun a => Fin.ext (by match a with | ⟨0, _⟩ => rfl | ⟨1, _⟩ => rfl))

/-- A column's mean. -/
theorem meanS_apply (t : FVec Ideal S10000x128 .f32) (q : Fin 128) :
    (Stages.meanS (F := Ideal) t : S128.Idx → EReal) (ix1 q)
      = Cert.Gcn.mean (fun r k => (t : S10000x128.Idx → EReal) (ix2 r k)) q := by
  unfold Stages.meanS Cert.Gcn.mean Cert.Gcn.cN
  rw [hostDivf_apply, colSum_apply]
  rfl

/-- The entries centred on their column's mean, as the variance's callee computes them. -/
theorem cenV_apply (t : FVec Ideal S10000x128 .f32) (p : Fin 10000) (q : Fin 128) :
    (Stages.cenV (F := Ideal) t : S10000x128.Idx → EReal) (ix2 p q)
      = Cert.Gcn.cen (fun r k => (t : S10000x128.Idx → EReal) (ix2 r k)) p q := by
  unfold Stages.cenV Cert.Gcn.cen Cert.Gcn.mean Cert.Gcn.cN
  rw [subf_apply, bcRow_apply, hostDivf_apply, bcLead_apply, colSum_apply]
  rfl

/-- The row count's word denotes the real `10000`. -/
theorem cN_val : Cert.Gcn.cN = ((10000 : ℝ) : EReal) := by
  unfold Cert.Gcn.cN
  simp [Ideal.ofBits, Ideal.ieee, -EReal.coe_mul]; norm_num

/-- The variance's divisor: the row count less zero. -/
theorem cntV_apply (i : S_.Idx) : (Stages.cntV (F := Ideal) : S_.Idx → EReal) i = Cert.Gcn.cN := by
  show Ideal.ofBits .f32 0x461C4000#32 - ((((0#32 : BitVec 32).toInt : ℝ)) : EReal) = Cert.Gcn.cN
  rw [show (0#32 : BitVec 32).toInt = 0 from rfl, Int.cast_zero, EReal.coe_zero, sub_zero]
  rfl

/-- A column's biased variance: the divisor is positive, so the select keeps the quotient. -/
theorem varS_apply (t : FVec Ideal S10000x128 .f32) (q : Fin 128) :
    (Stages.varS (F := Ideal) t : S128.Idx → EReal) (ix1 q)
      = Cert.Gcn.var (fun r k => (t : S10000x128.Idx → EReal) (ix2 r k)) q := by
  have hpos : FloatOps.cmpf (F := Ideal) (φ := .f32) .ogt Cert.Gcn.cN (Ideal.ofBits .f32 0x00000000#32) = 1#1 := by
    show Ideal.cmp .ogt Cert.Gcn.cN (Ideal.ofBits .f32 0x00000000#32) = 1#1
    rw [Ideal.ofBits_zero_f32, cN_val]
    have h0 : (0 : EReal) < ((10000 : ℝ) : EReal) := by exact_mod_cast (by norm_num : (0 : ℝ) < 10000)
    simp [Ideal.cmp, h0]
  unfold Stages.varS Cert.Gcn.var
  simp only [select_apply, bcScalar_apply, cmpf_apply, hostDivf_apply, cntV_apply, colSum_apply, mulf_apply,
    cenV_apply, constant_apply, hpos, select_one]

/-- The host's square root at an index. -/
theorem hostSqrt_apply {s : Shape} (a : FVec Ideal s .f32) (i : s.Idx) : Host.sqrt a i = Ideal.sqrt (a i) := rfl

/-! ## The batch norm, the leaky relu, one layer, two layers -/

/-- The batch norm by the quotient by the square root. -/
theorem bnS_apply (t : FVec Ideal S10000x128 .f32) (g β : FVec Ideal S128 .f32) (p : Fin 10000) (q : Fin 128) :
    (Stages.bnS (F := Ideal) t g β : S10000x128.Idx → EReal) (ix2 p q)
      = Cert.Gcn.bnR (fun r k => (t : S10000x128.Idx → EReal) (ix2 r k)) (fun q' => (g : S128.Idx → EReal) (ix1 q'))
          (fun q' => (β : S128.Idx → EReal) (ix1 q')) p q := by
  unfold Stages.bnS Cert.Gcn.bnR Cert.Gcn.cen Cert.Gcn.cEps
  simp only [addf_apply, mulf_apply, hostDivf_apply, subf_apply, rows_apply, meanS_apply, varS_apply, hostSqrt_apply,
    bcScalar_apply, constant_apply]

/-- The leaky relu. -/
theorem lreluS_apply (y : FVec Ideal S10000x128 .f32) (p : Fin 10000) (q : Fin 128) :
    (Stages.lreluS (F := Ideal) y : S10000x128.Idx → EReal) (ix2 p q)
      = Cert.Gcn.lrelu (fun r k => (y : S10000x128.Idx → EReal) (ix2 r k)) p q := by
  unfold Stages.lreluS Cert.Gcn.lrelu Cert.Gcn.cSlope
  simp only [select_apply, cmpf_apply, mulf_apply, bcScalar_apply, constant_apply, id_eq, Ideal.ofBits_zero_f32]
  show Scalar.select (Ideal.cmp .oge ((y : S10000x128.Idx → EReal) (ix2 p q)) 0) _ _ = _
  unfold Scalar.select Ideal.cmp
  by_cases h : (0 : EReal) ≤ (y : S10000x128.Idx → EReal) (ix2 p q)
  · simp [h]
  · simp [h]

/-- One layer. -/
theorem layerS_apply (adj : FVec Ideal S10000x10000 .f32) (h : FVec Ideal S10000x128 .f32) (W : FVec Ideal S128x128 .f32)
    (b g β : FVec Ideal S128 .f32) (p : Fin 10000) (q : Fin 128) :
    (Stages.layerS (F := Ideal) (Stages.aI (F := Ideal) adj) h W b g β : S10000x128.Idx → EReal) (ix2 p q)
      = Cert.Gcn.layerR (fun r l => (adj : S10000x10000.Idx → EReal) (ix2 r l)) (fun r k => (h : S10000x128.Idx → EReal) (ix2 r k))
          (fun k q' => (W : S128x128.Idx → EReal) (ix2 k q')) (fun q' => (b : S128.Idx → EReal) (ix1 q'))
          (fun q' => (g : S128.Idx → EReal) (ix1 q')) (fun q' => (β : S128.Idx → EReal) (ix1 q')) p q := by
  unfold Stages.layerS Cert.Gcn.layerR
  rw [lreluS_apply]
  refine congrArg (fun f => Cert.Gcn.lrelu f p q) (funext fun r => funext fun k => ?_)
  rw [bnS_apply]
  refine congrArg (fun f => Cert.Gcn.bnR f _ _ r k) (funext fun r' => funext fun k' => ?_)
  exact pre_apply adj h W b r' k'

/-- The reference's stages at `Ideal`, read at an index, are the specification's two layers in the reference's spelling
    of the batch norm (the quotient by the square root), of the arguments read at their coordinates. -/
theorem outS_apply (x : FVec Ideal S10000x128 .f32) (adj : FVec Ideal S10000x10000 .f32) (W0 : FVec Ideal S128x128 .f32)
    (b0 g0 β0 : FVec Ideal S128 .f32) (W1 : FVec Ideal S128x128 .f32) (b1 g1 β1 : FVec Ideal S128 .f32) (p : Fin 10000) (q : Fin 128) :
    (Stages.outS (F := Ideal) x adj W0 b0 g0 β0 W1 b1 g1 β1 : S10000x128.Idx → EReal) (ix2 p q)
      = Cert.Gcn.outR (fun r l => (adj : S10000x10000.Idx → EReal) (ix2 r l)) (fun r k => (x : S10000x128.Idx → EReal) (ix2 r k))
          (fun k q' => (W0 : S128x128.Idx → EReal) (ix2 k q')) (fun q' => (b0 : S128.Idx → EReal) (ix1 q'))
          (fun q' => (g0 : S128.Idx → EReal) (ix1 q')) (fun q' => (β0 : S128.Idx → EReal) (ix1 q'))
          (fun k q' => (W1 : S128x128.Idx → EReal) (ix2 k q')) (fun q' => (b1 : S128.Idx → EReal) (ix1 q'))
          (fun q' => (g1 : S128.Idx → EReal) (ix1 q')) (fun q' => (β1 : S128.Idx → EReal) (ix1 q')) p q := by
  unfold Stages.outS Cert.Gcn.outR
  rw [layerS_apply]
  refine congrArg (fun f => Cert.Gcn.layerR _ f _ _ _ _ p q) (funext fun r => funext fun k => ?_)
  exact layerS_apply adj x W0 b0 g0 β0 r k

end Cert.ReferenceIdeal.RefValue

end
-- ==== Proof.Bridge.lean ====
/-
  The bridge between the two spellings of the batch norm, over the extended reals.

  The kernel normalises a centred entry by the PRODUCT with the reciprocal square root, `c · rsqrt (v + ε)`; the reference
  by the QUOTIENT by the square root, `c / sqrt (v + ε)`. On the extended reals the two are different functions of
  `z = v + ε`: at `z = 0` the first is `c · ⊤` and the second `c / 0`, and at the infinities they differ again. Where `z` is a
  POSITIVE REAL both are `c · (√z)⁻¹`, for every extended real `c`. So the proof is a realness argument carried through
  the network:

  • the three literals denote reals, `10000`, a positive `ε` and a slope;
  • the reals are closed, inside the extended reals, under sums, differences, products, finite sums and the quotient by
    `10000`; hence aggregation, the linear map, a column's mean, the centred entries and the variance of real arrays are
    real;
  • a column's variance is a sum of squares of reals over `10000`, so it is a NON-NEGATIVE real, and `v + ε` is a positive
    real: there the two batch norms agree;
  • the batch norm of a real array with real scale and shift is real (the reciprocal square root of a positive real is a
    real), and the leaky relu of a real is real on both branches; so the first layer hands the second a real array, and
    the argument is used twice.
-/
import proofs.«144493_g15195594293521_cont_week2b_253_30_alg».proof.Proof.Spec

noncomputable section

open scoped BigOperators

namespace Cert.Gcn

open Idealize.ShloMosaic

/-! ### The literals -/

/-- The row count's literal denotes the real `10000`. -/
theorem cN_eq : cN = ((10000 : ℝ) : EReal) := by
  simp [cN, Ideal.ofBits, Ideal.ieee, -EReal.coe_mul]; norm_num

/-- The batch norm's `ε` denotes a positive real: the dyadic `10995116 · 2⁻⁴⁰`. -/
theorem cEps_eq : ∃ e : ℝ, 0 < e ∧ cEps = (e : EReal) := by
  refine ⟨10995116 * (2 : ℝ) ^ (-40 : ℤ), by positivity, ?_⟩
  simp [cEps, Ideal.ofBits, Ideal.ieee, -EReal.coe_mul]

/-- The leaky relu's slope denotes a real. -/
theorem cSlope_real : IsReal cSlope := by
  unfold IsReal
  simp [cSlope, Ideal.ofBits, Ideal.ieee, -EReal.coe_mul]

/-! ### The reals inside the extended reals are closed under the operations of the network -/

theorem isReal_coe (a : ℝ) : IsReal (a : EReal) := ⟨a, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by the row count is the real quotient. -/
theorem div_cN_coe (a : ℝ) : Ideal.div (a : EReal) cN = ((a / 10000 : ℝ) : EReal) := by
  rw [cN_eq, Ideal.div_coe (by norm_num), ← EReal.coe_mul, mul_one_div]

theorem IsReal.div_cN {x : EReal} (hx : IsReal x) : IsReal (Ideal.div x cN) := by
  obtain ⟨a, rfl⟩ := hx
  exact ⟨a / 10000, div_cN_coe a⟩

/-- A real that is non-negative as an extended real has a non-negative witness. -/
theorem IsReal.nonneg_witness {x : EReal} (hx : IsReal x) (h0 : 0 ≤ x) : ∃ a : ℝ, 0 ≤ a ∧ x = (a : EReal) := by
  obtain ⟨a, rfl⟩ := hx
  exact ⟨a, EReal.coe_nonneg.mp h0, rfl⟩

theorem isReal_eye (r l : Fin N) : IsReal (eye r l) := by
  unfold eye
  split_ifs
  · exact isReal_one
  · exact isReal_zero

/-! ### The stages of one layer keep real arrays real -/

section Stages

variable {adj : Fin N → Fin N → EReal} {h t : Fin N → Fin D → EReal} {W : Fin D → Fin D → EReal} {b g β : Fin D → EReal}

theorem isReal_agg (hadj : ∀ r l, IsReal (adj r l)) (hh : ∀ r k, IsReal (h r k)) (r : Fin N) (k : Fin D) :
    IsReal (agg adj h r k) :=
  IsReal.sum _ _ fun l _ => ((hadj r l).add (isReal_eye r l)).mul (hh l k)

theorem isReal_lin (ha : ∀ r k, IsReal (t r k)) (hW : ∀ k q, IsReal (W k q)) (hb : ∀ q, IsReal (b q)) (r : Fin N)
    (q : Fin D) : IsReal (lin t W b r q) :=
  (IsReal.sum _ _ fun k _ => (ha r k).mul (hW k q)).add (hb q)

theorem isReal_mean (ht : ∀ r q, IsReal (t r q)) (q : Fin D) : IsReal (mean t q) :=
  (IsReal.sum _ _ fun r _ => ht r q).div_cN

theorem isReal_cen (ht : ∀ r q, IsReal (t r q)) (r : Fin N) (q : Fin D) : IsReal (cen t r q) :=
  (ht r q).sub (isReal_mean ht q)

/-- The sum of the squares of a real column's centred entries: a non-negative real. -/
theorem sumSq_nonneg (ht : ∀ r q, IsReal (t r q)) (q : Fin D) : 0 ≤ ∑ r : Fin N, cen t r q * cen t r q := by
  refine Finset.sum_nonneg fun r _ => ?_
  obtain ⟨c, hc⟩ := isReal_cen ht r q
  rw [hc, ← EReal.coe_mul]
  exact EReal.coe_nonneg.mpr (mul_self_nonneg c)

/-- A real column's variance is a non-negative real. -/
theorem var_nonneg_real (ht : ∀ r q, IsReal (t r q)) (q : Fin D) : ∃ v : ℝ, 0 ≤ v ∧ var t q = (v : EReal) := by
  obtain ⟨s, hs0, hs⟩ :=
    (IsReal.sum Finset.univ (fun r : Fin N => cen t r q * cen t r q) fun r _ =>
      (isReal_cen ht r q).mul (isReal_cen ht r q)).nonneg_witness (sumSq_nonneg ht q)
  refine ⟨s / 10000, by positivity, ?_⟩
  unfold var
  rw [hs, div_cN_coe]

/-- For a real column, `variance + ε` is a positive real. -/
theorem var_add_eps_pos (ht : ∀ r q, IsReal (t r q)) (q : Fin D) :
    ∃ z : ℝ, 0 < z ∧ var t q + cEps = (z : EReal) := by
  obtain ⟨v, hv0, hv⟩ := var_nonneg_real ht q
  obtain ⟨e, he0, he⟩ := cEps_eq
  exact ⟨v + e, by positivity, by rw [hv, he, EReal.coe_add]⟩

end Stages

/-! ### At a positive real the two normalisations agree -/

/-- The reciprocal square root of a positive real is the real `(√z)⁻¹`. -/
theorem rsqrt_pos {z : ℝ} (hz : 0 < z) : Ideal.rsqrt (z : EReal) = (((Real.sqrt z)⁻¹ : ℝ) : EReal) := by
  rw [Ideal.rsqrt_coe, if_neg (not_lt.mpr hz.le), if_neg hz.ne']

/-- At a positive real `z` the product with the reciprocal square root is the quotient by the square root: both are
    `c · (√z)⁻¹`, whatever the extended real `c`. -/
theorem mul_rsqrt_eq_div_sqrt {z : ℝ} (hz : 0 < z) (c : EReal) :
    c * Ideal.rsqrt (z : EReal) = Ideal.div c (Ideal.sqrt (z : EReal)) := by
  rw [rsqrt_pos hz, Ideal.sqrt_coe, if_neg (not_lt.mpr hz.le), Ideal.div_coe (Real.sqrt_pos.mpr hz).ne', one_div]

section Layer

variable {adj : Fin N → Fin N → EReal} {h t : Fin N → Fin D → EReal} {W : Fin D → Fin D → EReal} {b g β : Fin D → EReal}

/-- The two batch norms agree on a real array (scale and shift arbitrary). -/
theorem bnK_eq_bnR (ht : ∀ r q, IsReal (t r q)) (g β : Fin D → EReal) : bnK t g β = bnR t g β := by
  funext r q
  obtain ⟨z, hz0, hz⟩ := var_add_eps_pos ht q
  unfold bnK bnR
  rw [hz, mul_rsqrt_eq_div_sqrt hz0]

/-- The kernel's batch norm of a real array, with real scale and shift, is real. -/
theorem isReal_bnK (ht : ∀ r q, IsReal (t r q)) (hg : ∀ q, IsReal (g q)) (hβ : ∀ q, IsReal (β q)) (r : Fin N)
    (q : Fin D) : IsReal (bnK t g β r q) := by
  obtain ⟨z, hz0, hz⟩ := var_add_eps_pos ht q
  unfold bnK
  rw [hz, rsqrt_pos hz0]
  exact (((isReal_cen ht r q).mul (isReal_coe _)).mul (hg q)).add (hβ q)

/-- The leaky relu of a real array is real: the entry itself, or the slope's multiple of it. -/
theorem isReal_lrelu {y : Fin N → Fin D → EReal} (hy : ∀ r q, IsReal (y r q)) (r : Fin N) (q : Fin D) :
    IsReal (lrelu y r q) := by
  unfold lrelu
  split_ifs
  · exact hy r q
  · exact cSlope_real.mul (hy r q)

/-- One layer, in the two spellings, on real inputs (scale and shift arbitrary). -/
theorem layerK_eq_layerR (hadj : ∀ r l, IsReal (adj r l)) (hh : ∀ r k, IsReal (h r k)) (hW : ∀ k q, IsReal (W k q))
    (hb : ∀ q, IsReal (b q)) (g β : Fin D → EReal) : layerK adj h W b g β = layerR adj h W b g β := by
  unfold layerK layerR
  rw [bnK_eq_bnR (isReal_lin (isReal_agg hadj hh) hW hb) g β]

/-- One layer of real inputs and real parameters is real. -/
theorem isReal_layerK (hadj : ∀ r l, IsReal (adj r l)) (hh : ∀ r k, IsReal (h r k)) (hW : ∀ k q, IsReal (W k q))
    (hb : ∀ q, IsReal (b q)) (hg : ∀ q, IsReal (g q)) (hβ : ∀ q, IsReal (β q)) (r : Fin N) (q : Fin D) :
    IsReal (layerK adj h W b g β r q) :=
  isReal_lrelu (isReal_bnK (isReal_lin (isReal_agg hadj hh) hW hb) hg hβ) r q

end Layer

/-- On real inputs the two spellings of the network agree: every pre-activation is real, so every column's variance is a
    non-negative real, `v + ε` a positive real, and there the product with the reciprocal square root is the quotient by the
    square root. -/
theorem outK_eq_outR (adj : Fin N → Fin N → EReal) (x : Fin N → Fin D → EReal) (W0 : Fin D → Fin D → EReal) (b0 g0 β0 : Fin D → EReal)
    (W1 : Fin D → Fin D → EReal) (b1 g1 β1 : Fin D → EReal)
    (hadj : ∀ r l, IsReal (adj r l)) (hx : ∀ r k, IsReal (x r k))
    (hW0 : ∀ k q, IsReal (W0 k q)) (hb0 : ∀ q, IsReal (b0 q)) (hg0 : ∀ q, IsReal (g0 q)) (hβ0 : ∀ q, IsReal (β0 q))
    (hW1 : ∀ k q, IsReal (W1 k q)) (hb1 : ∀ q, IsReal (b1 q)) (hg1 : ∀ q, IsReal (g1 q)) (hβ1 : ∀ q, IsReal (β1 q)) :
    outK adj x W0 b0 g0 β0 W1 b1 g1 β1 = outR adj x W0 b0 g0 β0 W1 b1 g1 β1 := by
  unfold outK outR
  rw [← layerK_eq_layerR hadj hx hW0 hb0 g0 β0]
  exact layerK_eq_layerR hadj (isReal_layerK hadj hx hW0 hb0 hg0 hβ0) hW1 hb1 g1 β1

end Cert.Gcn

end
-- ==== Proof.Finite.lean ====
/-
  Finite inputs are real numbers.

  Over the extended reals a float is `⊥`, `⊤` or a real number, and `|x| = max x (−x)` is `⊤` at both infinities.
  So the test `|x| < +∞` — the strict comparison of `|x|` with the number the bit pattern `0x7F800000` denotes,
  which is `⊤` — holds exactly when `x` is a real number. The precondition takes that test at every entry of each
  of the ten argument arrays, folds each array's tests by `and` from `true` over all of its axes, and joins the ten
  results by `and`; it states that the outcome is `true`. A conjunction that is `true` has every conjunct `true`,
  and a fold by `and` that is `true` met only `true`s: hence every entry of every argument passes the test, and is
  a real number.
-/
import proofs.«144493_g15195594293521_cont_week2b_253_30_alg».proof.Defs
import proofs.«144493_g15195594293521_cont_week2b_253_30_alg».proof.Proof.Gen.KernelIdeal
import proofs.«144493_g15195594293521_cont_week2b_253_30_alg».proof.Proof.Gen.Pre_finite_inputs
import proofs.«144493_g15195594293521_cont_week2b_253_30_alg».proof.Proof.Views
import Idealize.ShloMosaic.Lib.ReduceAll
import Idealize.ShloMosaic.Lib.ValueIdx

noncomputable section

namespace Cert.Finite

open Idealize.ShloMosaic Idealize.ShloMosaic.ValueIdx Idealize.SL.Sem Cert.KernelIdeal Cert.Gcn

/-- The shape of a scalar has exactly one index: the empty tuple of coordinates. -/
instance : Subsingleton Cert.Pre_finite_inputs.S_.Idx := ⟨fun a b => funext fun d => d.elim0⟩

/-- The bit pattern `0x7F800000` denotes `+∞`, the top of the extended reals. -/
theorem inf_eq_top : Ideal.ofBits .f32 0x7F800000#32 = (⊤ : EReal) := by simp [Ideal.ofBits, Ideal.ieee]

/-- An extended real whose absolute value `max x (−x)` is strictly below `+∞` is a real number: at `⊥` and at `⊤`
    the absolute value is `⊤`, which is not below itself. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) : IsReal x := by
  have h' : BitVec.ofBool (decide (max x (-x) < Ideal.ofBits .f32 0x7F800000#32)) = 1#1 := h
  rw [inf_eq_top] at h'
  induction x using EReal.rec with
  | bot => simp at h'
  | top => simp at h'
  | coe r => exact ⟨r, rfl⟩

/-- One array's test, for an array of any shape: if the fold by `and`, over all axes and from `true`, of the
    entrywise tests `|v i| < +∞` is `true`, then every entry of `v` is a real number. -/
theorem real_of_all_finite {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf v)
            (broadcastInDim s ![] hb (constant (F := Ideal) Cert.Pre_finite_inputs.S_ .f32 0x7F800000#32)))
          (constantI Cert.Pre_finite_inputs.S_ 1 1#1) hr hu j = 1#1) (i : s.Idx) : IsReal (v i) :=
  real_of_abs_lt_inf (v i) (Host.reduce_andi_all _ _ hr hu j e i)

/-- A conjunction of two arrays of truth values that is `true` at an index has both conjuncts `true` there. -/
theorem and_one {s : Shape} (x y : IVec s 1) (j : s.Idx) (h : andi x y j = 1#1) : x j = 1#1 ∧ y j = 1#1 :=
  IntOp.andi_eq_one.1 h

/-- Under the precondition (every float input finite) every entry of every argument array is a real number. -/
theorem of_pre (m : (ℓ : Loc nD τ sig) → Buf (Elt Ideal) ℓ) (h : Cert.Pre_KernelIdeal m) (c : Dev nD) :
    (∀ r l, IsReal (In.adj m c r l)) ∧ (∀ r k, IsReal (In.x m c r k))
    ∧ (∀ k q, IsReal (In.W0 m c k q)) ∧ (∀ q, IsReal (In.b0 m c q)) ∧ (∀ q, IsReal (In.g0 m c q)) ∧ (∀ q, IsReal (In.β0 m c q))
    ∧ (∀ k q, IsReal (In.W1 m c k q)) ∧ (∀ q, IsReal (In.b1 m c q)) ∧ (∀ q, IsReal (In.g1 m c q)) ∧ (∀ q, IsReal (In.β1 m c q)) := by
  have e := congrFun (h c) ValueIdx.ix0
  dsimp only [Cert.Pre_finite_inputs.fn, Cert.Pre_finite_inputs.fn_part1, Cert.Pre_finite_inputs.fn_part2] at e
  obtain ⟨e, e9⟩ := and_one _ _ _ e
  obtain ⟨e, e8⟩ := and_one _ _ _ e
  obtain ⟨e, e7⟩ := and_one _ _ _ e
  obtain ⟨e, e6⟩ := and_one _ _ _ e
  obtain ⟨e, e5⟩ := and_one _ _ _ e
  obtain ⟨e, e4⟩ := and_one _ _ _ e
  obtain ⟨e, e3⟩ := and_one _ _ _ e
  obtain ⟨e, e2⟩ := and_one _ _ _ e
  obtain ⟨e0, e1⟩ := and_one _ _ _ e
  exact ⟨fun r l => real_of_all_finite _ _ _ _ _ e1 (ix2 r l),
    fun r k => real_of_all_finite _ _ _ _ _ e0 (ix2 r k),
    fun k q => real_of_all_finite _ _ _ _ _ e2 (ix2 k q),
    fun q => real_of_all_finite _ _ _ _ _ e3 (ix1 q),
    fun q => real_of_all_finite _ _ _ _ _ e4 (ix1 q),
    fun q => real_of_all_finite _ _ _ _ _ e5 (ix1 q),
    fun k q => real_of_all_finite _ _ _ _ _ e6 (ix2 k q),
    fun q => real_of_all_finite _ _ _ _ _ e7 (ix1 q),
    fun q => real_of_all_finite _ _ _ _ _ e8 (ix1 q),
    fun q => real_of_all_finite _ _ _ _ _ e9 (ix1 q)⟩

end Cert.Finite

end
-- ==== Proof.lean ====
/-
  The certificate of a two-layer graph convolution on a dense adjacency: the kernel (four launches: a row-blocked
  `(A + I) · h · W + b` and a whole-array batch norm with leaky relu, twice) against the plain jnp reference.

  The three frames: the word-level and the idealized kernel by the generated frame of their four regions (repaired in the
  copies Proof/FrameKernel.lean and Proof/FrameKernelIdeal.lean), the reference by its run with the result dropped.
  `preserves` is trivial: the ideal pass rewrote nothing.
  `algebraic`: the kernel's result array ends at the specification's two layers with the batch norm by the product with the
  reciprocal square root (Proof/KernelValue.lean, over the four regions' arrays), the reference's at the same two layers
  with the quotient by the square root (Proof/RefRun.lean, Proof/RefValue.lean). The precondition makes every argument
  entry real (Proof/Finite.lean); then every pre-activation is real, every column's variance plus `ε` a positive real,
  and there `c · rsqrt z = c / sqrt z` (Proof/Bridge.lean). Without finiteness the two differ (at `z = 0`: `0 · ⊤ = 0`
  against `0 / 0`), so the precondition is used, not carried.
-/
import proofs.«144493_g15195594293521_cont_week2b_253_30_alg».proof.Defs
import proofs.«144493_g15195594293521_cont_week2b_253_30_alg».proof.Proof.Gen.Kernel
import proofs.«144493_g15195594293521_cont_week2b_253_30_alg».proof.Proof.Gen.KernelIdeal
import proofs.«144493_g15195594293521_cont_week2b_253_30_alg».proof.Proof.Gen.ReferenceIdeal
import proofs.«144493_g15195594293521_cont_week2b_253_30_alg».proof.Proof.Gen.Pre_finite_inputs
import proofs.«144493_g15195594293521_cont_week2b_253_30_alg».proof.Proof.FrameKernel
import proofs.«144493_g15195594293521_cont_week2b_253_30_alg».proof.Proof.FrameKernelIdeal
import proofs.«144493_g15195594293521_cont_week2b_253_30_alg».proof.Proof.KernelValue
import proofs.«144493_g15195594293521_cont_week2b_253_30_alg».proof.Proof.RefRun
import proofs.«144493_g15195594293521_cont_week2b_253_30_alg».proof.Proof.RefValue
import proofs.«144493_g15195594293521_cont_week2b_253_30_alg».proof.Proof.Bridge
import proofs.«144493_g15195594293521_cont_week2b_253_30_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result array at one function of the arguments: the reference's two layers, which on the
    real entries the precondition gives are the kernel's. -/
theorem algebraic : Cert.algebraic_KernelIdeal_ReferenceIdeal := by
  intro m ρ m' ρ' hpre hagree
  refine ⟨fun c => Cert.KernelIdeal.In.result m c, Cert.KernelIdeal.Chain.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9⟩ := hagree c
  rw [e0, e1, e2, e3, e4, e5, e6, e7, e8, e9]
  funext j
  obtain ⟨p, q, rfl⟩ : ∃ (p : Fin 10000) (q : Fin 128), j = ix2 p q := ⟨j 0, j 1, eq_ix2 j⟩
  rw [Cert.ReferenceIdeal.RefValue.outS_apply]
  obtain ⟨hadj, hx, hW0, hb0, hg0, hβ0, hW1, hb1, hg1, hβ1⟩ := Cert.Finite.of_pre m hpre c
  exact (congrFun (congrFun (Cert.Gcn.outK_eq_outR (Cert.KernelIdeal.In.adj m c) (Cert.KernelIdeal.In.x m c)
    (Cert.KernelIdeal.In.W0 m c) (Cert.KernelIdeal.In.b0 m c) (Cert.KernelIdeal.In.g0 m c) (Cert.KernelIdeal.In.β0 m c)
    (Cert.KernelIdeal.In.W1 m c) (Cert.KernelIdeal.In.b1 m c) (Cert.KernelIdeal.In.g1 m c) (Cert.KernelIdeal.In.β1 m c)
    hadj hx hW0 hb0 hg0 hβ0 hW1 hb1 hg1 hβ1) p) q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
